-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S100000 : Shape := ⟨1, ![100000]⟩
abbrev S3000 : Shape := ⟨1, ![3000]⟩
abbrev S500000 : Shape := ⟨1, ![500000]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S100000 : S_.BroadcastsInDim S100000 (![] : Fin 0 → Fin S100000.rank)
  reducesTo_S100000_S_d0 : S100000.ReducesTo [0] S_
  bcast_S_S3000 : S_.BroadcastsInDim S3000 (![] : Fin 0 → Fin S3000.rank)
  reducesTo_S3000_S_d0 : S3000.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg6 : IVec S500000 32) (main_arg7 : IVec S500000 32) (main_v32 : IVec S_ 1) (main_c_12 : IVec S_ 32) : IVec S_ 1 :=
  let main_v33 : IVec S500000 32 := broadcastInDim S500000 ![] bcast_S_S500000 main_c_12
  let main_v34 : IVec S500000 1 := cmpi .sge main_arg6 main_v33
  let main_c_13 : IVec S_ 32 := constantI S_ 32 100000#32
  let main_v35 : IVec S500000 32 := broadcastInDim S500000 ![] bcast_S_S500000 main_c_13
  let main_v36 : IVec S500000 1 := cmpi .slt main_arg6 main_v35
  let main_v37 : IVec S500000 1 := andi main_v34 main_v36
  let main_c_14 : IVec S_ 1 := constantI S_ 1 1#1
  let main_v38 : IVec S_ 1 := (fun x v => Host.reduce IntOp.andi x v reducesTo_S500000_S_d0 h_S_) main_v37 main_c_14
  let main_v39 : IVec S_ 1 := andi main_v32 main_v38
  let main_c_15 : IVec S_ 32 := constantI S_ 32 0#32
  let main_v40 : IVec S500000 32 := broadcastInDim S500000 ![] bcast_S_S500000 main_c_15
  let main_v41 : IVec S500000 1 := cmpi .sge main_arg7 main_v40
  let main_c_16 : IVec S_ 32 := constantI S_ 32 100000#32
  let main_v42 : IVec S500000 32 := broadcastInDim S500000 ![] bcast_S_S500000 main_c_16
  let main_v43 : IVec S500000 1 := cmpi .slt main_arg7 main_v42
  let main_v44 : IVec S500000 1 := andi main_v41 main_v43
  let main_c_17 : IVec S_ 1 := constantI S_ 1 1#1
  let main_v45 : IVec S_ 1 := (fun x v => Host.reduce IntOp.andi x v reducesTo_S500000_S_d0 h_S_) main_v44 main_c_17
  let main_v46 : IVec S_ 1 := andi main_v39 main_v45
  main_v46

def fn_part1 {F : FTy → Type} [FloatOps F] (main_arg4 : IVec S3000 32) (main_arg5 : IVec S3000 32) (main_arg6 : IVec S500000 32) (main_arg7 : IVec S500000 32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_c_6 : IVec S_ 32 := constantI S_ 32 0#32
  let main_v19 : IVec S3000 32 := broadcastInDim S3000 ![] bcast_S_S3000 main_c_6
  let main_v20 : IVec S3000 1 := cmpi .sge main_arg4 main_v19
  let main_c_7 : IVec S_ 32 := constantI S_ 32 100000#32
  let main_v21 : IVec S3000 32 := broadcastInDim S3000 ![] bcast_S_S3000 main_c_7
  let main_v22 : IVec S3000 1 := cmpi .slt main_arg4 main_v21
  let main_v23 : IVec S3000 1 := andi main_v20 main_v22
  let main_c_8 : IVec S_ 1 := constantI S_ 1 1#1
  let main_v24 : IVec S_ 1 := (fun x v => Host.reduce IntOp.andi x v reducesTo_S3000_S_d0 h_S_) main_v23 main_c_8
  let main_v25 : IVec S_ 1 := andi main_v18 main_v24
  let main_c_9 : IVec S_ 32 := constantI S_ 32 0#32
  let main_v26 : IVec S3000 32 := broadcastInDim S3000 ![] bcast_S_S3000 main_c_9
  let main_v27 : IVec S3000 1 := cmpi .sge main_arg5 main_v26
  let main_c_10 : IVec S_ 32 := constantI S_ 32 100000#32
  let main_v28 : IVec S3000 32 := broadcastInDim S3000 ![] bcast_S_S3000 main_c_10
  let main_v29 : IVec S3000 1 := cmpi .slt main_arg5 main_v28
  let main_v30 : IVec S3000 1 := andi main_v27 main_v29
  let main_c_11 : IVec S_ 1 := constantI S_ 1 1#1
  let main_v31 : IVec S_ 1 := (fun x v => Host.reduce IntOp.andi x v reducesTo_S3000_S_d0 h_S_) main_v30 main_c_11
  let main_v32 : IVec S_ 1 := andi main_v25 main_v31
  let main_c_12 : IVec S_ 32 := constantI S_ 32 0#32
  fn_part2 (F := F) main_arg6 main_arg7 main_v32 main_c_12

def fn {F : FTy → Type} [FloatOps F] (main_arg0 : FVec F S100000x8 .f32) (main_arg1 : FVec F S100000x8 .f32) (main_arg2 : FVec F S100000 .f32) (main_arg3 : FVec F S100000 .f32) (main_arg4 : IVec S3000 32) (main_arg5 : IVec S3000 32) (main_arg6 : IVec S500000 32) (main_arg7 : IVec S500000 32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S100000x8 .f32 := Host.absf main_arg1
  let main_cst_0 : FVec F S_ .f32 := constant S_ .f32 0x7F800000#32
  let main_v5 : FVec F S100000x8 .f32 := broadcastInDim S100000x8 ![] bcast_S_S100000x8 main_cst_0
  let main_v6 : IVec S100000x8 1 := cmpf .olt main_v4 main_v5
  let main_c_1 : IVec S_ 1 := constantI S_ 1 1#1
  let main_v7 : IVec S_ 1 := (fun x v => Host.reduce IntOp.andi x v reducesTo_S100000x8_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000 .f32 := Host.absf main_arg3
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg4 main_arg5 main_arg6 main_arg7 main_v13 main_v16
-- ==== Kernel.lean ====
abbrev S100000x8 : Shape := ⟨2, ![100000, 8]⟩
abbrev S100000 : Shape := ⟨1, ![100000]⟩
abbrev S3000 : Shape := ⟨1, ![3000]⟩
abbrev S500000 : Shape := ⟨1, ![500000]⟩
abbrev S_ : Shape := ⟨0, ![]⟩
abbrev S3000x1 : Shape := ⟨2, ![3000, 1]⟩
abbrev S1 : Shape := ⟨1, ![1]⟩
abbrev S1x1 : Shape := ⟨2, ![1, 1]⟩
abbrev S3000x8 : Shape := ⟨2, ![3000, 8]⟩
abbrev S500000x1 : Shape := ⟨2, ![500000, 1]⟩
abbrev S500000x8 : Shape := ⟨2, ![500000, 8]⟩
abbrev S3072x8 : Shape := ⟨2, ![3072, 8]⟩
abbrev S8x3072 : Shape := ⟨2, ![8, 3072]⟩
abbrev S3072 : Shape := ⟨1, ![3072]⟩
abbrev S3072x1 : Shape := ⟨2, ![3072, 1]⟩
abbrev S1x3072 : Shape := ⟨2, ![1, 3072]⟩
abbrev S768x8 : Shape := ⟨2, ![768, 8]⟩
abbrev S8x768 : Shape := ⟨2, ![8, 768]⟩
abbrev S768x1 : Shape := ⟨2, ![768, 1]⟩
abbrev S1x768 : Shape := ⟨2, ![1, 768]⟩
abbrev S768x768 : Shape := ⟨2, ![768, 768]⟩
abbrev S768 : Shape := ⟨1, ![768]⟩

abbrev nBuf : Space → Nat
  | .hbm => 254
  | .vmem => 19
  | .smem => 0
  | _ => 0

abbrev hbmTy0_0 (i : Nat) : BufTy := match i % 128 with
  | 0 => ⟨S100000x8, .f32⟩
  | 1 => ⟨S100000x8, .f32⟩
  | 2 => ⟨S100000, .f32⟩
  | 3 => ⟨S100000, .f32⟩
  | 4 => ⟨S3000, .i32⟩
  | 5 => ⟨S3000, .i32⟩
  | 6 => ⟨S500000, .i32⟩
  | 7 => ⟨S500000, .i32⟩
  | 8 => ⟨S_, .i32⟩
  | 9 => ⟨S3000, .i32⟩
  | 10 => ⟨S3000, .i1⟩
  | 11 => ⟨S_, .i32⟩
  | 12 => ⟨S3000, .i32⟩
  | 13 => ⟨S3000, .i32⟩
  | 14 => ⟨S3000, .i32⟩
  | 15 => ⟨S3000x1, .i32⟩
  | 16 => ⟨S1, .i32⟩
  | 17 => ⟨S_, .i32⟩
  | 18 => ⟨S3000x1, .i32⟩
  | 19 => ⟨S3000x1, .i1⟩
  | 20 => ⟨S1x1, .i32⟩
  | 21 => ⟨S3000x1, .i32⟩
  | 22 => ⟨S3000x1, .i1⟩
  | 23 => ⟨S3000x1, .i1⟩
  | 24 => ⟨S_, .i1⟩
  | 25 => ⟨S3000, .i1⟩
  | 26 => ⟨S3000x8, .f32⟩
  | 27 => ⟨S3000x8, .i1⟩
  | 28 => ⟨S_, .f32⟩
  | 29 => ⟨S3000x8, .f32⟩
  | 30 => ⟨S3000x8, .f32⟩
  | 31 => ⟨S_, .i32⟩
  | 32 => ⟨S3000, .i32⟩
  | 33 => ⟨S3000, .i1⟩
  | 34 => ⟨S_, .i32⟩
  | 35 => ⟨S3000, .i32⟩
  | 36 => ⟨S3000, .i32⟩
  | 37 => ⟨S3000, .i32⟩
  | 38 => ⟨S3000x1, .i32⟩
  | 39 => ⟨S1, .i32⟩
  | 40 => ⟨S_, .i32⟩
  | 41 => ⟨S3000x1, .i32⟩
  | 42 => ⟨S3000x1, .i1⟩
  | 43 => ⟨S1x1, .i32⟩
  | 44 => ⟨S3000x1, .i32⟩
  | 45 => ⟨S3000x1, .i1⟩
  | 46 => ⟨S3000x1, .i1⟩
  | 47 => ⟨S_, .i1⟩
  | 48 => ⟨S3000, .i1⟩
  | 49 => ⟨S3000x8, .f32⟩
  | 50 => ⟨S3000x8, .i1⟩
  | 51 => ⟨S_, .f32⟩
  | 52 => ⟨S3000x8, .f32⟩
  | 53 => ⟨S3000x8, .f32⟩
  | 54 => ⟨S_, .i32⟩
  | 55 => ⟨S3000, .i32⟩
  | 56 => ⟨S3000, .i1⟩
  | 57 => ⟨S_, .i32⟩
  | 58 => ⟨S3000, .i32⟩
  | 59 => ⟨S3000, .i32⟩
  | 60 => ⟨S3000, .i32⟩
  | 61 => ⟨S3000x1, .i32⟩
  | 62 => ⟨S1, .i32⟩
  | 63 => ⟨S_, .i32⟩
  | 64 => ⟨S3000x1, .i32⟩
  | 65 => ⟨S3000x1, .i1⟩
  | 66 => ⟨S1x1, .i32⟩
  | 67 => ⟨S3000x1, .i32⟩
  | 68 => ⟨S3000x1, .i1⟩
  | 69 => ⟨S3000x1, .i1⟩
  | 70 => ⟨S_, .i1⟩
  | 71 => ⟨S3000, .i1⟩
  | 72 => ⟨S3000, .f32⟩
  | 73 => ⟨S_, .f32⟩
  | 74 => ⟨S3000, .f32⟩
  | 75 => ⟨S3000, .f32⟩
  | 76 => ⟨S_, .i32⟩
  | 77 => ⟨S3000, .i32⟩
  | 78 => ⟨S3000, .i1⟩
  | 79 => ⟨S_, .i32⟩
  | 80 => ⟨S3000, .i32⟩
  | 81 => ⟨S3000, .i32⟩
  | 82 => ⟨S3000, .i32⟩
  | 83 => ⟨S3000x1, .i32⟩
  | 84 => ⟨S1, .i32⟩
  | 85 => ⟨S_, .i32⟩
  | 86 => ⟨S3000x1, .i32⟩
  | 87 => ⟨S3000x1, .i1⟩
  | 88 => ⟨S1x1, .i32⟩
  | 89 => ⟨S3000x1, .i32⟩
  | 90 => ⟨S3000x1, .i1⟩
  | 91 => ⟨S3000x1, .i1⟩
  | 92 => ⟨S_, .i1⟩
  | 93 => ⟨S3000, .i1⟩
  | 94 => ⟨S3000, .f32⟩
  | 95 => ⟨S_, .f32⟩
  | 96 => ⟨S3000, .f32⟩
  | 97 => ⟨S3000, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S1, .i32⟩
  | 107 => ⟨S_, .i32⟩
  | 108 => ⟨S500000x1, .i32⟩
  | 109 => ⟨S500000x1, .i1⟩
  | 110 => ⟨S1x1, .i32⟩
  | 111 => ⟨S500000x1, .i32⟩
  | 112 => ⟨S500000x1, .i1⟩
  | 113 => ⟨S500000x1, .i1⟩
  | 114 => ⟨S_, .i1⟩
  | 115 => ⟨S500000, .i1⟩
  | 116 => ⟨S500000x8, .f32⟩
  | 117 => ⟨S500000x8, .i1⟩
  | 118 => ⟨S_, .f32⟩
  | 119 => ⟨S500000x8, .f32⟩
  | 120 => ⟨S500000x8, .f32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S100000x8, .f32⟩

abbrev hbmTy0_1 (i : Nat) : BufTy := match i % 128 with
  | 0 => ⟨S500000x1, .i32⟩
  | 1 => ⟨S1, .i32⟩
  | 2 => ⟨S_, .i32⟩
  | 3 => ⟨S500000x1, .i32⟩
  | 4 => ⟨S500000x1, .i1⟩
  | 5 => ⟨S1x1, .i32⟩
  | 6 => ⟨S500000x1, .i32⟩
  | 7 => ⟨S500000x1, .i1⟩
  | 8 => ⟨S500000x1, .i1⟩
  | 9 => ⟨S_, .i1⟩
  | 10 => ⟨S500000, .i1⟩
  | 11 => ⟨S500000x8, .f32⟩
  | 12 => ⟨S500000x8, .i1⟩
  | 13 => ⟨S_, .f32⟩
  | 14 => ⟨S500000x8, .f32⟩
  | 15 => ⟨S500000x8, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S1, .i32⟩
  | 25 => ⟨S_, .i32⟩
  | 26 => ⟨S500000x1, .i32⟩
  | 27 => ⟨S500000x1, .i1⟩
  | 28 => ⟨S1x1, .i32⟩
  | 29 => ⟨S500000x1, .i32⟩
  | 30 => ⟨S500000x1, .i1⟩
  | 31 => ⟨S500000x1, .i1⟩
  | 32 => ⟨S_, .i1⟩
  | 33 => ⟨S500000, .i1⟩
  | 34 => ⟨S500000, .f32⟩
  | 35 => ⟨S_, .f32⟩
  | 36 => ⟨S500000, .f32⟩
  | 37 => ⟨S500000, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S1, .i32⟩
  | 47 => ⟨S_, .i32⟩
  | 48 => ⟨S500000x1, .i32⟩
  | 49 => ⟨S500000x1, .i1⟩
  | 50 => ⟨S1x1, .i32⟩
  | 51 => ⟨S500000x1, .i32⟩
  | 52 => ⟨S500000x1, .i1⟩
  | 53 => ⟨S500000x1, .i1⟩
  | 54 => ⟨S_, .i1⟩
  | 55 => ⟨S500000, .i1⟩
  | 56 => ⟨S500000, .f32⟩
  | 57 => ⟨S_, .f32⟩
  | 58 => ⟨S500000, .f32⟩
  | 59 => ⟨S500000, .f32⟩
  | 60 => ⟨S_, .f32⟩
  | 61 => ⟨S3000x8, .f32⟩
  | 62 => ⟨S3000x8, .f32⟩
  | 63 => ⟨S3000x8, .f32⟩
  | 64 => ⟨S_, .f32⟩
  | 65 => ⟨S3000, .f32⟩
  | 66 => ⟨S3000x1, .f32⟩
  | 67 => ⟨S3000x8, .f32⟩
  | 68 => ⟨S_, .f32⟩
  | 69 => ⟨S3000, .f32⟩
  | 70 => ⟨S3000x1, .f32⟩
  | 71 => ⟨S3000x8, .bf16⟩
  | 72 => ⟨S3000x8, .bf16⟩
  | 73 => ⟨S_, .i32⟩
  | 74 => ⟨S_, .bf16⟩
  | 75 => ⟨S3072x8, .bf16⟩
  | 76 => ⟨S_, .i32⟩
  | 77 => ⟨S_, .bf16⟩
  | 78 => ⟨S3072x8, .bf16⟩
  | 79 => ⟨S8x3072, .bf16⟩
  | 80 => ⟨S3000, .f32⟩
  | 81 => ⟨S_, .i32⟩
  | 82 => ⟨S_, .f32⟩
  | 83 => ⟨S3072, .f32⟩
  | 84 => ⟨S3072x1, .f32⟩
  | 85 => ⟨S3000, .f32⟩
  | 86 => ⟨S_, .i32⟩
  | 87 => ⟨S_, .f32⟩
  | 88 => ⟨S3072, .f32⟩
  | 89 => ⟨S1x3072, .f32⟩
  | 90 => ⟨S_, .i32⟩
  | 91 => ⟨S_, .f32⟩
  | 92 => ⟨S3072, .f32⟩
  | 93 => ⟨S3072x1, .f32⟩
  | 94 => ⟨S_, .i32⟩
  | 95 => ⟨S_, .f32⟩
  | 96 => ⟨S3072, .f32⟩
  | 97 => ⟨S1x3072, .f32⟩
  | 98 => ⟨S3072, .i32⟩
  | 99 => ⟨S_, .i32⟩
  | 100 => ⟨S3072, .i32⟩
  | 101 => ⟨S3072, .i1⟩
  | 102 => ⟨S3072, .f32⟩
  | 103 => ⟨S3072x1, .f32⟩
  | 104 => ⟨S3072, .i32⟩
  | 105 => ⟨S_, .i32⟩
  | 106 => ⟨S3072, .i32⟩
  | 107 => ⟨S3072, .i1⟩
  | 108 => ⟨S3072, .f32⟩
  | 109 => ⟨S1x3072, .f32⟩
  | 110 => ⟨S3072x1, .f32⟩
  | 111 => ⟨S_, .f32⟩
  | 112 => ⟨S_, .f32⟩
  | 113 => ⟨S500000x8, .f32⟩
  | 114 => ⟨S_, .f32⟩
  | 115 => ⟨S500000x8, .f32⟩
  | 116 => ⟨S500000x8, .f32⟩
  | 117 => ⟨S500000x8, .f32⟩
  | 118 => ⟨S_, .f32⟩
  | 119 => ⟨S500000, .f32⟩
  | 120 => ⟨S500000, .f32⟩
  | 121 => ⟨S500000, .f32⟩
  | 122 => ⟨S500000, .f32⟩
  | 123 => ⟨S_, .f32⟩
  | 124 => ⟨S_, .f32⟩
  | 125 => ⟨S_, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | .local _ .vmem, ⟨0, _⟩ => ⟨S768x8, .bf16⟩
  | .local _ .vmem, ⟨1, _⟩ => ⟨S768x8, .bf16⟩
  | .local _ .vmem, ⟨2, _⟩ => ⟨S8x768, .bf16⟩
  | .local _ .vmem, ⟨3, _⟩ => ⟨S8x768, .bf16⟩
  | .local _ .vmem, ⟨4, _⟩ => ⟨S768x1, .f32⟩
  | .local _ .vmem, ⟨5, _⟩ => ⟨S768x1, .f32⟩
  | .local _ .vmem, ⟨6, _⟩ => ⟨S1x768, .f32⟩
  | .local _ .vmem, ⟨7, _⟩ => ⟨S1x768, .f32⟩
  | .local _ .vmem, ⟨8, _⟩ => ⟨S768x1, .f32⟩
  | .local _ .vmem, ⟨9, _⟩ => ⟨S768x1, .f32⟩
  | .local _ .vmem, ⟨10, _⟩ => ⟨S1x768, .f32⟩
  | .local _ .vmem, ⟨11, _⟩ => ⟨S1x768, .f32⟩
  | .local _ .vmem, ⟨12, _⟩ => ⟨S768x1, .f32⟩
  | .local _ .vmem, ⟨13, _⟩ => ⟨S768x1, .f32⟩
  | .local _ .vmem, ⟨14, _⟩ => ⟨S1x768, .f32⟩
  | .local _ .vmem, ⟨15, _⟩ => ⟨S1x768, .f32⟩
  | .local _ .vmem, ⟨16, _⟩ => ⟨S768x1, .f32⟩
  | .local _ .vmem, ⟨17, _⟩ => ⟨S768x1, .f32⟩
  | .local _ .vmem, ⟨18, _⟩ => ⟨S768x1, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_cst : Ref sig .tc := ⟨.hbm, 73, rfl⟩
abbrev main_call2_v14 : Ref sig .tc := ⟨.hbm, 74, rfl⟩
abbrev main_v2 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_cst : Ref sig .tc := ⟨.hbm, 95, rfl⟩
abbrev main_call3_v14 : Ref sig .tc := ⟨.hbm, 96, rfl⟩
abbrev main_v3 : Ref sig .tc := ⟨.hbm, 97, rfl⟩
abbrev main_call4_c : Ref sig .tc := ⟨.hbm, 98, rfl⟩
abbrev main_call4_v0 : Ref sig .tc := ⟨.hbm, 99, rfl⟩
abbrev main_call4_v1 : Ref sig .tc := ⟨.hbm, 100, rfl⟩
abbrev main_call4_c_0 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_v5 : Ref sig .tc := ⟨.hbm, 105, rfl⟩
abbrev main_call4_c_1 : Ref sig .tc := ⟨.hbm, 106, rfl⟩
abbrev main_call4_c_2 : Ref sig .tc := ⟨.hbm, 107, rfl⟩
abbrev main_call4_v6 : Ref sig .tc := ⟨.hbm, 108, rfl⟩
abbrev main_call4_v7 : Ref sig .tc := ⟨.hbm, 109, rfl⟩
abbrev main_call4_v8 : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_call4_c_3 : Ref sig .tc := ⟨.hbm, 114, rfl⟩
abbrev main_call4_v12 : Ref sig .tc := ⟨.hbm, 115, rfl⟩
abbrev main_call4_v13 : Ref sig .tc := ⟨.hbm, 116, rfl⟩
abbrev main_call4_v14 : Ref sig .tc := ⟨.hbm, 117, rfl⟩
abbrev main_call4_cst : Ref sig .tc := ⟨.hbm, 118, rfl⟩
abbrev main_call4_v15 : Ref sig .tc := ⟨.hbm, 119, rfl⟩
abbrev main_v4 : Ref sig .tc := ⟨.hbm, 120, rfl⟩
abbrev main_call5_c : Ref sig .tc := ⟨.hbm, 121, rfl⟩
abbrev main_call5_v0 : Ref sig .tc := ⟨.hbm, 122, rfl⟩
abbrev main_call5_v1 : Ref sig .tc := ⟨.hbm, 123, rfl⟩
abbrev main_call5_c_0 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_call5_v5 : Ref sig .tc := ⟨.hbm, 128, rfl⟩
abbrev main_call5_c_1 : Ref sig .tc := ⟨.hbm, 129, rfl⟩
abbrev main_call5_c_2 : Ref sig .tc := ⟨.hbm, 130, rfl⟩
abbrev main_call5_v6 : Ref sig .tc := ⟨.hbm, 131, rfl⟩
abbrev main_call5_v7 : Ref sig .tc := ⟨.hbm, 132, rfl⟩
abbrev main_call5_v8 : Ref sig .tc := ⟨.hbm, 133, rfl⟩
abbrev main_call5_v9 : Ref sig .tc := ⟨.hbm, 134, rfl⟩
abbrev main_call5_v10 : Ref sig .tc := ⟨.hbm, 135, rfl⟩
abbrev main_call5_v11 : Ref sig .tc := ⟨.hbm, 136, rfl⟩
abbrev main_call5_c_3 : Ref sig .tc := ⟨.hbm, 137, rfl⟩
abbrev main_call5_v12 : Ref sig .tc := ⟨.hbm, 138, rfl⟩
abbrev main_call5_v13 : Ref sig .tc := ⟨.hbm, 139, rfl⟩
abbrev main_call5_v14 : Ref sig .tc := ⟨.hbm, 140, rfl⟩
abbrev main_call5_cst : Ref sig .tc := ⟨.hbm, 141, rfl⟩
abbrev main_call5_v15 : Ref sig .tc := ⟨.hbm, 142, rfl⟩
abbrev main_v5 : Ref sig .tc := ⟨.hbm, 143, rfl⟩
abbrev main_call6_c : Ref sig .tc := ⟨.hbm, 144, rfl⟩
abbrev main_call6_v0 : Ref sig .tc := ⟨.hbm, 145, rfl⟩
abbrev main_call6_v1 : Ref sig .tc := ⟨.hbm, 146, rfl⟩
abbrev main_call6_c_0 : Ref sig .tc := ⟨.hbm, 147, rfl⟩
abbrev main_call6_v2 : Ref sig .tc := ⟨.hbm, 148, rfl⟩
abbrev main_call6_v3 : Ref sig .tc := ⟨.hbm, 149, rfl⟩
abbrev main_call6_v4 : Ref sig .tc := ⟨.hbm, 150, rfl⟩
abbrev main_call6_v5 : Ref sig .tc := ⟨.hbm, 151, rfl⟩
abbrev main_call6_c_1 : Ref sig .tc := ⟨.hbm, 152, rfl⟩
abbrev main_call6_c_2 : Ref sig .tc := ⟨.hbm, 153, rfl⟩
abbrev main_call6_v6 : Ref sig .tc := ⟨.hbm, 154, rfl⟩
abbrev main_call6_v7 : Ref sig .tc := ⟨.hbm, 155, rfl⟩
abbrev main_call6_v8 : Ref sig .tc := ⟨.hbm, 156, rfl⟩
abbrev main_call6_v9 : Ref sig .tc := ⟨.hbm, 157, rfl⟩
abbrev main_call6_v10 : Ref sig .tc := ⟨.hbm, 158, rfl⟩
abbrev main_call6_v11 : Ref sig .tc := ⟨.hbm, 159, rfl⟩
abbrev main_call6_c_3 : Ref sig .tc := ⟨.hbm, 160, rfl⟩
abbrev main_call6_v12 : Ref sig .tc := ⟨.hbm, 161, rfl⟩
abbrev main_call6_v13 : Ref sig .tc := ⟨.hbm, 162, rfl⟩
abbrev main_call6_cst : Ref sig .tc := ⟨.hbm, 163, rfl⟩
abbrev main_call6_v14 : Ref sig .tc := ⟨.hbm, 164, rfl⟩
abbrev main_v6 : Ref sig .tc := ⟨.hbm, 165, rfl⟩
abbrev main_call7_c : Ref sig .tc := ⟨.hbm, 166, rfl⟩
abbrev main_call7_v0 : Ref sig .tc := ⟨.hbm, 167, rfl⟩
abbrev main_call7_v1 : Ref sig .tc := ⟨.hbm, 168, rfl⟩
abbrev main_call7_c_0 : Ref sig .tc := ⟨.hbm, 169, rfl⟩
abbrev main_call7_v2 : Ref sig .tc := ⟨.hbm, 170, rfl⟩
abbrev main_call7_v3 : Ref sig .tc := ⟨.hbm, 171, rfl⟩
abbrev main_call7_v4 : Ref sig .tc := ⟨.hbm, 172, rfl⟩
abbrev main_call7_v5 : Ref sig .tc := ⟨.hbm, 173, rfl⟩
abbrev main_call7_c_1 : Ref sig .tc := ⟨.hbm, 174, rfl⟩
abbrev main_call7_c_2 : Ref sig .tc := ⟨.hbm, 175, rfl⟩
abbrev main_call7_v6 : Ref sig .tc := ⟨.hbm, 176, rfl⟩
abbrev main_call7_v7 : Ref sig .tc := ⟨.hbm, 177, rfl⟩
abbrev main_call7_v8 : Ref sig .tc := ⟨.hbm, 178, rfl⟩
abbrev main_call7_v9 : Ref sig .tc := ⟨.hbm, 179, rfl⟩
abbrev main_call7_v10 : Ref sig .tc := ⟨.hbm, 180, rfl⟩
abbrev main_call7_v11 : Ref sig .tc := ⟨.hbm, 181, rfl⟩
abbrev main_call7_c_3 : Ref sig .tc := ⟨.hbm, 182, rfl⟩
abbrev main_call7_v12 : Ref sig .tc := ⟨.hbm, 183, rfl⟩
abbrev main_call7_v13 : Ref sig .tc := ⟨.hbm, 184, rfl⟩
abbrev main_call7_cst : Ref sig .tc := ⟨.hbm, 185, rfl⟩
abbrev main_call7_v14 : Ref sig .tc := ⟨.hbm, 186, rfl⟩
abbrev main_v7 : Ref sig .tc := ⟨.hbm, 187, rfl⟩
abbrev main_cst : Ref sig .tc := ⟨.hbm, 188, rfl⟩
abbrev main_v8 : Ref sig .tc := ⟨.hbm, 189, rfl⟩
abbrev main_v9 : Ref sig .tc := ⟨.hbm, 190, rfl⟩
abbrev main_v10 : Ref sig .tc := ⟨.hbm, 191, rfl⟩
abbrev main_cst_0 : Ref sig .tc := ⟨.hbm, 192, rfl⟩
abbrev main_v11 : Ref sig .tc := ⟨.hbm, 193, rfl⟩
abbrev main_v12 : Ref sig .tc := ⟨.hbm, 194, rfl⟩
abbrev main_v13 : Ref sig .tc := ⟨.hbm, 195, rfl⟩
abbrev main_cst_1 : Ref sig .tc := ⟨.hbm, 196, rfl⟩
abbrev main_v14 : Ref sig .tc := ⟨.hbm, 197, rfl⟩
abbrev main_v15 : Ref sig .tc := ⟨.hbm, 198, rfl⟩
abbrev main_v16 : Ref sig .tc := ⟨.hbm, 199, rfl⟩
abbrev main_v17 : Ref sig .tc := ⟨.hbm, 200, rfl⟩
abbrev main_c : Ref sig .tc := ⟨.hbm, 201, rfl⟩
abbrev main_call8_v0 : Ref sig .tc := ⟨.hbm, 202, rfl⟩
abbrev main_v18 : Ref sig .tc := ⟨.hbm, 203, rfl⟩
abbrev main_c_2 : Ref sig .tc := ⟨.hbm, 204, rfl⟩
abbrev main_call9_v0 : Ref sig .tc := ⟨.hbm, 205, rfl⟩
abbrev main_v19 : Ref sig .tc := ⟨.hbm, 206, rfl⟩
abbrev main_v20 : Ref sig .tc := ⟨.hbm, 207, rfl⟩
abbrev main_v21 : Ref sig .tc := ⟨.hbm, 208, rfl⟩
abbrev main_c_3 : Ref sig .tc := ⟨.hbm, 209, rfl⟩
abbrev main_call10_v0 : Ref sig .tc := ⟨.hbm, 210, rfl⟩
abbrev main_v22 : Ref sig .tc := ⟨.hbm, 211, rfl⟩
abbrev main_v23 : Ref sig .tc := ⟨.hbm, 212, rfl⟩
abbrev main_v24 : Ref sig .tc := ⟨.hbm, 213, rfl⟩
abbrev main_c_4 : Ref sig .tc := ⟨.hbm, 214, rfl⟩
abbrev main_call11_v0 : Ref sig .tc := ⟨.hbm, 215, rfl⟩
abbrev main_v25 : Ref sig .tc := ⟨.hbm, 216, rfl⟩
abbrev main_v26 : Ref sig .tc := ⟨.hbm, 217, rfl⟩
abbrev main_c_5 : Ref sig .tc := ⟨.hbm, 218, rfl⟩
abbrev main_call12_v0 : Ref sig .tc := ⟨.hbm, 219, rfl⟩
abbrev main_v27 : Ref sig .tc := ⟨.hbm, 220, rfl⟩
abbrev main_v28 : Ref sig .tc := ⟨.hbm, 221, rfl⟩
abbrev main_c_6 : Ref sig .tc := ⟨.hbm, 222, rfl⟩
abbrev main_call13_v0 : Ref sig .tc := ⟨.hbm, 223, rfl⟩
abbrev main_v29 : Ref sig .tc := ⟨.hbm, 224, rfl⟩
abbrev main_v30 : Ref sig .tc := ⟨.hbm, 225, rfl⟩
abbrev main_v31 : Ref sig .tc := ⟨.hbm, 226, rfl⟩
abbrev main_c_7 : Ref sig .tc := ⟨.hbm, 227, rfl⟩
abbrev main_v32 : Ref sig .tc := ⟨.hbm, 228, rfl⟩
abbrev main_v33 : Ref sig .tc := ⟨.hbm, 229, rfl⟩
abbrev main_v34 : Ref sig .tc := ⟨.hbm, 230, rfl⟩
abbrev main_v35 : Ref sig .tc := ⟨.hbm, 231, rfl⟩
abbrev main_v36 : Ref sig .tc := ⟨.hbm, 232, rfl⟩
abbrev main_c_8 : Ref sig .tc := ⟨.hbm, 233, rfl⟩
abbrev main_v37 : Ref sig .tc := ⟨.hbm, 234, rfl⟩
abbrev main_v38 : Ref sig .tc := ⟨.hbm, 235, rfl⟩
abbrev main_v39 : Ref sig .tc := ⟨.hbm, 236, rfl⟩
abbrev main_v40 : Ref sig .tc := ⟨.hbm, 237, rfl⟩
abbrev main_v41 : Ref sig .tc := ⟨.hbm, 238, rfl⟩
abbrev main_cst_9 : Ref sig .tc := ⟨.hbm, 239, rfl⟩
abbrev main_v42 : Ref sig .tc := ⟨.hbm, 240, rfl⟩
abbrev main_v43 : Ref sig .tc := ⟨.hbm, 241, rfl⟩
abbrev main_cst_10 : Ref sig .tc := ⟨.hbm, 242, rfl⟩
abbrev main_v44 : Ref sig .tc := ⟨.hbm, 243, rfl⟩
abbrev main_v45 : Ref sig .tc := ⟨.hbm, 244, rfl⟩
abbrev main_v46 : Ref sig .tc := ⟨.hbm, 245, rfl⟩
abbrev main_cst_11 : Ref sig .tc := ⟨.hbm, 246, rfl⟩
abbrev main_v47 : Ref sig .tc := ⟨.hbm, 247, rfl⟩
abbrev main_v48 : Ref sig .tc := ⟨.hbm, 248, rfl⟩
abbrev main_v49 : Ref sig .tc := ⟨.hbm, 249, rfl⟩
abbrev main_v50 : Ref sig .tc := ⟨.hbm, 250, rfl⟩
abbrev main_cst_12 : Ref sig .tc := ⟨.hbm, 251, rfl⟩
abbrev main_v51 : Ref sig .tc := ⟨.hbm, 252, rfl⟩
abbrev main_v52 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_25 : BitVec 32 := 0#32
  let v50 : BitVec 1 := Scalar.cmpi .ne v49 c0_i32_25
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x8 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S768x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S_S3000 : S_.BroadcastsInDim S3000 (![] : Fin 0 → Fin S3000.rank)
  bcast_S3000_S3000x1_0 : S3000.BroadcastsInDim S3000x1 (![0] : Fin 1 → Fin S3000x1.rank)
  bcast_S_S3000x1 : S_.BroadcastsInDim S3000x1 (![] : Fin 0 → Fin S3000x1.rank)
  bcast_S1_S1x1_1 : S1.BroadcastsInDim S1x1 (![1] : Fin 1 → Fin S1x1.rank)
  bcast_S1x1_S3000x1_0_1 : S1x1.BroadcastsInDim S3000x1 (![0, 1] : Fin 2 → Fin S3000x1.rank)
  reducesTo_S3000x1_S3000_d1 : S3000x1.ReducesTo [1] S3000
  h_S_ : 0 < S_.numel
  bcast_S3000_S3000x8_0 : S3000.BroadcastsInDim S3000x8 (![0] : Fin 1 → Fin S3000x8.rank)
  bcast_S_S3000x8 : S_.BroadcastsInDim S3000x8 (![] : Fin 0 → Fin S3000x8.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1x1_S500000x1_0_1 : S1x1.BroadcastsInDim S500000x1 (![0, 1] : Fin 2 → Fin S500000x1.rank)
  reducesTo_S500000x1_S500000_d1 : S500000x1.ReducesTo [1] S500000
  bcast_S500000_S500000x8_0 : S500000.BroadcastsInDim S500000x8 (![0] : Fin 1 → Fin S500000x8.rank)
  bcast_S_S500000x8 : S_.BroadcastsInDim S500000x8 (![] : Fin 0 → Fin S500000x8.rank)
  reducesTo_S3000x8_S3000_d1 : S3000x8.ReducesTo [1] S3000
  bitsLt_bf16_f32 : FTy.bits .bf16 < FTy.bits .f32
  pads_S3000x8_S3072x8_0720_000 : S3000x8.Pads (![0, 0] : Fin 2 → Nat) ![72, 0] ![0, 0] S3072x8
  transposes_S3072x8_S8x3072_1_0 : S3072x8.Transposes [1, 0] S8x3072
  shapeCasts_S3000x1_S3000 : S3000x1.ShapeCasts S3000
  pads_S3000_S3072_0720 : S3000.Pads (![0] : Fin 1 → Nat) ![72] ![0] S3072
  shapeCasts_S3072_S3072x1 : S3072.ShapeCasts S3072x1
  shapeCasts_S3072_S1x3072 : S3072.ShapeCasts S1x3072
  bcast_S_S3072 : S_.BroadcastsInDim S3072 (![] : Fin 0 → Fin S3072.rank)
  inb_S768x1_S768x1_0_0 : ∀ a, (![0, 0] : Fin 2 → Nat) a + S768x1.size a ≤ S768x1.size a
  h_S768x1 : 0 < S768x1.numel
  shapeCasts_S768x1_S768x1 : S768x1.ShapeCasts S768x1
  inb_S768x8_S768x8_0_0 : ∀ a, (![0, 0] : Fin 2 → Nat) a + S768x8.size a ≤ S768x8.size a
  h_S768x8 : 0 < S768x8.numel
  shapeCasts_S768x8_S768x8 : S768x8.ShapeCasts S768x8
  inb_S8x768_S8x768_0_0 : ∀ a, (![0, 0] : Fin 2 → Nat) a + S8x768.size a ≤ S8x768.size a
  h_S8x768 : 0 < S8x768.numel
  shapeCasts_S8x768_S8x768 : S8x768.ShapeCasts S8x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S768x1_S768x768 : S768x1.Broadcasts S768x768
  broadcasts_S1x768_S768x768 : S1x768.Broadcasts S768x768
  reduces_S768x768_S768 : S768x768.Reduces [1] S768
  shapeCasts_S768_S768x1 : S768.ShapeCasts S768x1
  reducesTo_S3072x1_S_d0_1 : S3072x1.ReducesTo [0, 1] S_
  reducesTo_S500000x8_S500000_d1 : S500000x8.ReducesTo [1] S500000
  reducesTo_S500000_S_d0 : S500000.ReducesTo [0] S_
  gather_S100000x8_S3000x1_S3000x8_1_0_n_n_0_1_18_wf : GatherDims.WF S100000x8 S3000x1 S3000x8 [1] [0] [] [0] [] 1 ![1, 8]
  gather_S100000_S3000x1_S3000_n_0_n_n_0_1_1_wf : GatherDims.WF S100000 S3000x1 S3000 [] [0] [] [0] [] 1 ![1]
  gather_S100000x8_S500000x1_S500000x8_1_0_n_n_0_1_18_wf : GatherDims.WF S100000x8 S500000x1 S500000x8 [1] [0] [] [0] [] 1 ![1, 8]
  gather_S100000_S500000x1_S500000_n_0_n_n_0_1_1_wf : GatherDims.WF S100000 S500000x1 S500000 [] [0] [] [0] [] 1 ![1]
  dot_S768x8_S8x768_S768x768_1_0_0_1_n_n_wf : DotDims.WF S768x8 S8x768 S768x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S768x8.size a ≤ S3072x8.size a
  hwx0_0 : ∀ i : grid0.Coords, EltTy.bits .bf16 = 32 ∨ (Rect.block (s := S3072x8) S768x8.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x768.size a ≤ S8x3072.size a
  hwx0_1 : ∀ i : grid0.Coords, EltTy.bits .bf16 = 32 ∨ (Rect.block (s := S8x3072) S8x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S768x1.size a ≤ S3072x1.size a
  hwx0_2 : ∀ i : grid0.Coords, EltTy.bits .f32 = 32 ∨ (Rect.block (s := S3072x1) S768x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x3072.size a
  hwx0_3 : ∀ i : grid0.Coords, EltTy.bits .f32 = 32 ∨ (Rect.block (s := S1x3072) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S768x1.size a ≤ S3072x1.size a
  hwx0_4 : ∀ i : grid0.Coords, EltTy.bits .f32 = 32 ∨ (Rect.block (s := S3072x1) S768x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x3072.size a
  hwx0_5 : ∀ i : grid0.Coords, EltTy.bits .f32 = 32 ∨ (Rect.block (s := S1x3072) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S768x1.size a ≤ S3072x1.size a
  hwx0_6 : ∀ i : grid0.Coords, EltTy.bits .f32 = 32 ∨ (Rect.block (s := S3072x1) S768x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x3072.size a
  hwx0_7 : ∀ i : grid0.Coords, EltTy.bits .f32 = 32 ∨ (Rect.block (s := S1x3072) S1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S768x1.size a ≤ S3072x1.size a
  hwx0_8 : ∀ i : grid0.Coords, EltTy.bits .f32 = 32 ∨ (Rect.block (s := S3072x1) S768x1.size (cc0_transform_8 i) (hinb0_8 i)).WholeWords (EltTy.packing .f32)

variable [Facts₀]

def gather_S100000x8_S3000x1_S3000x8_1_0_n_n_0_1_18 : GatherDims S100000x8 S3000x1 S3000x8 where
  offsetDims := [1]
  collapsedSliceDims := [0]
  operandBatchingDims := []
  startIndicesBatchingDims := []
  startIndexMap := [0]
  indexVectorDim := 1
  sliceSizes := ![1, 8]
  wf := gather_S100000x8_S3000x1_S3000x8_1_0_n_n_0_1_18_wf
def gather_S100000_S3000x1_S3000_n_0_n_n_0_1_1 : GatherDims S100000 S3000x1 S3000 where
  offsetDims := []
  collapsedSliceDims := [0]
  operandBatchingDims := []
  startIndicesBatchingDims := []
  startIndexMap := [0]
  indexVectorDim := 1
  sliceSizes := ![1]
  wf := gather_S100000_S3000x1_S3000_n_0_n_n_0_1_1_wf
def gather_S100000x8_S500000x1_S500000x8_1_0_n_n_0_1_18 : GatherDims S100000x8 S500000x1 S500000x8 where
  offsetDims := [1]
  collapsedSliceDims := [0]
  operandBatchingDims := []
  startIndicesBatchingDims := []
  startIndexMap := [0]
  indexVectorDim := 1
  sliceSizes := ![1, 8]
  wf := gather_S100000x8_S500000x1_S500000x8_1_0_n_n_0_1_18_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def dot_S768x8_S8x768_S768x768_1_0_0_1_n_n : DotDims S768x8 S8x768 S768x768 where
  lhsContracting := [1]
  rhsContracting := [0]
  lhsNonContracting := [0]
  rhsNonContracting := [1]
  lhsBatch := []
  rhsBatch := []
  wf := dot_S768x8_S8x768_S768x768_1_0_0_1_n_n_wf

abbrev win0_0 : Pipeline.Window sig grid0 :=
  Pipeline.Window.ofSpec (Memref.whole main_v18) S768x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S768x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S768x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x768.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v35) S768x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x768.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v41) S768x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S100000x8 : Shape := ⟨2, ![100000, 8]⟩
abbrev S100000 : Shape := ⟨1, ![100000]⟩
abbrev S3000 : Shape := ⟨1, ![3000]⟩
abbrev S500000 : Shape := ⟨1, ![500000]⟩
abbrev S_ : Shape := ⟨0, ![]⟩
abbrev S3000x1 : Shape := ⟨2, ![3000, 1]⟩
abbrev S3000x8 : Shape := ⟨2, ![3000, 8]⟩
abbrev S3000x1x8 : Shape := ⟨3, ![3000, 1, 8]⟩
abbrev S1x3000x8 : Shape := ⟨3, ![1, 3000, 8]⟩
abbrev S3000x3000x8 : Shape := ⟨3, ![3000, 3000, 8]⟩
abbrev S3000x3000 : Shape := ⟨2, ![3000, 3000]⟩
abbrev S1x3000 : Shape := ⟨2, ![1, 3000]⟩
abbrev S500000x1 : Shape := ⟨2, ![500000, 1]⟩
abbrev S500000x8 : Shape := ⟨2, ![500000, 8]⟩

abbrev nBuf : Space → Nat
  | .hbm => 114
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S100000x8, .f32⟩
  | .hbm, ⟨2, _⟩ => ⟨S100000, .f32⟩
  | .hbm, ⟨3, _⟩ => ⟨S100000, .f32⟩
  | .hbm, ⟨4, _⟩ => ⟨S3000, .i32⟩
  | .hbm, ⟨5, _⟩ => ⟨S3000, .i32⟩
  | .hbm, ⟨6, _⟩ => ⟨S500000, .i32⟩
  | .hbm, ⟨7, _⟩ => ⟨S500000, .i32⟩
  | .hbm, ⟨8, _⟩ => ⟨S_, .i32⟩
  | .hbm, ⟨9, _⟩ => ⟨S3000, .i32⟩
  | .hbm, ⟨10, _⟩ => ⟨S3000, .i1⟩
  | .hbm, ⟨11, _⟩ => ⟨S_, .i32⟩
  | .hbm, ⟨12, _⟩ => ⟨S3000, .i32⟩
  | .hbm, ⟨13, _⟩ => ⟨S3000, .i32⟩
  | .hbm, ⟨14, _⟩ => ⟨S3000, .i32⟩
  | .hbm, ⟨15, _⟩ => ⟨S3000x1, .i32⟩
  | .hbm, ⟨16, _⟩ => ⟨S3000x8, .f32⟩
  | .hbm, ⟨17, _⟩ => ⟨S_, .i32⟩
  | .hbm, ⟨18, _⟩ => ⟨S3000, .i32⟩
  | .hbm, ⟨19, _⟩ => ⟨S3000, .i1⟩
  | .hbm, ⟨20, _⟩ => ⟨S_, .i32⟩
  | .hbm, ⟨21, _⟩ => ⟨S3000, .i32⟩
  | .hbm, ⟨22, _⟩ => ⟨S3000, .i32⟩
  | .hbm, ⟨23, _⟩ => ⟨S3000, .i32⟩
  | .hbm, ⟨24, _⟩ => ⟨S3000x1, .i32⟩
  | .hbm, ⟨25, _⟩ => ⟨S3000x8, .f32⟩
  | .hbm, ⟨26, _⟩ => ⟨S3000x1x8, .f32⟩
  | .hbm, ⟨27, _⟩ => ⟨S1x3000x8, .f32⟩
  | .hbm, ⟨28, _⟩ => ⟨S3000x3000x8, .f32⟩
  | .hbm, ⟨29, _⟩ => ⟨S3000x3000x8, .f32⟩
  | .hbm, ⟨30, _⟩ => ⟨S3000x3000x8, .f32⟩
  | .hbm, ⟨31, _⟩ => ⟨S_, .f32⟩
  | .hbm, ⟨32, _⟩ => ⟨S3000x3000x8, .f32⟩
  | .hbm, ⟨33, _⟩ => ⟨S3000x3000x8, .f32⟩
  | .hbm, ⟨34, _⟩ => ⟨S3000x3000x8, .f32⟩
  | .hbm, ⟨35, _⟩ => ⟨S_, .f32⟩
  | .hbm, ⟨36, _⟩ => ⟨S3000x3000, .f32⟩
  | .hbm, ⟨37, _⟩ => ⟨S3000x3000, .f32⟩
  | .hbm, ⟨38, _⟩ => ⟨S_, .i32⟩
  | .hbm, ⟨39, _⟩ => ⟨S3000, .i32⟩
  | .hbm, ⟨40, _⟩ => ⟨S3000, .i1⟩
  | .hbm, ⟨41, _⟩ => ⟨S_, .i32⟩
  | .hbm, ⟨42, _⟩ => ⟨S3000, .i32⟩
  | .hbm, ⟨43, _⟩ => ⟨S3000, .i32⟩
  | .hbm, ⟨44, _⟩ => ⟨S3000, .i32⟩
  | .hbm, ⟨45, _⟩ => ⟨S3000x1, .i32⟩
  | .hbm, ⟨46, _⟩ => ⟨S3000, .f32⟩
  | .hbm, ⟨47, _⟩ => ⟨S3000x1, .f32⟩
  | .hbm, ⟨48, _⟩ => ⟨S_, .i32⟩
  | .hbm, ⟨49, _⟩ => ⟨S3000, .i32⟩
  | .hbm, ⟨50, _⟩ => ⟨S3000, .i1⟩
  | .hbm, ⟨51, _⟩ => ⟨S_, .i32⟩
  | .hbm, ⟨52, _⟩ => ⟨S3000, .i32⟩
  | .hbm, ⟨53, _⟩ => ⟨S3000, .i32⟩
  | .hbm, ⟨54, _⟩ => ⟨S3000, .i32⟩
  | .hbm, ⟨55, _⟩ => ⟨S3000x1, .i32⟩
  | .hbm, ⟨56, _⟩ => ⟨S3000, .f32⟩
  | .hbm, ⟨57, _⟩ => ⟨S1x3000, .f32⟩
  | .hbm, ⟨58, _⟩ => ⟨S3000x3000, .f32⟩
  | .hbm, ⟨59, _⟩ => ⟨S3000x3000, .f32⟩
  | .hbm, ⟨60, _⟩ => ⟨S3000x3000, .f32⟩
  | .hbm, ⟨61, _⟩ => ⟨S3000x3000, .f32⟩
  | .hbm, ⟨62, _⟩ => ⟨S_, .i32⟩
  | .hbm, ⟨63, _⟩ => ⟨S500000, .i32⟩
  | .hbm, ⟨64, _⟩ => ⟨S500000, .i1⟩
  | .hbm, ⟨65, _⟩ => ⟨S_, .i32⟩
  | .hbm, ⟨66, _⟩ => ⟨S500000, .i32⟩
  | .hbm, ⟨67, _⟩ => ⟨S500000, .i32⟩
  | .hbm, ⟨68, _⟩ => ⟨S500000, .i32⟩
  | .hbm, ⟨69, _⟩ => ⟨S500000x1, .i32⟩
  | .hbm, ⟨70, _⟩ => ⟨S500000x8, .f32⟩
  | .hbm, ⟨71, _⟩ => ⟨S_, .i32⟩
  | .hbm, ⟨72, _⟩ => ⟨S500000, .i32⟩
  | .hbm, ⟨73, _⟩ => ⟨S500000, .i1⟩
  | .hbm, ⟨74, _⟩ => ⟨S_, .i32⟩
  | .hbm, ⟨75, _⟩ => ⟨S500000, .i32⟩
  | .hbm, ⟨76, _⟩ => ⟨S500000, .i32⟩
  | .hbm, ⟨77, _⟩ => ⟨S500000, .i32⟩
  | .hbm, ⟨78, _⟩ => ⟨S500000x1, .i32⟩
  | .hbm, ⟨79, _⟩ => ⟨S500000x8, .f32⟩
  | .hbm, ⟨80, _⟩ => ⟨S500000x8, .f32⟩
  | .hbm, ⟨81, _⟩ => ⟨S_, .f32⟩
  | .hbm, ⟨82, _⟩ => ⟨S500000x8, .f32⟩
  | .hbm, ⟨83, _⟩ => ⟨S500000x8, .f32⟩
  | .hbm, ⟨84, _⟩ => ⟨S500000x8, .f32⟩
  | .hbm, ⟨85, _⟩ => ⟨S_, .f32⟩
  | .hbm, ⟨86, _⟩ => ⟨S500000, .f32⟩
  | .hbm, ⟨87, _⟩ => ⟨S500000, .f32⟩
  | .hbm, ⟨88, _⟩ => ⟨S_, .i32⟩
  | .hbm, ⟨89, _⟩ => ⟨S500000, .i32⟩
  | .hbm, ⟨90, _⟩ => ⟨S500000, .i1⟩
  | .hbm, ⟨91, _⟩ => ⟨S_, .i32⟩
  | .hbm, ⟨92, _⟩ => ⟨S500000, .i32⟩
  | .hbm, ⟨93, _⟩ => ⟨S500000, .i32⟩
  | .hbm, ⟨94, _⟩ => ⟨S500000, .i32⟩
  | .hbm, ⟨95, _⟩ => ⟨S500000x1, .i32⟩
  | .hbm, ⟨96, _⟩ => ⟨S500000, .f32⟩
  | .hbm, ⟨97, _⟩ => ⟨S_, .i32⟩
  | .hbm, ⟨98, _⟩ => ⟨S500000, .i32⟩
  | .hbm, ⟨99, _⟩ => ⟨S500000, .i1⟩
  | .hbm, ⟨100, _⟩ => ⟨S_, .i32⟩
  | .hbm, ⟨101, _⟩ => ⟨S500000, .i32⟩
  | .hbm, ⟨102, _⟩ => ⟨S500000, .i32⟩
  | .hbm, ⟨103, _⟩ => ⟨S500000, .i32⟩
  | .hbm, ⟨104, _⟩ => ⟨S500000x1, .i32⟩
  | .hbm, ⟨105, _⟩ => ⟨S500000, .f32⟩
  | .hbm, ⟨106, _⟩ => ⟨S500000, .f32⟩
  | .hbm, ⟨107, _⟩ => ⟨S500000, .f32⟩
  | .hbm, ⟨108, _⟩ => ⟨S_, .f32⟩
  | .hbm, ⟨109, _⟩ => ⟨S_, .f32⟩
  | .hbm, ⟨110, _⟩ => ⟨S3000x3000, .f32⟩
  | .hbm, ⟨111, _⟩ => ⟨S_, .f32⟩
  | .hbm, ⟨112, _⟩ => ⟨S_, .f32⟩
  | .hbm, ⟨113, _⟩ => ⟨S_, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_16 : Ref sig .tc := ⟨.hbm, 97, rfl⟩
abbrev main_v71 : Ref sig .tc := ⟨.hbm, 98, rfl⟩
abbrev main_v72 : Ref sig .tc := ⟨.hbm, 99, rfl⟩
abbrev main_c_17 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_18 : Ref sig .tc := ⟨.hbm, 108, rfl⟩
abbrev main_v80 : Ref sig .tc := ⟨.hbm, 109, rfl⟩
abbrev main_v81 : Ref sig .tc := ⟨.hbm, 110, rfl⟩
abbrev main_cst_19 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  bcast_S_S3000 : S_.BroadcastsInDim S3000 (![] : Fin 0 → Fin S3000.rank)
  bcast_S3000_S3000x1_0 : S3000.BroadcastsInDim S3000x1 (![0] : Fin 1 → Fin S3000x1.rank)
  bcast_S3000x8_S3000x1x8_0_2 : S3000x8.BroadcastsInDim S3000x1x8 (![0, 2] : Fin 2 → Fin S3000x1x8.rank)
  bcast_S3000x8_S1x3000x8_1_2 : S3000x8.BroadcastsInDim S1x3000x8 (![1, 2] : Fin 2 → Fin S1x3000x8.rank)
  bcast_S3000x1x8_S3000x3000x8_0_1_2 : S3000x1x8.BroadcastsInDim S3000x3000x8 (![0, 1, 2] : Fin 3 → Fin S3000x3000x8.rank)
  bcast_S1x3000x8_S3000x3000x8_0_1_2 : S1x3000x8.BroadcastsInDim S3000x3000x8 (![0, 1, 2] : Fin 3 → Fin S3000x3000x8.rank)
  bcast_S_S3000x3000x8 : S_.BroadcastsInDim S3000x3000x8 (![] : Fin 0 → Fin S3000x3000x8.rank)
  reducesTo_S3000x3000x8_S3000x3000_d2 : S3000x3000x8.ReducesTo [2] S3000x3000
  h_S_ : 0 < S_.numel
  bcast_S3000_S1x3000_1 : S3000.BroadcastsInDim S1x3000 (![1] : Fin 1 → Fin S1x3000.rank)
  bcast_S3000x1_S3000x3000_0_1 : S3000x1.BroadcastsInDim S3000x3000 (![0, 1] : Fin 2 → Fin S3000x3000.rank)
  bcast_S1x3000_S3000x3000_0_1 : S1x3000.BroadcastsInDim S3000x3000 (![0, 1] : Fin 2 → Fin S3000x3000.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x8 : S_.BroadcastsInDim S500000x8 (![] : Fin 0 → Fin S500000x8.rank)
  reducesTo_S500000x8_S500000_d1 : S500000x8.ReducesTo [1] S500000
  reducesTo_S500000_S_d0 : S500000.ReducesTo [0] S_
  reducesTo_S3000x3000_S_d0_1 : S3000x3000.ReducesTo [0, 1] S_
  gather_S100000x8_S3000x1_S3000x8_1_0_n_n_0_1_18_wf : GatherDims.WF S100000x8 S3000x1 S3000x8 [1] [0] [] [0] [] 1 ![1, 8]
  gather_S100000_S3000x1_S3000_n_0_n_n_0_1_1_wf : GatherDims.WF S100000 S3000x1 S3000 [] [0] [] [0] [] 1 ![1]
  gather_S100000x8_S500000x1_S500000x8_1_0_n_n_0_1_18_wf : GatherDims.WF S100000x8 S500000x1 S500000x8 [1] [0] [] [0] [] 1 ![1, 8]
  gather_S100000_S500000x1_S500000_n_0_n_n_0_1_1_wf : GatherDims.WF S100000 S500000x1 S500000 [] [0] [] [0] [] 1 ![1]

variable [Facts₀]

def gather_S100000x8_S3000x1_S3000x8_1_0_n_n_0_1_18 : GatherDims S100000x8 S3000x1 S3000x8 where
  offsetDims := [1]
  collapsedSliceDims := [0]
  operandBatchingDims := []
  startIndicesBatchingDims := []
  startIndexMap := [0]
  indexVectorDim := 1
  sliceSizes := ![1, 8]
  wf := gather_S100000x8_S3000x1_S3000x8_1_0_n_n_0_1_18_wf
def gather_S100000_S3000x1_S3000_n_0_n_n_0_1_1 : GatherDims S100000 S3000x1 S3000 where
  offsetDims := []
  collapsedSliceDims := [0]
  operandBatchingDims := []
  startIndicesBatchingDims := []
  startIndexMap := [0]
  indexVectorDim := 1
  sliceSizes := ![1]
  wf := gather_S100000_S3000x1_S3000_n_0_n_n_0_1_1_wf
def gather_S100000x8_S500000x1_S500000x8_1_0_n_n_0_1_18 : GatherDims S100000x8 S500000x1 S500000x8 where
  offsetDims := [1]
  collapsedSliceDims := [0]
  operandBatchingDims := []
  startIndicesBatchingDims := []
  startIndexMap := [0]
  indexVectorDim := 1
  sliceSizes := ![1, 8]
  wf := gather_S100000x8_S500000x1_S500000x8_1_0_n_n_0_1_18_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf

class Facts : Prop extends Facts₀ where

variable [Facts]
-- ==== Proof.KernelPieces.lean ====
/-
  What one run of the kernel body leaves, as values. Whatever the case, the body computes the block of exponents
  (k0_pay3), the block of the mask product (k0_pay4), and stores into the carried scratch the previous contents plus the
  row sums of exp of the masked exponents (k0_pay1). In the first case of a row the previous contents are the zero column
  the body has just stored (k0_pay2); in the last case the output block is a copy of the scratch.
-/
import proofs.«431489_j30176440221725_3_alg».proof.Proof.Gen.KernelIdeal.Frame
import Idealize.ShloMosaic.Lib.Pipeline.Value

set_option maxRecDepth 16384

noncomputable section

namespace Cert.Lsm.K

open Idealize.ShloMosaic Idealize.ShloMosaic.TcCoe Idealize.ShloMosaic.Tactic Idealize.SL.Sem
open Cert.KernelIdeal Cert.KernelIdeal.Gen

variable {F : FTy → Type} [FloatOps F] [Named F]

private theorem hz : (![0, 0] : Fin S768x1.rank → Nat) = fun _ => 0 := by
  funext a; match a with | ⟨0, _⟩ => rfl | ⟨1, _⟩ => rfl

private theorem hz8 : (![0, 0] : Fin S768x8.rank → Nat) = fun _ => 0 := by
  funext a; match a with | ⟨0, _⟩ => rfl | ⟨1, _⟩ => rfl
private theorem hz8' : (![0, 0] : Fin S8x768.rank → Nat) = fun _ => 0 := by
  funext a; match a with | ⟨0, _⟩ => rfl | ⟨1, _⟩ => rfl
private theorem hz1' : (![0, 0] : Fin S1x768.rank → Nat) = fun _ => 0 := by
  funext a; match a with | ⟨0, _⟩ => rfl | ⟨1, _⟩ => rfl

set_option maxHeartbeats 2000000 in
/-- A middle block of a row: the scratch ends at its previous contents plus this block's row sums. -/
theorem soutB_eq (c : Dev nD) (i : grid0.Coords) (arg2 : Memref sig .tc .vmem S768x8 .bf16) (harg2 : arg2.IsWhole) (arg3 : Memref sig .tc .vmem S8x768 .bf16) (harg3 : arg3.IsWhole) (arg4 : Memref sig .tc .vmem S768x1 .f32) (harg4 : arg4.IsWhole) (arg5 : Memref sig .tc .vmem S1x768 .f32) (harg5 : arg5.IsWhole) (arg6 : Memref sig .tc .vmem S768x1 .f32) (harg6 : arg6.IsWhole) (arg7 : Memref sig .tc .vmem S1x768 .f32) (harg7 : arg7.IsWhole) (arg8 : Memref sig .tc .vmem S768x1 .f32) (harg8 : arg8.IsWhole) (arg9 : Memref sig .tc .vmem S1x768 .f32) (harg9 : arg9.IsWhole) (arg10 : Memref sig .tc .vmem S768x1 .f32) (harg10 : arg10.IsWhole) (arg11 : Memref sig .tc .vmem S768x1 .f32) (harg11 : arg11.IsWhole) (hc0 : ¬cond0_0 i) (hc1 : ¬cond0_1 i)
    (x0 : Vec F S768x8 .bf16) (x1 : Vec F S8x768 .bf16) (x2 : Vec F S768x1 .f32) (x3 : Vec F S1x768 .f32) (x4 : Vec F S768x1 .f32) (x5 : Vec F S1x768 .f32) (x6 : Vec F S768x1 .f32) (x7 : Vec F S1x768 .f32) (xs0 : Vec F S768x1 .f32) :
    sout0_B_0 (F := F) c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (k0_pay3 x0 x1 x2 x3 x4 x5) (k0_pay4 x6 x7) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg11.read_unread, View.ld_unit_zero (S := S768x8) hz8,
    View.ld_unit_zero (S := S8x768) hz8', View.ld_unit_zero (S := S768x1) hz, View.ld_unit_zero (S := S1x768) hz1']

set_option maxHeartbeats 2000000 in
/-- The last block of a row: the scratch ends as in a middle block. -/
theorem soutC_eq (c : Dev nD) (i : grid0.Coords) (arg2 : Memref sig .tc .vmem S768x8 .bf16) (harg2 : arg2.IsWhole) (arg3 : Memref sig .tc .vmem S8x768 .bf16) (harg3 : arg3.IsWhole) (arg4 : Memref sig .tc .vmem S768x1 .f32) (harg4 : arg4.IsWhole) (arg5 : Memref sig .tc .vmem S1x768 .f32) (harg5 : arg5.IsWhole) (arg6 : Memref sig .tc .vmem S768x1 .f32) (harg6 : arg6.IsWhole) (arg7 : Memref sig .tc .vmem S1x768 .f32) (harg7 : arg7.IsWhole) (arg8 : Memref sig .tc .vmem S768x1 .f32) (harg8 : arg8.IsWhole) (arg9 : Memref sig .tc .vmem S1x768 .f32) (harg9 : arg9.IsWhole) (arg10 : Memref sig .tc .vmem S768x1 .f32) (harg10 : arg10.IsWhole) (arg11 : Memref sig .tc .vmem S768x1 .f32) (harg11 : arg11.IsWhole) (hc0 : ¬cond0_0 i) (hc1 : cond0_1 i)
    (x0 : Vec F S768x8 .bf16) (x1 : Vec F S8x768 .bf16) (x2 : Vec F S768x1 .f32) (x3 : Vec F S1x768 .f32) (x4 : Vec F S768x1 .f32) (x5 : Vec F S1x768 .f32) (x6 : Vec F S768x1 .f32) (x7 : Vec F S1x768 .f32) (xs0 : Vec F S768x1 .f32) :
    sout0_C_0 (F := F) c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (k0_pay3 x0 x1 x2 x3 x4 x5) (k0_pay4 x6 x7) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg11.read_unread, View.ld_unit_zero (S := S768x8) hz8,
    View.ld_unit_zero (S := S8x768) hz8', View.ld_unit_zero (S := S768x1) hz, View.ld_unit_zero (S := S1x768) hz1']

set_option maxHeartbeats 2000000 in
/-- The first block of a row: the scratch is first set to zero, then updated. -/
theorem soutA_eq (c : Dev nD) (i : grid0.Coords) (arg2 : Memref sig .tc .vmem S768x8 .bf16) (harg2 : arg2.IsWhole) (arg3 : Memref sig .tc .vmem S8x768 .bf16) (harg3 : arg3.IsWhole) (arg4 : Memref sig .tc .vmem S768x1 .f32) (harg4 : arg4.IsWhole) (arg5 : Memref sig .tc .vmem S1x768 .f32) (harg5 : arg5.IsWhole) (arg6 : Memref sig .tc .vmem S768x1 .f32) (harg6 : arg6.IsWhole) (arg7 : Memref sig .tc .vmem S1x768 .f32) (harg7 : arg7.IsWhole) (arg8 : Memref sig .tc .vmem S768x1 .f32) (harg8 : arg8.IsWhole) (arg9 : Memref sig .tc .vmem S1x768 .f32) (harg9 : arg9.IsWhole) (arg10 : Memref sig .tc .vmem S768x1 .f32) (harg10 : arg10.IsWhole) (arg11 : Memref sig .tc .vmem S768x1 .f32) (harg11 : arg11.IsWhole) (hc0 : cond0_0 i) (hc1 : ¬cond0_1 i)
    (x0 : Vec F S768x8 .bf16) (x1 : Vec F S8x768 .bf16) (x2 : Vec F S768x1 .f32) (x3 : Vec F S1x768 .f32) (x4 : Vec F S768x1 .f32) (x5 : Vec F S1x768 .f32) (x6 : Vec F S768x1 .f32) (x7 : Vec F S1x768 .f32) :
    sout0_A_0 (F := F) c i arg2 harg2 arg3 harg3 arg4 harg4 arg5 harg5 arg6 harg6 arg7 harg7 arg8 harg8 arg9 harg9 arg10 harg10 arg11 harg11 hc0 hc1 x0 x1 x2 x3 x4 x5 x6 x7 = k0_pay1 (k0_pay3 x0 x1 x2 x3 x4 x5) (k0_pay4 x6 x7) (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S768x1) hz, View.readCov_unit_zero (S := S768x1) _ hz]
  simp only [View.readAt_eq_ld, harg2.read_unread, harg3.read_unread, harg4.read_unread, harg5.read_unread, harg6.read_unread,
    harg7.read_unread, harg8.read_unread, harg9.read_unread, View.ld_unit_zero (S := S768x8) hz8,
    View.ld_unit_zero (S := S8x768) hz8', View.ld_unit_zero (S := S768x1) hz, View.ld_unit_zero (S := S1x768) hz1']

set_option maxHeartbeats 2000000 in
/-- The last block of a row: the output block is the scratch's final contents. -/
theorem outC_eq (c : Dev nD) (i : grid0.Coords) (arg2 : Memref sig .tc .vmem S768x8 .bf16) (harg2 : arg2.IsWhole) (arg3 : Memref sig .tc .vmem S8x768 .bf16) (harg3 : arg3.IsWhole) (arg4 : Memref sig .tc .vmem S768x1 .f32) (harg4 : arg4.IsWhole) (arg5 : Memref sig .tc .vmem S1x768 .f32) (harg5 : arg5.IsWhole) (arg6 : Memref sig .tc .vmem S768x1 .f32) (harg6 : arg6.IsWhole) (arg7 : Memref sig .tc .vmem S1x768 .f32) (harg7 : arg7.IsWhole) (arg8 : Memref sig .tc .vmem S768x1 .f32) (harg8 : arg8.IsWhole) (arg9 : Memref sig .tc .vmem S1x768 .f32) (harg9 : arg9.IsWhole) (arg10 : Memref sig .tc .vmem S768x1 .f32) (harg10 : arg10.IsWhole) (arg11 : Memref sig .tc .vmem S768x1 .f32) (harg11 : arg11.IsWhole) (hc0 : ¬cond0_0 i) (hc1 : cond0_1 i)
    (x0 : Vec F S768x8 .bf16) (x1 : Vec F S8x768 .bf16) (x2 : Vec F S768x1 .f32) (x3 : Vec F S1x768 .f32) (x4 : Vec F S768x1 .f32) (x5 : Vec F S1x768 .f32) (x6 : Vec F S768x1 .f32) (x7 : Vec F S1x768 .f32) (xs0 : Vec F S768x1 .f32) :
    out0_C_8 (F := F) c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (k0_pay3 x0 x1 x2 x3 x4 x5) (k0_pay4 x6 x7) xs0 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz, View.readCov_unit_zero (S := S768x1) _ hz]
  simp only [View.readAt_eq_ld, harg2.read_unread, harg3.read_unread, harg4.read_unread, harg5.read_unread, harg6.read_unread,
    harg7.read_unread, harg8.read_unread, harg9.read_unread, harg11.read_unread, View.ld_unit_zero (S := S768x8) hz8,
    View.ld_unit_zero (S := S8x768) hz8', View.ld_unit_zero (S := S768x1) hz, View.ld_unit_zero (S := S1x768) hz1']

end Cert.Lsm.K

end
-- ==== Proof.Spec.lean ====
/-
  The mathematics both programs compute, free of either program's text.

  Inputs, after the row gathers: Zi Zj : Fin 3000 -> Fin 8 -> EReal (the sampled latent rows) and B G : Fin 3000 -> EReal
  (the sampled biases). The reference sums exp (B i + G j - |Zi i - Zj j + eps|) over the 3000 x 3000 pairs (denseR).
  The kernel pads every operand to 3072 rows with zeros, computes the squared distance as
  |Zi i + eps|^2 + |Zj j|^2 - 2 (Zi i + eps) . Zj j, clamps it at zero, and replaces the exponent by bottom (so that exp
  gives 0) wherever the 0/1 padding mask mk i * mk j is not positive (denseK).
  denseK_eq_denseR: on real inputs the two agree. Sums of extended reals commute and associate unconditionally, so the
  re-indexing needs no finiteness; the pointwise identity |a|^2 + |b|^2 - 2 a.b = |a - b|^2 does, and is proved on real
  witnesses.
-/
import Idealize.ShloMosaic.PureOps.Ideal
import Mathlib.Algebra.BigOperators.Fin
import Mathlib.Analysis.SpecialFunctions.Sqrt

noncomputable section

namespace Cert.Lsm

open Idealize.ShloMosaic

/-- The f32 word of EPS = 1e-6, the same word in both programs. -/
abbrev eps : EReal := Ideal.ofBits .f32 0x358637BD#32
/-- The f32 word of 2.0. -/
abbrev two : EReal := Ideal.ofBits .f32 0x40000000#32

theorem eps_real : ∃ e : ℝ, eps = (e : EReal) := by
  -- sign 0, exponent field 107, fraction field 407485: the word denotes (2^23 + 407485) * 2^(107 - 127 - 23)
  refine ⟨(8796093 : ℝ) * (2 : ℝ) ^ (-43 : Int), ?_⟩
  simp [Ideal.ofBits, Ideal.ieee, -EReal.coe_mul]

theorem two_eq : two = ((2 : ℝ) : EReal) := by
  simp [Ideal.ofBits, Ideal.ieee, -EReal.coe_mul]; norm_num

/-- The coercion of the reals into the extended reals carries finite sums to finite sums. -/
private theorem coe_sum {ι : Type} (s : Finset ι) (f : ι → ℝ) :
    ((∑ d ∈ s, f d : ℝ) : EReal) = ∑ d ∈ s, (f d : EReal) := by
  classical
  induction s using Finset.induction_on with
  | empty => simp
  | insert k s hk ih => rw [Finset.sum_insert hk, Finset.sum_insert hk, EReal.coe_add, ih]

/-- The expansion of the squared distance, in the reals:
    sum (a + e)^2 + sum b^2 - 2 sum (a + e) b = sum ((a - b) + e)^2. -/
private theorem real_id (a b : Fin 8 → ℝ) (e : ℝ) :
    ((∑ d, (a d + e) * (a d + e)) + ∑ d, b d * b d) - 2 * ∑ d, (a d + e) * b d
      = ∑ d, ((a d - b d) + e) * ((a d - b d) + e) := by
  rw [Finset.mul_sum, ← Finset.sum_add_distrib, ← Finset.sum_sub_distrib]
  exact Finset.sum_congr rfl (fun d _ => by ring)

/-- On real operands the kernel's clamped, expanded squared distance and the reference's squared distance have the
    same square root: the expansion is the identity above, the common value is a sum of squares, so the clamp at zero
    does nothing. -/
private theorem core (zi zj : Fin 8 → EReal) (p q E : EReal) (a b : Fin 8 → ℝ) (x y e : ℝ)
    (ha : ∀ d, zi d = (a d : EReal)) (hb : ∀ d, zj d = (b d : EReal)) (hx : p = (x : EReal)) (hy : q = (y : EReal))
    (he : E = (e : EReal)) :
    (p + q) - Ideal.sqrt (max (((∑ d, (zi d + E) * (zi d + E)) + ∑ d, zj d * zj d)
        - ((2 : ℝ) : EReal) * ∑ d, (zi d + E) * zj d) 0)
      = (p + q) - Ideal.sqrt (∑ d, ((zi d - zj d) + E) * ((zi d - zj d) + E)) := by
  obtain rfl : zi = fun d => (a d : EReal) := funext ha
  obtain rfl : zj = fun d => (b d : EReal) := funext hb
  subst hx hy he
  have hT : (0 : ℝ) ≤ ∑ d, ((a d - b d) + e) * ((a d - b d) + e) :=
    Finset.sum_nonneg (fun d _ => mul_self_nonneg _)
  have hL : ((∑ d, ((a d : EReal) + (e : EReal)) * ((a d : EReal) + (e : EReal))) + ∑ d, (b d : EReal) * (b d : EReal))
        - ((2 : ℝ) : EReal) * ∑ d, ((a d : EReal) + (e : EReal)) * (b d : EReal)
      = ((∑ d, ((a d - b d) + e) * ((a d - b d) + e) : ℝ) : EReal) := by
    rw [← real_id]
    simp only [EReal.coe_sub, EReal.coe_add, EReal.coe_mul, coe_sum]
  have hR : (∑ d, (((a d : EReal) - (b d : EReal)) + (e : EReal)) * (((a d : EReal) - (b d : EReal)) + (e : EReal)))
      = ((∑ d, ((a d - b d) + e) * ((a d - b d) + e) : ℝ) : EReal) := by
    simp only [EReal.coe_sub, EReal.coe_add, EReal.coe_mul, coe_sum]
  rw [hL, hR, max_eq_left (EReal.coe_nonneg.mpr hT)]

section
variable (Zi Zj : Fin 3000 → Fin 8 → EReal) (B G : Fin 3000 → EReal)

/-- The reference's exponent at the pair (i, j). -/
def lamR (i j : Fin 3000) : EReal :=
  (B i + G j) - Ideal.sqrt (∑ d : Fin 8, ((Zi i d - Zj j d) + eps) * ((Zi i d - Zj j d) + eps))

/-- The reference's dense term. -/
def denseR : EReal := ∑ i : Fin 3000, ∑ j : Fin 3000, Ideal.exp (lamR Zi Zj B G i j)

/-- A vector of 3000 entries padded with zeros to 3072. -/
def pad1 (f : Fin 3000 → EReal) (i : Fin 3072) : EReal := if h : i.val < 3000 then f ⟨i.val, h⟩ else 0

/-- The kernel's left operand: Zi + eps, zero on the padded rows. -/
def ziP (i : Fin 3072) (d : Fin 8) : EReal := if h : i.val < 3000 then Zi ⟨i.val, h⟩ d + eps else 0
/-- The kernel's right operand: Zj, zero on the padded rows. -/
def zjP (j : Fin 3072) (d : Fin 8) : EReal := if h : j.val < 3000 then Zj ⟨j.val, h⟩ d else 0
/-- The squared norm of Zi i + eps, zero on the padded rows. -/
def niP (i : Fin 3072) : EReal :=
  if h : i.val < 3000 then ∑ d : Fin 8, (Zi ⟨i.val, h⟩ d + eps) * (Zi ⟨i.val, h⟩ d + eps) else 0
/-- The squared norm of Zj j, zero on the padded rows. -/
def njP (j : Fin 3072) : EReal :=
  if h : j.val < 3000 then ∑ d : Fin 8, Zj ⟨j.val, h⟩ d * Zj ⟨j.val, h⟩ d else 0
/-- The 0/1 padding mask. -/
def mk (i : Fin 3072) : EReal := if i.val < 3000 then 1 else 0

/-- The kernel's exponent at the padded pair (i, j), before masking. -/
def lamK (i j : Fin 3072) : EReal :=
  (pad1 B i + pad1 G j)
    - Ideal.sqrt (max ((niP Zi i + njP Zj j) - two * ∑ d : Fin 8, ziP Zi i d * zjP Zj j d) 0)

/-- The kernel's summand at the padded pair (i, j): the masked exponent under exp. -/
def eK (i j : Fin 3072) : EReal := Ideal.exp (if 0 < mk i * mk j then lamK Zi Zj B G i j else ⊥)

/-- The kernel's output column: row sums over all 3072 padded columns. -/
def rowK (i : Fin 3072) : EReal := ∑ j : Fin 3072, eK Zi Zj B G i j

/-- The kernel's dense term. -/
def denseK : EReal := ∑ i : Fin 3072, rowK Zi Zj B G i

/-- On a real pair inside the sampled block the kernel's summand is the reference's. -/
theorem eK_eq_of_lt (hZi : ∀ i d, ∃ r : ℝ, Zi i d = (r : EReal)) (hZj : ∀ j d, ∃ r : ℝ, Zj j d = (r : EReal))
    (hB : ∀ i, ∃ r : ℝ, B i = (r : EReal)) (hG : ∀ j, ∃ r : ℝ, G j = (r : EReal))
    (i j : Fin 3072) (hi : i.val < 3000) (hj : j.val < 3000) :
    eK Zi Zj B G i j = Ideal.exp (lamR Zi Zj B G ⟨i.val, hi⟩ ⟨j.val, hj⟩) := by
  choose a ha using hZi
  choose b hb using hZj
  choose x hx using hB
  choose y hy using hG
  obtain ⟨e, he⟩ := eps_real
  have hmi : mk i = 1 := by unfold mk; rw [if_pos hi]
  have hmj : mk j = 1 := by unfold mk; rw [if_pos hj]
  unfold eK
  rw [hmi, hmj, one_mul, if_pos zero_lt_one]
  congr 1
  unfold lamK lamR pad1 niP njP ziP zjP
  simp only [dif_pos hi, dif_pos hj]
  rw [two_eq]
  exact core _ _ _ _ _ (a ⟨i.val, hi⟩) (b ⟨j.val, hj⟩) (x ⟨i.val, hi⟩) (y ⟨j.val, hj⟩) e
    (ha _) (hb _) (hx _) (hy _) he

/-- On a padded row or column the kernel's summand is zero. -/
theorem eK_eq_zero_of_ge (i j : Fin 3072) (h : 3000 ≤ i.val ∨ 3000 ≤ j.val) : eK Zi Zj B G i j = 0 := by
  have hm : mk i * mk j = 0 := by
    rcases h with h | h
    · have h0 : mk i = 0 := by unfold mk; rw [if_neg (by omega)]
      rw [h0, zero_mul]
    · have h0 : mk j = 0 := by unfold mk; rw [if_neg (by omega)]
      rw [h0, mul_zero]
  unfold eK
  rw [hm, if_neg (lt_irrefl _), Ideal.exp_bot]

/-- A sum over the 3072 padded indices of a function that vanishes from 3000 on is the sum over the first 3000. -/
private theorem sum_pad (f : Fin 3072 → EReal) (h : ∀ k : Fin 3072, 3000 ≤ k.val → f k = 0) :
    ∑ k, f k = ∑ k : Fin 3000, f ⟨k.val, by have := k.isLt; omega⟩ := by
  have hs := Fin.sum_trunc (M := EReal) (a := 3000) (b := 72) f
    (fun j => h _ (Nat.le_add_right 3000 j.val))
  exact hs

/-- The two dense terms agree on real inputs. -/
theorem denseK_eq_denseR (hZi : ∀ i d, ∃ r : ℝ, Zi i d = (r : EReal)) (hZj : ∀ j d, ∃ r : ℝ, Zj j d = (r : EReal))
    (hB : ∀ i, ∃ r : ℝ, B i = (r : EReal)) (hG : ∀ j, ∃ r : ℝ, G j = (r : EReal)) :
    denseK Zi Zj B G = denseR Zi Zj B G := by
  unfold denseK denseR
  rw [sum_pad (fun i => rowK Zi Zj B G i) (fun i hi => by
    unfold rowK
    exact Finset.sum_eq_zero (fun j _ => eK_eq_zero_of_ge Zi Zj B G i j (Or.inl hi)))]
  refine Finset.sum_congr rfl (fun i _ => ?_)
  unfold rowK
  rw [sum_pad (fun j => eK Zi Zj B G _ j) (fun j hj => eK_eq_zero_of_ge Zi Zj B G _ j (Or.inr hj))]
  refine Finset.sum_congr rfl (fun j _ => ?_)
  exact eK_eq_of_lt Zi Zj B G hZi hZj hB hG _ _ i.isLt j.isLt

/-- The kernel accumulates a row over four column blocks of 768: the row sum is the sum of the four block sums. -/
theorem rowK_blocks (i : Fin 3072) :
    rowK Zi Zj B G i
      = ∑ b : Fin 4, ∑ s : Fin 768, eK Zi Zj B G i ⟨768 * b.val + s.val, by have := b.isLt; have := s.isLt; omega⟩ := by
  unfold rowK
  rw [← Fintype.sum_prod_type' (fun (b : Fin 4) (s : Fin 768) =>
    eK Zi Zj B G i ⟨768 * b.val + s.val, by have := b.isLt; have := s.isLt; omega⟩)]
  symm
  refine Fintype.sum_equiv (finProdFinEquiv (m := 4) (n := 768)) _ (fun j : Fin 3072 => eK Zi Zj B G i j) (fun x => ?_)
  congr 1
  apply Fin.ext
  simp only [finProdFinEquiv, Equiv.coe_fn_mk]
  omega

end

end Cert.Lsm

end
-- ==== Proof.KernelPoint.lean ====
/-
  One run of the kernel body at the block (bi, bj), read at a row r of the block: when the eight input blocks hold the
  specification's padded operands at the block's rows 768 bi + r and columns 768 bj + s, the value the body stores into
  the carried column is the previous value at r plus the sum over the block's 768 columns of the specification's
  summand eK. The matrix product into a zero accumulator is the sum over the 8 latent coordinates; the mask test is
  0 < mask; the fill constant is the named constant that denotes bottom, whose exp is 0; the lane reduction is the sum
  over the block's columns from 0.
-/
import proofs.«431489_j30176440221725_3_alg».proof.Proof.Gen.KernelIdeal.Skeleton
import proofs.«431489_j30176440221725_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.Lsm.K

open Idealize.ShloMosaic Idealize.ShloMosaic.TcCoe Idealize.ShloMosaic.ValueIdx
open Cert.KernelIdeal Cert.KernelIdeal.Gen

/-- Row 768 bi + r of the padded arrays. -/
abbrev rowOf (bi : Fin 4) (r : Fin 768) : Fin 3072 := ⟨768 * bi.val + r.val, by have := bi.isLt; have := r.isLt; omega⟩

/-! ## Layout operations read at coordinates -/

/-- A vector of a entries cast to a column reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The all-zero f32 word, as the scalar unit reads it, denotes zero. -/
private theorem scalar_zero : (Scalar.ofBits .f32 0x00000000#32 : Ideal .f32) = (0 : EReal) := by
  show Ideal.ofBits .f32 0x00000000#32 = 0
  exact Ideal.ofBits_zero_f32

/-! ## The mask product at a pair -/

/-- The product of the two broadcast masks at (r, s). -/
private theorem pay4_at (x6 : Vec Ideal S768x1 .f32) (x7 : Vec Ideal S1x768 .f32) (r s : Fin 768) :
    k0_pay4 (F := Ideal) x6 x7 (ix2 r s) = x6 (ix2 r (0 : Fin 1)) * x7 (ix2 (0 : Fin 1) s) := by
  unfold k0_pay4
  show broadcastTo S768x768 (shapeCast S768x1 x6 shapeCasts_S768x1_S768x1) broadcasts_S768x1_S768x768 (ix2 r s)
      * broadcastTo S768x768 (shapeCast S1x768 x7 shapeCasts_S1x768_S1x768) broadcasts_S1x768_S768x768 (ix2 r s) = _
  rw [shapeCast_self, shapeCast_self, broadcastTo_a1_ab_apply, broadcastTo_1b_ab_apply]

/-! ## The matrix product at a pair -/

/-- The left operand's row coordinate at result (r, s) is r. -/
private theorem lhs_mm_0 (i : S768x768.Idx) (q : dot_S768x8_S8x768_S768x768_1_0_0_1_n_n.contr.Idx) :
    (dot_S768x8_S8x768_S768x768_1_0_0_1_n_n.lhsIdx i q 0).val = (i 0).val := by
  unfold DotDims.lhsIdx
  rw [dif_neg (show ¬(0 : Fin S768x8.rank) ∈ dot_S768x8_S8x768_S768x768_1_0_0_1_n_n.lhsBatch by decide), dif_pos (show (0 : Fin S768x8.rank) ∈ dot_S768x8_S8x768_S768x768_1_0_0_1_n_n.lhsNonContracting by decide)]
  rfl
/-- The left operand's column coordinate is the contraction position. -/
private theorem lhs_mm_1 (i : S768x768.Idx) (q : dot_S768x8_S8x768_S768x768_1_0_0_1_n_n.contr.Idx) :
    (dot_S768x8_S8x768_S768x768_1_0_0_1_n_n.lhsIdx i q 1).val = (q ⟨0, by decide⟩).val :=
  dot_S768x8_S8x768_S768x768_1_0_0_1_n_n.lhsIdx_val_of_single rfl i q
/-- The right operand's row coordinate is the contraction position. -/
private theorem rhs_mm_0 (i : S768x768.Idx) (q : dot_S768x8_S8x768_S768x768_1_0_0_1_n_n.contr.Idx) :
    (dot_S768x8_S8x768_S768x768_1_0_0_1_n_n.rhsIdx i q 0).val = (q ⟨0, by decide⟩).val :=
  dot_S768x8_S8x768_S768x768_1_0_0_1_n_n.rhsIdx_val_of_single rfl i q
/-- The right operand's column coordinate at result (r, s) is s. -/
private theorem rhs_mm_1 (i : S768x768.Idx) (q : dot_S768x8_S8x768_S768x768_1_0_0_1_n_n.contr.Idx) :
    (dot_S768x8_S8x768_S768x768_1_0_0_1_n_n.rhsIdx i q 1).val = (i 1).val := by
  unfold DotDims.rhsIdx
  rw [dif_neg (show ¬(1 : Fin S8x768.rank) ∈ dot_S768x8_S8x768_S768x768_1_0_0_1_n_n.rhsBatch by decide), dif_pos (show (1 : Fin S8x768.rank) ∈ dot_S768x8_S8x768_S768x768_1_0_0_1_n_n.rhsNonContracting by decide)]
  rfl

/-- The matrix product into the zero accumulator at (r, s): the sum over the 8 latent coordinates of the products. -/
private theorem mm_at (x0 : FVec Ideal S768x8 .bf16) (x1 : FVec Ideal S8x768 .bf16) (r s : Fin 768) :
    matmul dot_S768x8_S8x768_S768x768_1_0_0_1_n_n none x0 x1 (constant (F := Ideal) S768x768 .f32 0x00000000#32) (ix2 r s)
      = ∑ d : Fin 8, x0 (ix2 r d) * x1 (ix2 d s) := by
  simp only [matmul]
  rw [Ideal.matmul_constant_zero_apply, ← Equiv.sum_comp (contrEquiv1 dot_S768x8_S8x768_S768x768_1_0_0_1_n_n 8 rfl rfl).symm]
  refine Finset.sum_congr rfl fun k _ => ?_
  have hk := contrEquiv1_symm_val dot_S768x8_S8x768_S768x768_1_0_0_1_n_n 8 rfl rfl k
  have el : dot_S768x8_S8x768_S768x768_1_0_0_1_n_n.lhsIdx (ix2 r s) ((contrEquiv1 dot_S768x8_S8x768_S768x768_1_0_0_1_n_n 8 rfl rfl).symm k) = ix2 r k := funext fun a => Fin.ext (by
    match a with
    | ⟨0, _⟩ => exact lhs_mm_0 _ _
    | ⟨1, _⟩ => exact (lhs_mm_1 _ _).trans hk)
  have er : dot_S768x8_S8x768_S768x768_1_0_0_1_n_n.rhsIdx (ix2 r s) ((contrEquiv1 dot_S768x8_S8x768_S768x768_1_0_0_1_n_n 8 rfl rfl).symm k) = ix2 k s := funext fun a => Fin.ext (by
    match a with
    | ⟨0, _⟩ => exact (rhs_mm_0 _ _).trans hk
    | ⟨1, _⟩ => exact rhs_mm_1 _ _)
  rw [el, er]

/-! ## The lane reduction at a row -/

/-- The sum over the lanes, from the zero word, at row r: the sum over the 768 columns of the operand at (r, s). -/
private theorem lane_sum_at (v : FVec Ideal S768x768 .f32) (hφ : FKind.Formats .f32)
    (hacc : (0x00000000#32 : BitVec 32) = FKind.add.neutral .f32 hφ) (r : Fin 768) :
    multiReduction (F := Ideal) .add [1] S768 v 0x00000000#32 reduces_S768x768_S768 hφ hacc (ix1 r)
      = ∑ s : Fin 768, v (ix2 r s) := by
  refine (Ideal.multiReduction_add_single v 0x00000000#32 reduces_S768x768_S768 hφ hacc (ix1 r)).trans ?_
  refine Finset.sum_congr rfl fun s _ => congrArg v ?_
  exact funext fun a => Fin.ext (by match a with | ⟨0, _⟩ => rfl | ⟨1, _⟩ => rfl)

/-! ## The exponent at a pair -/

/-- The exponent before masking at (r, s): the two bias broadcasts, minus the square root of the clamped expansion
    of the squared distance. -/
private theorem pay3_at (x0 : Vec Ideal S768x8 .bf16) (x1 : Vec Ideal S8x768 .bf16) (x2 : Vec Ideal S768x1 .f32)
    (x3 : Vec Ideal S1x768 .f32) (x4 : Vec Ideal S768x1 .f32) (x5 : Vec Ideal S1x768 .f32) (r s : Fin 768) :
    k0_pay3 (F := Ideal) x0 x1 x2 x3 x4 x5 (ix2 r s)
      = (x4 (ix2 r (0 : Fin 1)) + x5 (ix2 (0 : Fin 1) s))
        - Ideal.sqrt (max ((x2 (ix2 r (0 : Fin 1)) + x3 (ix2 (0 : Fin 1) s))
            - Cert.Lsm.two * ∑ d : Fin 8, x0 (ix2 r d) * x1 (ix2 d s)) 0) := by
  unfold k0_pay3
  show (broadcastTo S768x768 (shapeCast S768x1 x4 shapeCasts_S768x1_S768x1) broadcasts_S768x1_S768x768 (ix2 r s)
        + broadcastTo S768x768 (shapeCast S1x768 x5 shapeCasts_S1x768_S1x768) broadcasts_S1x768_S768x768 (ix2 r s))
      - Ideal.sqrt (max
          ((broadcastTo S768x768 (shapeCast S768x1 x2 shapeCasts_S768x1_S768x1) broadcasts_S768x1_S768x768 (ix2 r s)
            + broadcastTo S768x768 (shapeCast S1x768 x3 shapeCasts_S1x768_S1x768) broadcasts_S1x768_S768x768 (ix2 r s))
           - (Scalar.ofBits .f32 0x40000000#32 : Ideal .f32)
             * matmul dot_S768x8_S8x768_S768x768_1_0_0_1_n_n none (shapeCast S768x8 x0 shapeCasts_S768x8_S768x8)
                 (shapeCast S8x768 x1 shapeCasts_S8x768_S8x768) (constant (F := Ideal) S768x768 .f32 0x00000000#32) (ix2 r s))
          (Scalar.ofBits .f32 0x00000000#32 : Ideal .f32)) = _
  simp only [shapeCast_self]
  rw [mm_at, broadcastTo_a1_ab_apply, broadcastTo_a1_ab_apply, broadcastTo_1b_ab_apply, broadcastTo_1b_ab_apply,
    scalar_zero]
  rfl

/-! ## The stored column at a row -/

/-- The mask test on one lane: a select on "0 < m" between the exponent and the fill that denotes bottom. -/
private theorem masked_at (m l : EReal) :
    Scalar.select (Ideal.cmp .ogt m (Scalar.ofBits .f32 0x00000000#32 : Ideal .f32)) l
        (Named.named (F := Ideal) κ "neg_big" (φ := .f32) 0xF149F2CA#32)
      = if 0 < m then l else ⊥ := by
  rw [scalar_zero, IdealRules.named_const.ideal_named_scalar κ "neg_big" _ ⊥ rfl]
  by_cases h : 0 < m
  · simp [Scalar.select, Ideal.cmp, h]
  · simp [Scalar.select, Ideal.cmp, h]

/-- The stored column at row r: the previous value plus the sum over the block's 768 columns of exp of the masked
    exponent. -/
private theorem pay1_at (v32 v35 : FVec Ideal S768x768 .f32) (acc : Vec Ideal S768x1 .f32) (r : Fin 768) :
    k0_pay1 (F := Ideal) v32 v35 acc (ix2 r (0 : Fin 1))
      = acc (ix2 r (0 : Fin 1)) + ∑ s : Fin 768, Ideal.exp (if 0 < v35 (ix2 r s) then v32 (ix2 r s) else ⊥) := by
  unfold k0_pay1
  refine (congrFun (shapeCast_self _ shapeCasts_S768x1_S768x1) (ix2 r (0 : Fin 1))).trans ?_
  refine congrArg (fun t : EReal => acc (ix2 r (0 : Fin 1)) + t) ?_
  refine (shapeCast_a_a1_apply _ shapeCasts_S768_S768x1 r (0 : Fin 1)).trans ?_
  refine (lane_sum_at _ _ _ r).trans ?_
  refine Finset.sum_congr rfl fun s _ => ?_
  exact congrArg Ideal.exp (masked_at (v35 (ix2 r s)) (v32 (ix2 r s)))

/-- The zero column the body stores at the first block of a row. -/
theorem pay2_apply (y : S768x1.Idx) : k0_pay2 (F := Ideal) y = (0 : EReal) := by
  unfold k0_pay2
  show shapeCast S768x1 (broadcast S768x1 (Scalar.ofBits .f32 0x00000000#32 : Ideal .f32)) shapeCasts_S768x1_S768x1 y = 0
  rw [shapeCast_self]
  exact scalar_zero

/-- The body's stored column at row r: the previous value plus this block's row sum of the specification's summands. -/
theorem pay1_apply (Zi Zj : Fin 3000 → Fin 8 → EReal) (B G : Fin 3000 → EReal) (bi bj : Fin 4)
    (x0 : Vec Ideal S768x8 .bf16) (x1 : Vec Ideal S8x768 .bf16) (x2 : Vec Ideal S768x1 .f32) (x3 : Vec Ideal S1x768 .f32)
    (x4 : Vec Ideal S768x1 .f32) (x5 : Vec Ideal S1x768 .f32) (x6 : Vec Ideal S768x1 .f32) (x7 : Vec Ideal S1x768 .f32)
    (acc : Vec Ideal S768x1 .f32)
    (h0 : ∀ (r : Fin 768) (d : Fin 8), x0 (ix2 r d) = Cert.Lsm.ziP Zi (rowOf bi r) d)
    (h1 : ∀ (d : Fin 8) (s : Fin 768), x1 (ix2 d s) = Cert.Lsm.zjP Zj (rowOf bj s) d)
    (h2 : ∀ r : Fin 768, x2 (ix2 r (0 : Fin 1)) = Cert.Lsm.niP Zi (rowOf bi r))
    (h3 : ∀ s : Fin 768, x3 (ix2 (0 : Fin 1) s) = Cert.Lsm.njP Zj (rowOf bj s))
    (h4 : ∀ r : Fin 768, x4 (ix2 r (0 : Fin 1)) = Cert.Lsm.pad1 B (rowOf bi r))
    (h5 : ∀ s : Fin 768, x5 (ix2 (0 : Fin 1) s) = Cert.Lsm.pad1 G (rowOf bj s))
    (h6 : ∀ r : Fin 768, x6 (ix2 r (0 : Fin 1)) = Cert.Lsm.mk (rowOf bi r))
    (h7 : ∀ s : Fin 768, x7 (ix2 (0 : Fin 1) s) = Cert.Lsm.mk (rowOf bj s))
    (r : Fin 768) :
    k0_pay1 (F := Ideal) (k0_pay3 x0 x1 x2 x3 x4 x5) (k0_pay4 x6 x7) acc (ix2 r (0 : Fin 1))
      = acc (ix2 r (0 : Fin 1)) + ∑ s : Fin 768, Cert.Lsm.eK Zi Zj B G (rowOf bi r) (rowOf bj s) := by
  rw [pay1_at]
  refine congrArg (fun t : EReal => acc (ix2 r (0 : Fin 1)) + t) (Finset.sum_congr rfl fun s _ => ?_)
  rw [pay4_at, pay3_at, h6, h7, h4, h5, h2, h3]
  simp only [h0, h1]
  unfold Cert.Lsm.eK Cert.Lsm.lamK
  rfl

end Cert.Lsm.K

end
-- ==== Proof.KernelNested.lean ====
/-
  The contents of the kernel program's buffers when the pallas region is entered: the launch contents folded through the
  twenty-one stretches of host operations before the region, one fold per stretch.
-/
import proofs.«431489_j30176440221725_3_alg».proof.Proof.Gen.KernelIdeal.Frame.Runs
import proofs.«431489_j30176440221725_3_alg».proof.Proof.Spec
import Idealize.ShloMosaic.Lib.StableHlo.Run
import Idealize.ShloMosaic.Lib.StableHlo.RunLoop
import Idealize.ShloMosaic.Lib.ValueIdx
import Idealize.ShloMosaic.Lib.Pipeline.Value
import Idealize.ShloMosaic.Lib.KernelVsHost
import Idealize.ShloMosaic.Lib.StableHlo.Predicate

set_option maxRecDepth 16384

noncomputable section

namespace Cert.Lsm.K

open Idealize.ShloMosaic Idealize.ShloMosaic.TcCoe Idealize.ShloMosaic.Tactic Idealize.SL.Sem Idealize.ShloMosaic.StableHlo
open Cert.KernelIdeal Cert.KernelIdeal.Gen

variable (m : (ℓ : Loc nD τ sig) → Buf (Elt Ideal) ℓ)

/-- The valuation at the region's entry as nested folds, one per stretch, innermost first. -/
theorem V0_nested (c : Dev nD) :
    V0 m c = StableHlo.after hostOps0_20 (StableHlo.after hostOps0_19 (StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 ((fun b => m (c, b))))))))))))))))))))))) := by
  show StableHlo.after (List.flatten _) _ = _
  rw [← afterL_eq_after_flatten]
  simp only [afterL_cons, afterL_nil]

open Idealize.ShloMosaic.ValueIdx in
/-- The sampled rows of the first latent table as the region finds them, by plain coordinates. -/
def Zi (c : Dev nD) : Fin 3000 → Fin 8 → EReal := fun i d => (V m c main_v0 : S3000x8.Idx → EReal) (ix2 i d)
open Idealize.ShloMosaic.ValueIdx in
/-- The sampled rows of the second latent table. -/
def Zj (c : Dev nD) : Fin 3000 → Fin 8 → EReal := fun j d => (V m c main_v1 : S3000x8.Idx → EReal) (ix2 j d)
open Idealize.ShloMosaic.ValueIdx in
/-- The sampled entries of the first bias vector. -/
def B (c : Dev nD) : Fin 3000 → EReal := fun i => (V m c main_v2 : S3000.Idx → EReal) (ix1 i)
open Idealize.ShloMosaic.ValueIdx in
/-- The sampled entries of the second bias vector. -/
def G (c : Dev nD) : Fin 3000 → EReal := fun j => (V m c main_v3 : S3000.Idx → EReal) (ix1 j)

end Cert.Lsm.K

end
-- ==== Proof.KernelHostA.lean ====
/-
  Four of the eight arrays the pallas region's windows stage, read at an index, as the specification's padded operands
  of the sampled latent rows Zi, Zj (the results of two row gathers, which stay opaque here): the left operand Zi + eps
  cast to bf16 (the identity on extended reals) and zero-padded to 3072 rows; the right operand Zj zero-padded and
  transposed; and the two squared-norm columns, zero-padded.
-/
import proofs.«431489_j30176440221725_3_alg».proof.Proof.KernelNested

set_option maxRecDepth 16384

noncomputable section

namespace Cert.Lsm.K

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen

/-! ### The arrays, whole: the last thirteen stretches over an arbitrary valuation below them -/

section Whole
variable (X : Valuation τ sig (Elt Ideal))

/-- Nothing after the gathers writes the first sampled array. -/
private theorem hostA_carry_v0 :
    StableHlo.after hostOps0_20 (StableHlo.after hostOps0_19 (StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (X))))))))))))) (Proc.devRef .tc main_v0) = X (Proc.devRef .tc main_v0) := by
  simp only [hostOps0_8, hostOps0_9, hostOps0_10, hostOps0_11, hostOps0_12, hostOps0_13, hostOps0_14, hostOps0_15, hostOps0_16, hostOps0_17, hostOps0_18, hostOps0_19, hostOps0_20]; after_results

/-- Nothing after the gathers writes the second sampled array. -/
private theorem hostA_carry_v1 :
    StableHlo.after hostOps0_20 (StableHlo.after hostOps0_19 (StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (X))))))))))))) (Proc.devRef .tc main_v1) = X (Proc.devRef .tc main_v1) := by
  simp only [hostOps0_8, hostOps0_9, hostOps0_10, hostOps0_11, hostOps0_12, hostOps0_13, hostOps0_14, hostOps0_15, hostOps0_16, hostOps0_17, hostOps0_18, hostOps0_19, hostOps0_20]; after_results

/-- The left operand: the first sampled array plus eps, cast, padded with the cast of the integer 0. -/
private theorem hostA_val_v18 :
    (StableHlo.after hostOps0_20 (StableHlo.after hostOps0_19 (StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (X))))))))))))) (Proc.devRef .tc main_v18) : FVec Ideal S3072x8 .bf16)
      = pad S3072x8 ![0, 0] ![72, 0] ![0, 0]
          (truncf (F := Ideal) .bf16 (addf (X (Proc.devRef .tc main_v0) : FVec Ideal S3000x8 .f32)
            (broadcastInDim S3000x8 ![] bcast_S_S3000x8 (constant S_ .f32 0x358637BD#32))) bitsLt_bf16_f32)
          (sitofp (F := Ideal) .bf16 (constantI S_ 32 0#32))
          pads_S3000x8_S3072x8_0720_000 h_S_ := by
  simp only [hostOps0_8, hostOps0_9, hostOps0_10, hostOps0_11, hostOps0_12, hostOps0_13, hostOps0_14, hostOps0_15, hostOps0_16, hostOps0_17, hostOps0_18, hostOps0_19, hostOps0_20]; after_results
  rfl

/-- The right operand: the second sampled array, cast, padded, transposed. -/
private theorem hostA_val_v20 :
    (StableHlo.after hostOps0_20 (StableHlo.after hostOps0_19 (StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (X))))))))))))) (Proc.devRef .tc main_v20) : FVec Ideal S8x3072 .bf16)
      = transpose S8x3072 [1, 0]
          (pad S3072x8 ![0, 0] ![72, 0] ![0, 0]
            (truncf (F := Ideal) .bf16 (X (Proc.devRef .tc main_v1) : FVec Ideal S3000x8 .f32) bitsLt_bf16_f32)
            (sitofp (F := Ideal) .bf16 (constantI S_ 32 0#32))
            pads_S3000x8_S3072x8_0720_000 h_S_)
          transposes_S3072x8_S8x3072_1_0 := by
  simp only [hostOps0_8, hostOps0_9, hostOps0_10, hostOps0_11, hostOps0_12, hostOps0_13, hostOps0_14, hostOps0_15, hostOps0_16, hostOps0_17, hostOps0_18, hostOps0_19, hostOps0_20]; after_results
  rfl

/-- The column of squared norms of the first sampled array plus eps: row sums of the squares, laid as a column,
    flattened, padded, laid as a column again. -/
private theorem hostA_val_v23 :
    (StableHlo.after hostOps0_20 (StableHlo.after hostOps0_19 (StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (X))))))))))))) (Proc.devRef .tc main_v23) : FVec Ideal S3072x1 .f32)
      = shapeCast S3072x1
          (pad S3072 ![0] ![72] ![0]
            (shapeCast S3000
              (broadcastInDim S3000x1 ![0] bcast_S3000_S3000x1_0
                (Host.reduceAdd
                  (mulf
                    (addf (X (Proc.devRef .tc main_v0) : FVec Ideal S3000x8 .f32)
                      (broadcastInDim S3000x8 ![] bcast_S_S3000x8 (constant S_ .f32 0x358637BD#32)))
                    (addf (X (Proc.devRef .tc main_v0) : FVec Ideal S3000x8 .f32)
                      (broadcastInDim S3000x8 ![] bcast_S_S3000x8 (constant S_ .f32 0x358637BD#32))))
                  (constant (F := Ideal) S_ .f32 0x00000000#32) reducesTo_S3000x8_S3000_d1 h_S_))
              shapeCasts_S3000x1_S3000)
            (sitofp (F := Ideal) .f32 (constantI S_ 32 0#32))
            pads_S3000_S3072_0720 h_S_)
          shapeCasts_S3072_S3072x1 := by
  simp only [hostOps0_8, hostOps0_9, hostOps0_10, hostOps0_11, hostOps0_12, hostOps0_13, hostOps0_14, hostOps0_15, hostOps0_16, hostOps0_17, hostOps0_18, hostOps0_19, hostOps0_20]; after_results
  rfl

/-- The row of squared norms of the second sampled array. -/
private theorem hostA_val_v26 :
    (StableHlo.after hostOps0_20 (StableHlo.after hostOps0_19 (StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (X))))))))))))) (Proc.devRef .tc main_v26) : FVec Ideal S1x3072 .f32)
      = shapeCast S1x3072
          (pad S3072 ![0] ![72] ![0]
            (shapeCast S3000
              (broadcastInDim S3000x1 ![0] bcast_S3000_S3000x1_0
                (Host.reduceAdd
                  (mulf (X (Proc.devRef .tc main_v1) : FVec Ideal S3000x8 .f32)
                    (X (Proc.devRef .tc main_v1) : FVec Ideal S3000x8 .f32))
                  (constant (F := Ideal) S_ .f32 0x00000000#32) reducesTo_S3000x8_S3000_d1 h_S_))
              shapeCasts_S3000x1_S3000)
            (sitofp (F := Ideal) .f32 (constantI S_ 32 0#32))
            pads_S3000_S3072_0720 h_S_)
          shapeCasts_S3072_S1x3072 := by
  simp only [hostOps0_8, hostOps0_9, hostOps0_10, hostOps0_11, hostOps0_12, hostOps0_13, hostOps0_14, hostOps0_15, hostOps0_16, hostOps0_17, hostOps0_18, hostOps0_19, hostOps0_20]; after_results
  rfl

end Whole

/-! ### The layout operations read at an index -/

/-- The padding value: the integer 0 converted, which is the real 0. -/
private theorem hostA_padv_bf16 : (sitofp (F := Ideal) .bf16 (constantI S_ 32 0#32)) (Shape.Idx.first h_S_) = (0 : EReal) := by
  show (((0#32 : BitVec 32).toInt : ℝ) : EReal) = 0
  simp
private theorem hostA_padv_f32 : (sitofp (F := Ideal) .f32 (constantI S_ 32 0#32)) (Shape.Idx.first h_S_) = (0 : EReal) := by
  show (((0#32 : BitVec 32).toInt : ℝ) : EReal) = 0
  simp

/-- A [3000, 8] array padded with 72 zero rows, at row i: the array's row below 3000, zero from 3000 on. -/
private theorem hostA_pad2_apply (x : FVec Ideal S3000x8 .bf16) (i : Fin 3072) (d : Fin 8) :
    pad S3072x8 ![0, 0] ![72, 0] ![0, 0] x (sitofp (F := Ideal) .bf16 (constantI S_ 32 0#32))
        pads_S3000x8_S3072x8_0720_000 h_S_ (ix2 i d)
      = if h : i.val < 3000 then x (ix2 ⟨i.val, h⟩ d) else (0 : EReal) := by
  by_cases h : i.val < 3000
  · rw [dif_pos h]
    exact pad_apply_of_inside _ _ _ x _ pads_S3000x8_S3072x8_0720_000 h_S_ (ix2 i d) (ix2 ⟨i.val, h⟩ d)
      (fun a => by
        match a with
        | ⟨0, _⟩ => show i.val = 0 + i.val * (0 + 1); omega
        | ⟨1, _⟩ => show d.val = 0 + d.val * (0 + 1); omega)
  · rw [dif_neg h, pad_apply_of_not_inside _ _ _ x _ pads_S3000x8_S3072x8_0720_000 h_S_ (ix2 i d) (0 : Fin 2)
      (by show ¬(0 ≤ i.val ∧ (i.val - 0) % (0 + 1) = 0 ∧ (i.val - 0) / (0 + 1) < 3000); omega)]
    exact hostA_padv_bf16

/-- A vector of 3000 entries padded with 72 zeros, at i. -/
private theorem hostA_pad1_apply (x : FVec Ideal S3000 .f32) (i : Fin 3072) :
    pad S3072 ![0] ![72] ![0] x (sitofp (F := Ideal) .f32 (constantI S_ 32 0#32)) pads_S3000_S3072_0720 h_S_ (ix1 i)
      = if h : i.val < 3000 then x (ix1 ⟨i.val, h⟩) else (0 : EReal) := by
  by_cases h : i.val < 3000
  · rw [dif_pos h]
    exact pad_apply_of_inside _ _ _ x _ pads_S3000_S3072_0720 h_S_ (ix1 i) (ix1 ⟨i.val, h⟩)
      (fun a => by
        match a with
        | ⟨0, _⟩ => show i.val = 0 + i.val * (0 + 1); omega)
  · rw [dif_neg h, pad_apply_of_not_inside _ _ _ x _ pads_S3000_S3072_0720 h_S_ (ix1 i) (0 : Fin 1)
      (by show ¬(0 ≤ i.val ∧ (i.val - 0) % (0 + 1) = 0 ∧ (i.val - 0) / (0 + 1) < 3000); omega)]
    exact hostA_padv_f32

/-- The host's row sum of the squares of a [3000, 8] array, from the initial value 0: the sum of the eight squares. -/
private theorem hostA_rowsq_apply (x : FVec Ideal S3000x8 .f32) (i : Fin 3000) :
    Host.reduceAdd (mulf x x) (constant (F := Ideal) S_ .f32 0x00000000#32) reducesTo_S3000x8_S3000_d1 h_S_ (ix1 i)
      = ∑ d : Fin 8, x (ix2 i d) * x (ix2 i d) := by
  simp only [Host.reduceAdd, Ideal.hostReduceAdd_def]
  rw [Ideal.hostReduceAdd_single reducesTo_S3000x8_S3000_d1 (by decide)]
  have h0 : constant (F := Ideal) S_ .f32 0x00000000#32 (Shape.Idx.first h_S_) = (0 : EReal) := by
    show Ideal.ofBits .f32 0x00000000#32 = 0
    simp [Ideal.ofBits, Ideal.ieee]
  rw [h0, zero_add]
  refine Finset.sum_congr rfl (fun k _ => ?_)
  have hk : (Shape.Reduces.lift (by decide : S3000x8.Reduces [1] S3000) (ix1 i) k : S3000x8.Idx) = ix2 i k :=
    funext fun a => Fin.ext (by match a with | ⟨0, _⟩ => rfl | ⟨1, _⟩ => rfl)
  rw [hk]
  rfl

/-- The squared-norm vector of a [3000, 8] array, laid as a column, flattened and padded, at i. -/
private theorem hostA_normpad_apply (x : FVec Ideal S3000x8 .f32) (i : Fin 3072) :
    pad S3072 ![0] ![72] ![0]
        (shapeCast S3000
          (broadcastInDim S3000x1 ![0] bcast_S3000_S3000x1_0
            (Host.reduceAdd (mulf x x) (constant (F := Ideal) S_ .f32 0x00000000#32) reducesTo_S3000x8_S3000_d1 h_S_))
          shapeCasts_S3000x1_S3000)
        (sitofp (F := Ideal) .f32 (constantI S_ 32 0#32)) pads_S3000_S3072_0720 h_S_ (ix1 i)
      = if h : i.val < 3000 then ∑ d : Fin 8, x (ix2 ⟨i.val, h⟩ d) * x (ix2 ⟨i.val, h⟩ d) else (0 : EReal) := by
  rw [hostA_pad1_apply]
  refine dite_congr rfl (fun h => ?_) (fun _ => rfl)
  rw [shapeCast_apply _ shapeCasts_S3000x1_S3000 (ix1 ⟨i.val, h⟩) (ix2 ⟨i.val, h⟩ (0 : Fin 1))
      (by rw [Shape.rowMajor_val_two, Shape.rowMajor_val_one]; show i.val * 1 + 0 = i.val; omega),
    broadcastInDim_apply _ bcast_S3000_S3000x1_0 _ (ix2 ⟨i.val, h⟩ (0 : Fin 1)) (ix1 ⟨i.val, h⟩)
      (fun a => by match a with | ⟨0, _⟩ => rfl),
    hostA_rowsq_apply]

variable (m : (ℓ : Loc nD τ sig) → Buf (Elt Ideal) ℓ)

theorem win0_apply (c : Dev nD) (i : Fin 3072) (d : Fin 8) :
    (V m c main_v18 : S3072x8.Idx → EReal) (ix2 i d) = Cert.Lsm.ziP (Zi m c) i d := by
  have hV : (V m c main_v18 : FVec Ideal S3072x8 .bf16)
      = pad S3072x8 ![0, 0] ![72, 0] ![0, 0]
          (truncf (F := Ideal) .bf16 (addf (V m c main_v0 : FVec Ideal S3000x8 .f32)
            (broadcastInDim S3000x8 ![] bcast_S_S3000x8 (constant S_ .f32 0x358637BD#32))) bitsLt_bf16_f32)
          (sitofp (F := Ideal) .bf16 (constantI S_ 32 0#32))
          pads_S3000x8_S3072x8_0720_000 h_S_ := by
    show V0 m c (Proc.devRef .tc main_v18) = pad S3072x8 ![0, 0] ![72, 0] ![0, 0]
          (truncf (F := Ideal) .bf16 (addf (V0 m c (Proc.devRef .tc main_v0) : FVec Ideal S3000x8 .f32)
            (broadcastInDim S3000x8 ![] bcast_S_S3000x8 (constant S_ .f32 0x358637BD#32))) bitsLt_bf16_f32)
          (sitofp (F := Ideal) .bf16 (constantI S_ 32 0#32))
          pads_S3000x8_S3072x8_0720_000 h_S_
    rw [V0_nested, hostA_carry_v0]
    exact hostA_val_v18 _
  rw [hV, hostA_pad2_apply]
  unfold Cert.Lsm.ziP Zi
  generalize V m c main_v0 = y
  exact dite_congr rfl (fun _ => rfl) (fun _ => rfl)
theorem win1_apply (c : Dev nD) (d : Fin 8) (j : Fin 3072) :
    (V m c main_v20 : S8x3072.Idx → EReal) (ix2 d j) = Cert.Lsm.zjP (Zj m c) j d := by
  have hV : (V m c main_v20 : FVec Ideal S8x3072 .bf16)
      = transpose S8x3072 [1, 0]
          (pad S3072x8 ![0, 0] ![72, 0] ![0, 0]
            (truncf (F := Ideal) .bf16 (V m c main_v1 : FVec Ideal S3000x8 .f32) bitsLt_bf16_f32)
            (sitofp (F := Ideal) .bf16 (constantI S_ 32 0#32))
            pads_S3000x8_S3072x8_0720_000 h_S_)
          transposes_S3072x8_S8x3072_1_0 := by
    show V0 m c (Proc.devRef .tc main_v20) = transpose S8x3072 [1, 0]
          (pad S3072x8 ![0, 0] ![72, 0] ![0, 0]
            (truncf (F := Ideal) .bf16 (V0 m c (Proc.devRef .tc main_v1) : FVec Ideal S3000x8 .f32) bitsLt_bf16_f32)
            (sitofp (F := Ideal) .bf16 (constantI S_ 32 0#32))
            pads_S3000x8_S3072x8_0720_000 h_S_)
          transposes_S3072x8_S8x3072_1_0
    rw [V0_nested, hostA_carry_v1]
    exact hostA_val_v20 _
  rw [hV, transpose_apply _ _ transposes_S3072x8_S8x3072_1_0 (ix2 d j) (ix2 j d)
    (fun b => by match b with | ⟨0, _⟩ => rfl | ⟨1, _⟩ => rfl), hostA_pad2_apply]
  unfold Cert.Lsm.zjP Zj
  generalize V m c main_v1 = y
  exact dite_congr rfl (fun _ => rfl) (fun _ => rfl)
theorem win2_apply (c : Dev nD) (i : Fin 3072) :
    (V m c main_v23 : S3072x1.Idx → EReal) (ix2 i (0 : Fin 1)) = Cert.Lsm.niP (Zi m c) i := by
  have hV : (V m c main_v23 : FVec Ideal S3072x1 .f32)
      = shapeCast S3072x1
          (pad S3072 ![0] ![72] ![0]
            (shapeCast S3000
              (broadcastInDim S3000x1 ![0] bcast_S3000_S3000x1_0
                (Host.reduceAdd
                  (mulf
                    (addf (V m c main_v0 : FVec Ideal S3000x8 .f32)
                      (broadcastInDim S3000x8 ![] bcast_S_S3000x8 (constant S_ .f32 0x358637BD#32)))
                    (addf (V m c main_v0 : FVec Ideal S3000x8 .f32)
                      (broadcastInDim S3000x8 ![] bcast_S_S3000x8 (constant S_ .f32 0x358637BD#32))))
                  (constant (F := Ideal) S_ .f32 0x00000000#32) reducesTo_S3000x8_S3000_d1 h_S_))
              shapeCasts_S3000x1_S3000)
            (sitofp (F := Ideal) .f32 (constantI S_ 32 0#32))
            pads_S3000_S3072_0720 h_S_)
          shapeCasts_S3072_S3072x1 := by
    show V0 m c (Proc.devRef .tc main_v23) = shapeCast S3072x1
          (pad S3072 ![0] ![72] ![0]
            (shapeCast S3000
              (broadcastInDim S3000x1 ![0] bcast_S3000_S3000x1_0
                (Host.reduceAdd
                  (mulf
                    (addf (V0 m c (Proc.devRef .tc main_v0) : FVec Ideal S3000x8 .f32)
                      (broadcastInDim S3000x8 ![] bcast_S_S3000x8 (constant S_ .f32 0x358637BD#32)))
                    (addf (V0 m c (Proc.devRef .tc main_v0) : FVec Ideal S3000x8 .f32)
                      (broadcastInDim S3000x8 ![] bcast_S_S3000x8 (constant S_ .f32 0x358637BD#32))))
                  (constant (F := Ideal) S_ .f32 0x00000000#32) reducesTo_S3000x8_S3000_d1 h_S_))
              shapeCasts_S3000x1_S3000)
            (sitofp (F := Ideal) .f32 (constantI S_ 32 0#32))
            pads_S3000_S3072_0720 h_S_)
          shapeCasts_S3072_S3072x1
    rw [V0_nested, hostA_carry_v0]
    exact hostA_val_v23 _
  rw [hV, shapeCast_apply _ shapeCasts_S3072_S3072x1 (ix2 i (0 : Fin 1)) (ix1 i)
    (by rw [Shape.rowMajor_val_two, Shape.rowMajor_val_one]; show i.val = i.val * 1 + 0; omega), hostA_normpad_apply]
  unfold Cert.Lsm.niP Zi
  generalize V m c main_v0 = y
  show @Eq EReal _ _
  exact dite_congr rfl (fun _ => Finset.sum_congr rfl (fun _ _ => rfl)) (fun _ => rfl)
theorem win3_apply (c : Dev nD) (j : Fin 3072) :
    (V m c main_v26 : S1x3072.Idx → EReal) (ix2 (0 : Fin 1) j) = Cert.Lsm.njP (Zj m c) j := by
  have hV : (V m c main_v26 : FVec Ideal S1x3072 .f32)
      = shapeCast S1x3072
          (pad S3072 ![0] ![72] ![0]
            (shapeCast S3000
              (broadcastInDim S3000x1 ![0] bcast_S3000_S3000x1_0
                (Host.reduceAdd
                  (mulf (V m c main_v1 : FVec Ideal S3000x8 .f32) (V m c main_v1 : FVec Ideal S3000x8 .f32))
                  (constant (F := Ideal) S_ .f32 0x00000000#32) reducesTo_S3000x8_S3000_d1 h_S_))
              shapeCasts_S3000x1_S3000)
            (sitofp (F := Ideal) .f32 (constantI S_ 32 0#32))
            pads_S3000_S3072_0720 h_S_)
          shapeCasts_S3072_S1x3072 := by
    show V0 m c (Proc.devRef .tc main_v26) = shapeCast S1x3072
          (pad S3072 ![0] ![72] ![0]
            (shapeCast S3000
              (broadcastInDim S3000x1 ![0] bcast_S3000_S3000x1_0
                (Host.reduceAdd
                  (mulf (V0 m c (Proc.devRef .tc main_v1) : FVec Ideal S3000x8 .f32)
                    (V0 m c (Proc.devRef .tc main_v1) : FVec Ideal S3000x8 .f32))
                  (constant (F := Ideal) S_ .f32 0x00000000#32) reducesTo_S3000x8_S3000_d1 h_S_))
              shapeCasts_S3000x1_S3000)
            (sitofp (F := Ideal) .f32 (constantI S_ 32 0#32))
            pads_S3000_S3072_0720 h_S_)
          shapeCasts_S3072_S1x3072
    rw [V0_nested, hostA_carry_v1]
    exact hostA_val_v26 _
  rw [hV, shapeCast_apply _ shapeCasts_S3072_S1x3072 (ix2 (0 : Fin 1) j) (ix1 j)
    (by rw [Shape.rowMajor_val_two, Shape.rowMajor_val_one]; show j.val = 0 * 3072 + j.val; omega), hostA_normpad_apply]
  unfold Cert.Lsm.njP Zj
  generalize V m c main_v1 = y
  show @Eq EReal _ _
  exact dite_congr rfl (fun _ => Finset.sum_congr rfl (fun _ _ => rfl)) (fun _ => rfl)

end Cert.Lsm.K

end
-- ==== Proof.KernelHostB.lean ====
/-
  The other four arrays the pallas region's windows stage, read at an index: the two sampled bias vectors B, G (the
  results of two gathers, opaque here) zero-padded to 3072 and laid as a column and as a row, and the two 0/1 masks
  iota < 3000, as a column and as a row.

  Each array is first written as one closed term over the buffers it is computed from (the last few stretches of host
  operations folded over an arbitrary valuation), then that term is read at a coordinate: a reshape of a vector to a
  column or a row keeps the row-major position, the zero-pad is the operand below 3000 and the filling scalar from
  3000 on, and the mask is the signed comparison of the position with 3000 converted to a float.
-/
import proofs.«431489_j30176440221725_3_alg».proof.Proof.KernelNested

set_option maxRecDepth 16384

noncomputable section

namespace Cert.Lsm.K

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen

variable (m : (ℓ : Loc nD τ sig) → Buf (Elt Ideal) ℓ)

namespace HostB

/-! ## The four arrays as closed terms -/

/-- The scalar the pads fill with: the 32-bit integer word 0 converted to f32. -/
abbrev zpad : S_.Idx → EReal := (sitofp .f32 (constantI S_ 32 0#32) : FVec Ideal S_ .f32)

/-- The 0/1 mask as a vector of 3072 entries: the position compared (signed) with 3000, converted to f32. -/
abbrev maskv : S3072.Idx → EReal :=
  (uitofp .f32 (cmpi .slt (iotaInDim S3072 32 0) (broadcastInDim S3072 ![] bcast_S_S3072 (constantI S_ 32 3000#32))) : FVec Ideal S3072 .f32)

/-- What the last five stretches leave in the column of the first bias vector: the integer 0 is made, converted, the
    first sampled bias vector is padded with it to 3072, and the result is reshaped to a column; the last two stretches
    do not write it. -/
theorem v28_of (W : Valuation τ sig (Elt Ideal)) :
    (StableHlo.after hostOps0_20 (StableHlo.after hostOps0_19 (StableHlo.after hostOps0_18 (StableHlo.after hostOps0_17 (StableHlo.after hostOps0_16 W)))) (Proc.devRef .tc main_v28) : S3072x1.Idx → EReal)
      = shapeCast S3072x1 (pad S3072 ![0] ![72] ![0] (W (Proc.devRef .tc main_v2) : S3000.Idx → EReal) zpad
          pads_S3000_S3072_0720 h_S_) shapeCasts_S3072_S3072x1 := by
  simp only [hostOps0_16, hostOps0_17, hostOps0_18, hostOps0_19, hostOps0_20]
  after_results
  rfl

/-- The last five stretches do not write the first sampled bias vector. -/
theorem v2_carry (W : Valuation τ sig (Elt Ideal)) :
    StableHlo.after hostOps0_20 (StableHlo.after hostOps0_19 (StableHlo.after hostOps0_18 (StableHlo.after hostOps0_17 (StableHlo.after hostOps0_16 W)))) (Proc.devRef .tc main_v2) = W (Proc.devRef .tc main_v2) := by
  simp only [hostOps0_16, hostOps0_17, hostOps0_18, hostOps0_19, hostOps0_20]
  after_results

/-- What the last three stretches leave in the row of the second bias vector: the integer 0 is made, converted, the
    second sampled bias vector is padded with it to 3072, and the result is reshaped to a row. -/
theorem v30_of (W : Valuation τ sig (Elt Ideal)) :
    (StableHlo.after hostOps0_20 (StableHlo.after hostOps0_19 (StableHlo.after hostOps0_18 W)) (Proc.devRef .tc main_v30) : S1x3072.Idx → EReal)
      = shapeCast S1x3072 (pad S3072 ![0] ![72] ![0] (W (Proc.devRef .tc main_v3) : S3000.Idx → EReal) zpad
          pads_S3000_S3072_0720 h_S_) shapeCasts_S3072_S1x3072 := by
  simp only [hostOps0_18, hostOps0_19, hostOps0_20]
  after_results
  rfl

/-- The last three stretches do not write the second sampled bias vector. -/
theorem v3_carry (W : Valuation τ sig (Elt Ideal)) :
    StableHlo.after hostOps0_20 (StableHlo.after hostOps0_19 (StableHlo.after hostOps0_18 W)) (Proc.devRef .tc main_v3) = W (Proc.devRef .tc main_v3) := by
  simp only [hostOps0_18, hostOps0_19, hostOps0_20]
  after_results

/-- The last stretch computes the column mask from constants alone: it depends on no earlier buffer. -/
theorem v35_of (W : Valuation τ sig (Elt Ideal)) :
    (StableHlo.after hostOps0_20 W (Proc.devRef .tc main_v35) : S3072x1.Idx → EReal)
      = shapeCast S3072x1 maskv shapeCasts_S3072_S3072x1 := by
  simp only [hostOps0_20]
  after_results
  rfl

/-- The row mask likewise. -/
theorem v40_of (W : Valuation τ sig (Elt Ideal)) :
    (StableHlo.after hostOps0_20 W (Proc.devRef .tc main_v40) : S1x3072.Idx → EReal)
      = shapeCast S1x3072 maskv shapeCasts_S3072_S1x3072 := by
  simp only [hostOps0_20]
  after_results
  rfl

/-! ## Reading the terms at a coordinate -/

/-- The filling scalar is zero: the integer word 0 read signed is the integer 0. -/
theorem zpad_apply (k : S_.Idx) : zpad k = 0 := by
  show (((0#32 : BitVec 32).toInt : ℝ) : EReal) = 0
  simp

/-- The zero-pad of a vector of 3000 entries to 3072, read at a position. -/
theorem pad_apply (x : S3000.Idx → EReal) (i : Fin 3072) :
    pad S3072 ![0] ![72] ![0] x zpad pads_S3000_S3072_0720 h_S_ (ix1 i)
      = if h : i.val < 3000 then x (ix1 ⟨i.val, h⟩) else 0 := by
  by_cases h : i.val < 3000
  · rw [dif_pos h]
    refine pad_apply_of_inside _ _ _ x zpad pads_S3000_S3072_0720 h_S_ (ix1 i) (ix1 ⟨i.val, h⟩) ?_
    intro a
    have ha : a = 0 := Subsingleton.elim _ _
    subst ha
    show i.val = 0 + i.val * (0 + 1)
    omega
  · rw [dif_neg h]
    refine (pad_apply_of_not_inside _ _ _ x zpad pads_S3000_S3072_0720 h_S_ (ix1 i) (0 : Fin 1) ?_).trans (zpad_apply _)
    intro hin
    have e : (i.val - 0) / (0 + 1) < 3000 := hin.2.2
    omega

/-- A vector of 3072 entries laid as a column, read at row i. -/
theorem col_apply (x : S3072.Idx → EReal) (i : Fin 3072) :
    shapeCast S3072x1 x shapeCasts_S3072_S3072x1 (ix2 i (0 : Fin 1)) = x (ix1 i) := by
  refine shapeCast_apply x shapeCasts_S3072_S3072x1 (ix2 i (0 : Fin 1)) (ix1 i) ?_
  rw [Shape.rowMajor_val_one, Shape.rowMajor_val_two]
  show i.val = i.val * 1 + 0
  omega

/-- A vector of 3072 entries laid as a row, read at column j. -/
theorem row_apply (x : S3072.Idx → EReal) (j : Fin 3072) :
    shapeCast S1x3072 x shapeCasts_S3072_S1x3072 (ix2 (0 : Fin 1) j) = x (ix1 j) := by
  refine shapeCast_apply x shapeCasts_S3072_S1x3072 (ix2 (0 : Fin 1) j) (ix1 j) ?_
  rw [Shape.rowMajor_val_one, Shape.rowMajor_val_two]
  show j.val = 0 * 3072 + j.val
  omega

/-- The mask vector at a position: 1 below 3000, 0 from 3000 on. -/
theorem maskv_apply (i : Fin 3072) : maskv (ix1 i) = Cert.Lsm.mk i := by
  have hi : i.val < 2 ^ 31 := by have := i.isLt; omega
  show (((BitVec.ofBool ((BitVec.ofNat 32 i.val).slt (BitVec.ofNat 32 3000))).toNat : ℝ) : EReal) = Cert.Lsm.mk i
  unfold Cert.Lsm.mk
  by_cases h : i.val < 3000
  · rw [if_pos h, (Predicate.slt_ofNat_iff i.val 3000 hi (by norm_num)).mpr h]
    simp
  · rw [if_neg h, eq_zero_of_ne_one (fun e => h ((Predicate.slt_ofNat_iff i.val 3000 hi (by norm_num)).mp e))]
    simp

end HostB

open HostB

/-! ## The four windows -/

theorem win4_apply (c : Dev nD) (i : Fin 3072) :
    (V m c main_v28 : S3072x1.Idx → EReal) (ix2 i (0 : Fin 1)) = Cert.Lsm.pad1 (B m c) i := by
  have h1 : (V m c main_v28 : S3072x1.Idx → EReal)
      = shapeCast S3072x1 (pad S3072 ![0] ![72] ![0] (V m c main_v2 : S3000.Idx → EReal) zpad
          pads_S3000_S3072_0720 h_S_) shapeCasts_S3072_S3072x1 := by
    show (V0 m c (Proc.devRef .tc main_v28) : S3072x1.Idx → EReal)
      = shapeCast S3072x1 (pad S3072 ![0] ![72] ![0] (V0 m c (Proc.devRef .tc main_v2) : S3000.Idx → EReal) zpad
          pads_S3000_S3072_0720 h_S_) shapeCasts_S3072_S3072x1
    rw [V0_nested, v28_of, v2_carry]
  rw [h1, col_apply, pad_apply]
  rfl
theorem win5_apply (c : Dev nD) (j : Fin 3072) :
    (V m c main_v30 : S1x3072.Idx → EReal) (ix2 (0 : Fin 1) j) = Cert.Lsm.pad1 (G m c) j := by
  have h1 : (V m c main_v30 : S1x3072.Idx → EReal)
      = shapeCast S1x3072 (pad S3072 ![0] ![72] ![0] (V m c main_v3 : S3000.Idx → EReal) zpad
          pads_S3000_S3072_0720 h_S_) shapeCasts_S3072_S1x3072 := by
    show (V0 m c (Proc.devRef .tc main_v30) : S1x3072.Idx → EReal)
      = shapeCast S1x3072 (pad S3072 ![0] ![72] ![0] (V0 m c (Proc.devRef .tc main_v3) : S3000.Idx → EReal) zpad
          pads_S3000_S3072_0720 h_S_) shapeCasts_S3072_S1x3072
    rw [V0_nested, v30_of, v3_carry]
  rw [h1, row_apply, pad_apply]
  rfl
theorem win6_apply (c : Dev nD) (i : Fin 3072) :
    (V m c main_v35 : S3072x1.Idx → EReal) (ix2 i (0 : Fin 1)) = Cert.Lsm.mk i := by
  have h1 : (V m c main_v35 : S3072x1.Idx → EReal) = shapeCast S3072x1 maskv shapeCasts_S3072_S3072x1 := by
    show (V0 m c (Proc.devRef .tc main_v35) : S3072x1.Idx → EReal) = _
    rw [V0_nested, v35_of]
  rw [h1, col_apply, maskv_apply]
theorem win7_apply (c : Dev nD) (j : Fin 3072) :
    (V m c main_v40 : S1x3072.Idx → EReal) (ix2 (0 : Fin 1) j) = Cert.Lsm.mk j := by
  have h1 : (V m c main_v40 : S1x3072.Idx → EReal) = shapeCast S1x3072 maskv shapeCasts_S3072_S1x3072 := by
    show (V0 m c (Proc.devRef .tc main_v40) : S1x3072.Idx → EReal) = _
    rw [V0_nested, v40_of]
  rw [h1, row_apply, maskv_apply]

end Cert.Lsm.K

end
-- ==== Proof.KernelAcc.lean ====
/-
  The accumulation over the grid. The grid is 4 x 4: point t is block row t / 4 and block column t % 4. At every point
  the input windows stage the rows 768 (t / 4) + r of the column-shaped operands and the columns 768 (t % 4) + s of the
  row-shaped ones. The carried column after point t holds, at row r, the sum over the block columns 0 .. t % 4 of the
  block row sums of the specification's summands; at the last block column the output block is that column, which is
  the specification's full row sum, and it is written back to rows 768 (t / 4) .. of the output array. The four flushed
  blocks tile the output array.
-/
import proofs.«431489_j30176440221725_3_alg».proof.Proof.KernelPieces
import proofs.«431489_j30176440221725_3_alg».proof.Proof.KernelPoint
import proofs.«431489_j30176440221725_3_alg».proof.Proof.KernelHostA
import proofs.«431489_j30176440221725_3_alg».proof.Proof.KernelHostB

set_option maxRecDepth 16384

noncomputable section

namespace Cert.Lsm.K

open Idealize.ShloMosaic Idealize.ShloMosaic.TcCoe Idealize.ShloMosaic.Tactic Idealize.SL.Sem
open Idealize.ShloMosaic.ValueIdx
open Idealize.ShloMosaic.Pipeline (Dat Cfg Window)
open Cert.KernelIdeal Cert.KernelIdeal.Gen

variable (m : (ℓ : Loc nD τ sig) → Buf (Elt Ideal) ℓ)

/-- The printed index maps, decided over the sixteen grid points. -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0
    ∧ win0_5.index t (0 : Fin 2) = 0 ∧ win0_5.index t (1 : Fin 2) = t.val % 4
    ∧ win0_6.index t (0 : Fin 2) = t.val / 4 ∧ win0_6.index t (1 : Fin 2) = 0
    ∧ win0_7.index t (0 : Fin 2) = 0 ∧ win0_7.index t (1 : Fin 2) = t.val % 4
    ∧ win0_8.index t (0 : Fin 2) = t.val / 4 ∧ win0_8.index t (1 : Fin 2) = 0 :=
  (by decide +kernel : ∀ t : Fin grid0.N, _)

theorem N16 : cfg0.N = 16 := N_0

/-- The block row of a point. -/
abbrev bI (t : Fin cfg0.N) : Fin 4 := ⟨t.val / 4, by have h : t.val < 16 := lt_of_lt_of_eq t.isLt N16; omega⟩
/-- The block column of a point. -/
abbrev bJ (t : Fin cfg0.N) : Fin 4 := ⟨t.val % 4, Nat.mod_lt _ (by decide)⟩

/-- The input blocks at a point, at their literal types. -/
abbrev xb0 (c : Dev nD) (t : Fin cfg0.N) : Vec Ideal S768x8 .bf16 := iblk m c 0 t
abbrev xb1 (c : Dev nD) (t : Fin cfg0.N) : Vec Ideal S8x768 .bf16 := iblk m c 1 t
abbrev xb2 (c : Dev nD) (t : Fin cfg0.N) : Vec Ideal S768x1 .f32 := iblk m c 2 t
abbrev xb3 (c : Dev nD) (t : Fin cfg0.N) : Vec Ideal S1x768 .f32 := iblk m c 3 t
abbrev xb4 (c : Dev nD) (t : Fin cfg0.N) : Vec Ideal S768x1 .f32 := iblk m c 4 t
abbrev xb5 (c : Dev nD) (t : Fin cfg0.N) : Vec Ideal S1x768 .f32 := iblk m c 5 t
abbrev xb6 (c : Dev nD) (t : Fin cfg0.N) : Vec Ideal S768x1 .f32 := iblk m c 6 t
abbrev xb7 (c : Dev nD) (t : Fin cfg0.N) : Vec Ideal S1x768 .f32 := iblk m c 7 t

theorem blk0 (c : Dev nD) (t : Fin cfg0.N) (r : Fin 768) (d : Fin 8) :
    xb0 m c t (ix2 r d) = Cert.Lsm.ziP (Zi m c) (rowOf (bI t) r) d := by
  obtain ⟨e00, e01, e10, e11, e20, e21, e30, e31, e40, e41, e50, e51, e60, e61, e70, e71, e80, e81⟩ := idx_facts t
  show (V m c main_v18 : S3072x8.Idx → EReal) (((cfg0.win 0).blk t).view.emb (ix2 r d)) = _
  rw [← win0_apply]
  refine congrArg _ (funext fun a => Fin.ext ?_)
  match a with
  | ⟨0, _⟩ => show win0_0.index t (0 : Fin 2) * 768 + 1 * r.val = 768 * (t.val / 4) + r.val; omega
  | ⟨1, _⟩ => show win0_0.index t (1 : Fin 2) * 8 + 1 * d.val = d.val; omega

theorem blk1 (c : Dev nD) (t : Fin cfg0.N) (d : Fin 8) (s : Fin 768) :
    xb1 m c t (ix2 d s) = Cert.Lsm.zjP (Zj m c) (rowOf (bJ t) s) d := by
  obtain ⟨e00, e01, e10, e11, e20, e21, e30, e31, e40, e41, e50, e51, e60, e61, e70, e71, e80, e81⟩ := idx_facts t
  show (V m c main_v20 : S8x3072.Idx → EReal) (((cfg0.win 1).blk t).view.emb (ix2 d s)) = _
  rw [← win1_apply]
  refine congrArg _ (funext fun a => Fin.ext ?_)
  match a with
  | ⟨0, _⟩ => show win0_1.index t (0 : Fin 2) * 8 + 1 * d.val = d.val; omega
  | ⟨1, _⟩ => show win0_1.index t (1 : Fin 2) * 768 + 1 * s.val = 768 * (t.val % 4) + s.val; omega

theorem blk2 (c : Dev nD) (t : Fin cfg0.N) (r : Fin 768)  :
    xb2 m c t (ix2 r (0 : Fin 1)) = Cert.Lsm.niP (Zi m c) (rowOf (bI t) r) := by
  obtain ⟨e00, e01, e10, e11, e20, e21, e30, e31, e40, e41, e50, e51, e60, e61, e70, e71, e80, e81⟩ := idx_facts t
  show (V m c main_v23 : S3072x1.Idx → EReal) (((cfg0.win 2).blk t).view.emb (ix2 r (0 : Fin 1))) = _
  rw [← win2_apply]
  refine congrArg _ (funext fun a => Fin.ext ?_)
  match a with
  | ⟨0, _⟩ => show win0_2.index t (0 : Fin 2) * 768 + 1 * r.val = 768 * (t.val / 4) + r.val; omega
  | ⟨1, _⟩ => show win0_2.index t (1 : Fin 2) * 1 + 1 * 0 = 0; omega

theorem blk3 (c : Dev nD) (t : Fin cfg0.N)  (s : Fin 768) :
    xb3 m c t (ix2 (0 : Fin 1) s) = Cert.Lsm.njP (Zj m c) (rowOf (bJ t) s) := by
  obtain ⟨e00, e01, e10, e11, e20, e21, e30, e31, e40, e41, e50, e51, e60, e61, e70, e71, e80, e81⟩ := idx_facts t
  show (V m c main_v26 : S1x3072.Idx → EReal) (((cfg0.win 3).blk t).view.emb (ix2 (0 : Fin 1) s)) = _
  rw [← win3_apply]
  refine congrArg _ (funext fun a => Fin.ext ?_)
  match a with
  | ⟨0, _⟩ => show win0_3.index t (0 : Fin 2) * 1 + 1 * 0 = 0; omega
  | ⟨1, _⟩ => show win0_3.index t (1 : Fin 2) * 768 + 1 * s.val = 768 * (t.val % 4) + s.val; omega

theorem blk4 (c : Dev nD) (t : Fin cfg0.N) (r : Fin 768)  :
    xb4 m c t (ix2 r (0 : Fin 1)) = Cert.Lsm.pad1 (B m c) (rowOf (bI t) r) := by
  obtain ⟨e00, e01, e10, e11, e20, e21, e30, e31, e40, e41, e50, e51, e60, e61, e70, e71, e80, e81⟩ := idx_facts t
  show (V m c main_v28 : S3072x1.Idx → EReal) (((cfg0.win 4).blk t).view.emb (ix2 r (0 : Fin 1))) = _
  rw [← win4_apply]
  refine congrArg _ (funext fun a => Fin.ext ?_)
  match a with
  | ⟨0, _⟩ => show win0_4.index t (0 : Fin 2) * 768 + 1 * r.val = 768 * (t.val / 4) + r.val; omega
  | ⟨1, _⟩ => show win0_4.index t (1 : Fin 2) * 1 + 1 * 0 = 0; omega

theorem blk5 (c : Dev nD) (t : Fin cfg0.N)  (s : Fin 768) :
    xb5 m c t (ix2 (0 : Fin 1) s) = Cert.Lsm.pad1 (G m c) (rowOf (bJ t) s) := by
  obtain ⟨e00, e01, e10, e11, e20, e21, e30, e31, e40, e41, e50, e51, e60, e61, e70, e71, e80, e81⟩ := idx_facts t
  show (V m c main_v30 : S1x3072.Idx → EReal) (((cfg0.win 5).blk t).view.emb (ix2 (0 : Fin 1) s)) = _
  rw [← win5_apply]
  refine congrArg _ (funext fun a => Fin.ext ?_)
  match a with
  | ⟨0, _⟩ => show win0_5.index t (0 : Fin 2) * 1 + 1 * 0 = 0; omega
  | ⟨1, _⟩ => show win0_5.index t (1 : Fin 2) * 768 + 1 * s.val = 768 * (t.val % 4) + s.val; omega

theorem blk6 (c : Dev nD) (t : Fin cfg0.N) (r : Fin 768)  :
    xb6 m c t (ix2 r (0 : Fin 1)) = Cert.Lsm.mk (rowOf (bI t) r) := by
  obtain ⟨e00, e01, e10, e11, e20, e21, e30, e31, e40, e41, e50, e51, e60, e61, e70, e71, e80, e81⟩ := idx_facts t
  show (V m c main_v35 : S3072x1.Idx → EReal) (((cfg0.win 6).blk t).view.emb (ix2 r (0 : Fin 1))) = _
  rw [← win6_apply]
  refine congrArg _ (funext fun a => Fin.ext ?_)
  match a with
  | ⟨0, _⟩ => show win0_6.index t (0 : Fin 2) * 768 + 1 * r.val = 768 * (t.val / 4) + r.val; omega
  | ⟨1, _⟩ => show win0_6.index t (1 : Fin 2) * 1 + 1 * 0 = 0; omega

theorem blk7 (c : Dev nD) (t : Fin cfg0.N)  (s : Fin 768) :
    xb7 m c t (ix2 (0 : Fin 1) s) = Cert.Lsm.mk (rowOf (bJ t) s) := by
  obtain ⟨e00, e01, e10, e11, e20, e21, e30, e31, e40, e41, e50, e51, e60, e61, e70, e71, e80, e81⟩ := idx_facts t
  show (V m c main_v40 : S1x3072.Idx → EReal) (((cfg0.win 7).blk t).view.emb (ix2 (0 : Fin 1) s)) = _
  rw [← win7_apply]
  refine congrArg _ (funext fun a => Fin.ext ?_)
  match a with
  | ⟨0, _⟩ => show win0_7.index t (0 : Fin 2) * 1 + 1 * 0 = 0; omega
  | ⟨1, _⟩ => show win0_7.index t (1 : Fin 2) * 768 + 1 * s.val = 768 * (t.val % 4) + s.val; omega

/-- One run of the body at point t over any previous column: the previous value plus the block's row sums. -/
theorem point_apply (c : Dev nD) (t : Fin cfg0.N) (acc : Vec Ideal S768x1 .f32) (r : Fin 768) :
    k0_pay1 (F := Ideal) (k0_pay3 (xb0 m c t) (xb1 m c t) (xb2 m c t) (xb3 m c t) (xb4 m c t) (xb5 m c t)) (k0_pay4 (xb6 m c t) (xb7 m c t)) acc
        (ix2 r (0 : Fin 1))
      = acc (ix2 r (0 : Fin 1))
        + ∑ s : Fin 768, Cert.Lsm.eK (Zi m c) (Zj m c) (B m c) (G m c) (rowOf (bI t) r) (rowOf (bJ t) s) :=
  pay1_apply (Zi m c) (Zj m c) (B m c) (G m c) (bI t) (bJ t) (xb0 m c t) (xb1 m c t) (xb2 m c t) (xb3 m c t) (xb4 m c t) (xb5 m c t)
    (xb6 m c t) (xb7 m c t) acc (fun r d => blk0 m c t r d) (fun d s => blk1 m c t d s) (fun r => blk2 m c t r) (fun s => blk3 m c t s)
    (fun r => blk4 m c t r) (fun s => blk5 m c t s) (fun r => blk6 m c t r) (fun s => blk7 m c t s) r

/-- The row sum of one block of 768 columns (block column b; zero for a b no point meets). -/
def blockSum (c : Dev nD) (bi : Fin 4) (r : Fin 768) (b : ℕ) : EReal :=
  if h : b < 4 then ∑ s : Fin 768, Cert.Lsm.eK (Zi m c) (Zj m c) (B m c) (G m c) (rowOf bi r) (rowOf ⟨b, h⟩ s) else 0

theorem blockSum_bJ (c : Dev nD) (t : Fin cfg0.N) (r : Fin 768) :
    blockSum m c (bI t) r (t.val % 4)
      = ∑ s : Fin 768, Cert.Lsm.eK (Zi m c) (Zj m c) (B m c) (G m c) (rowOf (bI t) r) (rowOf (bJ t) s) := by
  unfold blockSum
  rw [dif_pos (Nat.mod_lt _ (by decide))]

/-- The carried column after a point: the block row sums of the block columns met so far in this block row. -/
def Inv (c : Dev nD) (t : Fin cfg0.N) : Prop :=
  ∀ r : Fin 768, (outsAt0 m c t.val t.isLt).2 (ix2 r (0 : Fin 1)) = ∑ b ∈ Finset.range (t.val % 4 + 1), blockSum m c (bI t) r b

/-- What the three cases leave in the carried column, in one form: the body's stored column over the previous one
    (the zero column at the first block of a row). -/
theorem scratch_A (c : Dev nD) (t : Fin cfg0.N) (h0 : t.val % 4 = 0) (h1 : ¬t.val % 4 = 3) (r : Fin 768) :
    (outsAt0 m c t.val t.isLt).2 (ix2 r (0 : Fin 1))
      = ∑ s : Fin 768, Cert.Lsm.eK (Zi m c) (Zj m c) (B m c) (G m c) (rowOf (bI t) r) (rowOf (bJ t) s) := by
  rw [outsAt0_A m c t h0 h1]
  dsimp only
  refine (congrFun (soutA_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) (ix2 r (0 : Fin 1))).trans ?_
  refine (point_apply m c t _ r).trans ?_
  rw [pay2_apply, zero_add]

theorem scratch_B (c : Dev nD) (t : Fin cfg0.N) (h0 : ¬t.val % 4 = 0) (h1 : ¬t.val % 4 = 3) (r : Fin 768) :
    (outsAt0 m c t.val t.isLt).2 (ix2 r (0 : Fin 1))
      = (outsAt0 m c (t.val - 1) (Nat.lt_of_le_of_lt (Nat.sub_le _ _) t.isLt)).2 (ix2 r (0 : Fin 1))
        + ∑ s : Fin 768, Cert.Lsm.eK (Zi m c) (Zj m c) (B m c) (G m c) (rowOf (bI t) r) (rowOf (bJ t) s) := by
  rw [outsAt0_B m c t h0 h1]
  dsimp only
  refine (congrFun (soutB_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) (ix2 r (0 : Fin 1))).trans ?_
  exact point_apply m c t _ r

theorem scratch_C (c : Dev nD) (t : Fin cfg0.N) (h0 : ¬t.val % 4 = 0) (h1 : t.val % 4 = 3) (r : Fin 768) :
    (outsAt0 m c t.val t.isLt).2 (ix2 r (0 : Fin 1))
      = (outsAt0 m c (t.val - 1) (Nat.lt_of_le_of_lt (Nat.sub_le _ _) t.isLt)).2 (ix2 r (0 : Fin 1))
        + ∑ s : Fin 768, Cert.Lsm.eK (Zi m c) (Zj m c) (B m c) (G m c) (rowOf (bI t) r) (rowOf (bJ t) s) := by
  rw [outsAt0_C m c t h0 h1]
  dsimp only
  refine (congrFun (soutC_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) (ix2 r (0 : Fin 1))).trans ?_
  exact point_apply m c t _ r

/-- At the last block of a row the output block is the carried column. -/
theorem out_C (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  dsimp only
  exact (outC_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2).trans (soutC_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2).symm

/-- The invariant holds at every point, by induction along the grid's order. -/
theorem inv_all (c : Dev nD) : ∀ (n : ℕ) (t : Fin cfg0.N), t.val = n → Inv m c t := by
  intro n
  induction n with
  | zero =>
    intro t ht r
    have h0 : t.val % 4 = 0 := by omega
    rw [scratch_A m c t h0 (by omega) r, h0, Finset.sum_range_one, ← blockSum_bJ, h0]
  | succ k ih =>
    intro t ht r
    have hN : t.val < 16 := lt_of_lt_of_eq t.isLt N16
    by_cases h0 : t.val % 4 = 0
    · rw [scratch_A m c t h0 (by omega) r, h0, Finset.sum_range_one, ← blockSum_bJ, h0]
    · have hprev := ih ⟨t.val - 1, Nat.lt_of_le_of_lt (Nat.sub_le _ _) t.isLt⟩ (by show t.val - 1 = k; omega) r
      have eI : bI (⟨t.val - 1, Nat.lt_of_le_of_lt (Nat.sub_le _ _) t.isLt⟩ : Fin cfg0.N) = bI t :=
        Fin.ext (by show (t.val - 1) / 4 = t.val / 4; omega)
      have eJ : (t.val - 1) % 4 + 1 = t.val % 4 := by omega
      have hstep : (outsAt0 m c t.val t.isLt).2 (ix2 r (0 : Fin 1))
          = (outsAt0 m c (t.val - 1) (Nat.lt_of_le_of_lt (Nat.sub_le _ _) t.isLt)).2 (ix2 r (0 : Fin 1))
            + ∑ s : Fin 768, Cert.Lsm.eK (Zi m c) (Zj m c) (B m c) (G m c) (rowOf (bI t) r) (rowOf (bJ t) s) := by
        by_cases h1 : t.val % 4 = 3
        · exact scratch_C m c t h0 h1 r
        · exact scratch_B m c t h0 h1 r
      rw [hstep, Finset.sum_range_succ, blockSum_bJ]
      refine congrArg (· + _) ?_
      refine hprev.trans ?_
      show ∑ b ∈ Finset.range ((t.val - 1) % 4 + 1), blockSum m c (bI ⟨t.val - 1, _⟩) r b = _
      rw [eI, eJ]

/-- The output array the region leaves: the specification's row sums. -/
def outArr (c : Dev nD) : S3072x1.Idx → EReal :=
  fun y => Cert.Lsm.rowK (Zi m c) (Zj m c) (B m c) (G m c) ⟨(y 0).val, idx2_lt0 y⟩

/-- The carried column after the last block of a row is the specification's row sum. -/
theorem row_done (c : Dev nD) (t : Fin cfg0.N) (h3 : t.val % 4 = 3) (r : Fin 768) :
    (outsAt0 m c t.val t.isLt).2 (ix2 r (0 : Fin 1)) = Cert.Lsm.rowK (Zi m c) (Zj m c) (B m c) (G m c) (rowOf (bI t) r) := by
  rw [inv_all m c t.val t rfl r, h3, Cert.Lsm.rowK_blocks, Finset.sum_range]
  refine Finset.sum_congr rfl fun b _ => ?_
  unfold blockSum
  rw [dif_pos b.isLt]

private theorem hz2 : (![0, 0] : Fin 2 → Nat) = fun _ => 0 := funext fun a => by fin_cases a <;> rfl

/-- What a flushing point writes back is its block of the output array. -/
theorem flushed8_eq (c : Dev nD) (t : Fin cfg0.N) (hf : (cfg0.win 8).flush t = true) :
    (dats m 0 c).flushed 8 t = ((cfg0.win 8).blk t).view.read (Elt Ideal) (outArr m c) := by
  have h3 : t.val % 4 = 3 := (flush0_8 t).mp hf
  obtain ⟨e00, e01, e10, e11, e20, e21, e30, e31, e40, e41, e50, e51, e60, e61, e70, e71, e80, e81⟩ := idx_facts t
  show (cfg0.win 8).cut (grid0.coords t) ((dats m 0 c).after 8 t) = _
  rw [after0_8, out_C m c t (by omega) h3]
  funext j
  obtain ⟨r, q, rfl⟩ : ∃ (r : Fin 768) (q : Fin 1), j = ix2 r q := ⟨j 0, j 1, eq_ix2 j⟩
  obtain rfl : q = 0 := Subsingleton.elim _ _
  show (outsAt0 m c t.val t.isLt).2 (ix2 r (0 : Fin 1)) = outArr m c (((cfg0.win 8).blk t).view.emb (ix2 r (0 : Fin 1)))
  rw [row_done m c t h3 r]
  unfold outArr
  refine congrArg _ (Fin.ext ?_)
  show 768 * (t.val / 4) + r.val = win0_8.index t (0 : Fin 2) * 768 + 1 * r.val
  omega

/-- An index of the output array is in point t's block iff each coordinate is in the block's range on its axis. -/
theorem mem_blk8 (t : Fin cfg0.N) (i : S3072x1.Idx) :
    i ∈ ((cfg0.win 8).blk t).view.set ↔ ∀ a : Fin 2, win0_8.index t a * S768x1.size a ≤ (i a).val ∧ (i a).val < win0_8.index t a * S768x1.size a + S768x1.size a := by
  show i ∈ ((View.whole main_v41).slice (win0_8.rect t)).set ↔ _
  rw [View.set_slice_whole, Rect.mem_set_unit]
  exact Iff.rfl

/-- Every row of the output array is in the block some last-column point writes back. -/
theorem cover8 (i : S3072x1.Idx) : ∃ t : Fin cfg0.N, (cfg0.win 8).flush t = true ∧ i ∈ ((cfg0.win 8).blk t).view.set := by
  have hi0 : (i 0).val < 3072 := idx2_lt0 i
  have hi1 : (i 1).val < 1 := idx2_lt1 i
  have hlt : 4 * ((i 0).val / 768) + 3 < cfg0.N := by rw [N16]; omega
  refine ⟨⟨4 * ((i 0).val / 768) + 3, hlt⟩, (flush0_8 _).mpr (by show (4 * ((i 0).val / 768) + 3) % 4 = 3; omega), ?_⟩
  obtain ⟨e00, e01, e10, e11, e20, e21, e30, e31, e40, e41, e50, e51, e60, e61, e70, e71, e80, e81⟩ :=
    idx_facts ⟨4 * ((i 0).val / 768) + 3, hlt⟩
  have q0 : win0_8.index ⟨4 * ((i 0).val / 768) + 3, hlt⟩ (0 : Fin 2) = (i 0).val / 768 := by
    rw [e80]; show (4 * ((i 0).val / 768) + 3) / 4 = _; omega
  rw [mem_blk8]
  intro a
  match a with
  | ⟨0, _⟩ =>
    show win0_8.index ⟨4 * ((i 0).val / 768) + 3, hlt⟩ (0 : Fin 2) * 768 ≤ (i 0).val
      ∧ (i 0).val < win0_8.index ⟨4 * ((i 0).val / 768) + 3, hlt⟩ (0 : Fin 2) * 768 + 768
    rw [q0]; omega
  | ⟨1, _⟩ =>
    show win0_8.index ⟨4 * ((i 0).val / 768) + 3, hlt⟩ (1 : Fin 2) * 1 ≤ (i 1).val
      ∧ (i 1).val < win0_8.index ⟨4 * ((i 0).val / 768) + 3, hlt⟩ (1 : Fin 2) * 1 + 1
    rw [e81]; omega

/-- The output array after the region: the specification's row sums. -/
theorem final8 (c : Dev nD) : (dats m 0 c).arrAt 8 cfg0.N = outArr m c :=
  (dats m 0 c).arrAt_eq_of_cover 8 (outArr m c) (fun t hf => flushed8_eq m c t hf) (cover8)

end Cert.Lsm.K

end
-- ==== Proof.KernelRun.lean ====
/-
  The kernel program's result. After the pallas region the host sums the output column, computes the link term from the
  four link gathers (which the region does not touch), and subtracts. The region's output column is the
  specification's row sums (the accumulation), so the result is the link term minus the sum of the row sums.
-/
import proofs.«431489_j30176440221725_3_alg».proof.Proof.KernelAcc
import Idealize.ShloMosaic.Lib.StableHlo.Run

set_option maxRecDepth 16384

noncomputable section

namespace Cert.Lsm.K

open Idealize.ShloMosaic Idealize.ShloMosaic.TcCoe Idealize.ShloMosaic.Tactic Idealize.SL.Sem Idealize.ShloMosaic.StableHlo
open Idealize.ShloMosaic.ValueIdx
open Idealize.ShloMosaic.Pipeline (Dat Cfg Window)
open Cert.KernelIdeal Cert.KernelIdeal.Gen

variable (m : (ℓ : Loc nD τ sig) → Buf (Elt Ideal) ℓ) (ρ : Dev nD → PrngReg)

/-- The link term as the host computes it from the four link gathers: the sum over the links of
    beta + gamma - sqrt (sum_d ((zi - zj) + eps)^2). -/
def linkK (zl zr : S500000x8.Idx → EReal) (bl gl : S500000.Idx → EReal) : S_.Idx → EReal :=
  Host.reduceAdd (F := Ideal)
    (subf (addf bl gl)
      (Host.sqrt
        (Host.reduceAdd (F := Ideal)
          (mulf
            (addf (subf zl zr) (broadcastInDim S500000x8 ![] Facts₀.bcast_S_S500000x8 (constant (F := Ideal) S_ .f32 0x358637BD#32)))
            (addf (subf zl zr) (broadcastInDim S500000x8 ![] Facts₀.bcast_S_S500000x8 (constant (F := Ideal) S_ .f32 0x358637BD#32))))
          (constant (F := Ideal) S_ .f32 0#32) Facts₀.reducesTo_S500000x8_S500000_d1 Facts₀.h_S_)))
    (constant (F := Ideal) S_ .f32 0#32) Facts₀.reducesTo_S500000_S_d0 Facts₀.h_S_

/-- The result as a function of the region's output column and the four link gathers. -/
def resOf (out : S3072x1.Idx → EReal) (zl zr : S500000x8.Idx → EReal) (bl gl : S500000.Idx → EReal) : S_.Idx → EReal :=
  subf (linkK zl zr bl gl)
    (Host.reduceAdd (F := Ideal) out (constant (F := Ideal) S_ .f32 0#32) Facts₀.reducesTo_S3072x1_S_d0_1 Facts₀.h_S_)

set_option maxHeartbeats 4000000 in
/-- The fifteen host operations after the region, over any contents of the buffers they read. -/
theorem tail_of (W : Valuation τ sig (Elt Ideal)) :
    (StableHlo.after hostOps1 W (Proc.devRef .tc main_v52) : S_.Idx → EReal)
      = resOf (W (Proc.devRef .tc main_v41)) (W (Proc.devRef .tc main_v4)) (W (Proc.devRef .tc main_v5))
          (W (Proc.devRef .tc main_v6)) (W (Proc.devRef .tc main_v7)) := by
  simp only [hostOps1]
  after_results
  rfl

/-- The kernel program's result on core c. -/
def resK (c : Dev nD) : S_.Idx → EReal :=
  resOf (outArr m c) (V m c main_v4) (V m c main_v5) (V m c main_v6) (V m c main_v7)

/-- What the run's post names as the result buffer's contents is resK. -/
theorem tail_value (c : Dev nD) :
    Pipeline.afterTail₀ cfgs (dats m) 0 (V0 m) [hostOps1] c main_v52 = resK m c := by
  unfold Pipeline.afterTail₀
  show StableHlo.after hostOps1 _ (Proc.devRef .tc main_v52) = _
  rw [tail_of]
  unfold resK
  have e41 : Pipeline.withArrays (cfgs 0).spec c (V0 m c) (fun w => (dats m 0 c).arrAt w (cfgs 0).N) (Proc.devRef .tc main_v41)
      = outArr m c :=
    (Pipeline.withArrays_arr spec0 launch0.win.arr_inj c _ _ 8).trans (final8 m c)
  have e4 : Pipeline.withArrays (cfgs 0).spec c (V0 m c) (fun w => (dats m 0 c).arrAt w (cfgs 0).N) (Proc.devRef .tc main_v4)
      = V m c main_v4 :=
    Pipeline.withArrays_of_ne _ c (V0 m c) _ main_v4 (by exact (by decide : ∀ w, Pipeline.arrRef spec0 w ≠ main_v4))
  have e5 : Pipeline.withArrays (cfgs 0).spec c (V0 m c) (fun w => (dats m 0 c).arrAt w (cfgs 0).N) (Proc.devRef .tc main_v5)
      = V m c main_v5 :=
    Pipeline.withArrays_of_ne _ c (V0 m c) _ main_v5 (by exact (by decide : ∀ w, Pipeline.arrRef spec0 w ≠ main_v5))
  have e6 : Pipeline.withArrays (cfgs 0).spec c (V0 m c) (fun w => (dats m 0 c).arrAt w (cfgs 0).N) (Proc.devRef .tc main_v6)
      = V m c main_v6 :=
    Pipeline.withArrays_of_ne _ c (V0 m c) _ main_v6 (by exact (by decide : ∀ w, Pipeline.arrRef spec0 w ≠ main_v6))
  have e7 : Pipeline.withArrays (cfgs 0).spec c (V0 m c) (fun w => (dats m 0 c).arrAt w (cfgs 0).N) (Proc.devRef .tc main_v7)
      = V m c main_v7 :=
    Pipeline.withArrays_of_ne _ c (V0 m c) _ main_v7 (by exact (by decide : ∀ w, Pipeline.arrRef spec0 w ≠ main_v7))
  rw [e41, e4, e5, e6, e7]

/-- Every weakly fair execution of the kernel program ends with the result buffer at resK and the arguments unchanged. -/
theorem run_value : θ_run defs (onTc (τ := τ) (main (F := Ideal))) ⟨m, fun _ => 0, ρ⟩ (fun r => ∀ c : Dev nD,
      r.2.mem ((c.tc : Thread nD τ).loc main_v52) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v52 (Pipeline.mem_restRefs_of main_v52 (by decide) (by decide))).trans (tail_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩) (run_main m ρ)

end Cert.Lsm.K

end
-- ==== Proof.KernelTake.lean ====
/-
  The eight row gathers of the kernel program. Each is jnp.take in its fill mode: the index is wrapped (a negative
  index gets 100000 added), the table is gathered at the wrapped index (the gather clamps), and a row whose wrapped index
  lies outside 0 .. 99999 is replaced by the NaN word. When every index, read as an unsigned word, is below 100000, no
  index is negative, the wrap is the identity, the range test passes on every row, and the result is the plain gather at
  the wrapped index: the expression the reference program computes.
-/
import proofs.«431489_j30176440221725_3_alg».proof.Proof.KernelNested

set_option maxRecDepth 16384

noncomputable section

namespace Cert.Lsm.K

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen

variable (m : (ℓ : Loc nD τ sig) → Buf (Elt Ideal) ℓ)

/-- Two transports back and forth along one type equation cancel. -/
private theorem cast_cast_id {α β : Type} (h : α = β) (h' : β = α) (v : α) : cast h' (cast h v) = v := by
  subst h; rfl

/-! ## Words, folds and selects -/

/-- A left fold by and over ones, started at one, is one. -/
private theorem foldl_andi_ones {ι : Type} (f : ι → BitVec 1) (hf : ∀ i, f i = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi 1#1 1#1 = 1#1 from by decide]
    exact foldl_andi_ones f hf l

/-- A reduction by and of an array of ones, from an initial value of ones, is one at every result index. -/
private theorem reduce_andi_ones {s t u : Shape} {axes : List (Fin s.rank)} (x : s.Idx → BitVec 1) (init : u.Idx → BitVec 1)
    (hr : s.ReducesTo axes t) (hu : 0 < u.numel) (hx : ∀ i, x i = 1#1) (hi : ∀ k, init k = 1#1) (j : t.Idx) :
    Host.reduce IntOp.andi x init hr hu j = 1#1 := by
  rw [Host.reduce_eq_foldl, hi]
  exact foldl_andi_ones x hx _

/-- A select whose condition is one everywhere is its first operand. -/
private theorem select_ones {s : Shape} {α : Type} (cnd : IVec s 1) (a b : s.Idx → α) (hc : ∀ y, cnd y = 1#1) :
    select cnd a b = a := by
  funext y
  show Scalar.select (cnd y) (a y) (b y) = a y
  rw [hc y]
  exact if_pos rfl

/-- The wrap of an index below 100000 (unsigned) is the index itself: such a word is not negative read signed. -/
private theorem wrap_eq {s : Shape} (idx Z H : IVec s 32) (hZ : ∀ p, Z p = 0#32) (h : ∀ p, (idx p).toNat < 100000) :
    select (cmpi .slt idx Z) (addi idx H) idx = idx := by
  funext p
  show Scalar.select (IntOp.cmpi .slt (idx p) (Z p)) (IntOp.addi (idx p) (H p)) (idx p) = idx p
  rw [hZ p]
  have hp := h p
  have e0 : (0#32 : BitVec 32).toNat = 0 := by decide
  have hn : ¬ IntOp.cmpi .slt (idx p) 0#32 = 1#1 := by
    rw [Predicate.slt_iff_toNat (by omega) (by decide), e0]
    omega
  exact if_neg hn

/-- The range test 0 <= J and J <= 99999 (signed), and-reduced from one, is one wherever every entry of J is below
    100000 read unsigned. -/
private theorem range_ones {s t u : Shape} {axes : List (Fin s.rank)} (J Z N : IVec s 32) (init : IVec u 1)
    (hr : s.ReducesTo axes t) (hu : 0 < u.numel) (hZ : ∀ q, Z q = 0#32) (hN : ∀ q, N q = 99999#32)
    (hi : ∀ k, init k = 1#1) (hJ : ∀ q, (J q).toNat < 100000) (j : t.Idx) :
    Host.reduce IntOp.andi (andi (cmpi .sge J Z) (cmpi .sle J N)) init hr hu j = 1#1 := by
  refine reduce_andi_ones _ _ hr hu (fun q => ?_) hi j
  show IntOp.andi (IntOp.cmpi .sge (J q) (Z q)) (IntOp.cmpi .sle (J q) (N q)) = 1#1
  rw [hZ q, hN q, IntOp.andi_eq_one]
  have hq := hJ q
  have e0 : (0#32 : BitVec 32).toNat = 0 := by decide
  have e9 : (99999#32 : BitVec 32).toNat = 99999 := by decide
  refine ⟨(Predicate.sge_iff_toNat (by omega) (by decide)).2 ?_, (Predicate.sle_iff_toNat (by omega) (by decide)).2 ?_⟩
  · rw [e0]; omega
  · rw [e9]; omega

/-! ## The line of host operations, cut at one stretch -/

/-- The fold over a list of stretches cut at one of them: the stretches before, then that one, then those after. -/
private theorem after_split (PRE SUF : List (List (HloOp τ sig (Elt Ideal)))) (x : List (HloOp τ sig (Elt Ideal)))
    (W : Valuation τ sig (Elt Ideal)) :
    StableHlo.after (List.flatten (PRE ++ x :: SUF)) W
      = StableHlo.after (List.flatten SUF) (StableHlo.after x (StableHlo.after (List.flatten PRE) W)) := by
  rw [List.flatten_append, List.flatten_cons, after_append, after_append]

/-- A buffer read after the whole line, when no stretch after the cut writes it, is what the cut stretch leaves. -/
private theorem read_cut (PRE SUF : List (List (HloOp τ sig (Elt Ideal)))) (x : List (HloOp τ sig (Elt Ideal)))
    (W : Valuation τ sig (Elt Ideal)) (b : DevRef τ sig) (hs : ∀ op ∈ List.flatten SUF, b ∉ op.writes) :
    StableHlo.after (List.flatten (PRE ++ x :: SUF)) W b
      = StableHlo.after x (StableHlo.after (List.flatten PRE) W) b := by
  rw [after_split, after_of_forall_not_mem _ _ hs]

/-- What no operation of a list of stretches writes, none of its first stretches writes. -/
private theorem nw_pre {b : DevRef τ sig} (A B : List (List (HloOp τ sig (Elt Ideal))))
    (h : ∀ op ∈ List.flatten (A ++ B), b ∉ op.writes) : ∀ op ∈ List.flatten A, b ∉ op.writes :=
  fun op hop => h op (by rw [List.flatten_append]; exact List.mem_append_left _ hop)

/-! ## The gather's pieces, for 3000 indices -/

/-- The wrapped index as a column: a negative index gets 100000 added. -/
private def col3k (idx : IVec S3000 32) : IVec S3000x1 32 :=
  broadcastInDim S3000x1 ![0] bcast_S3000_S3000x1_0
    (select (cmpi .slt idx (broadcastInDim S3000 ![] bcast_S_S3000 (constantI S_ 32 0#32)))
      (addi idx (broadcastInDim S3000 ![] bcast_S_S3000 (constantI S_ 32 100000#32))) idx)

/-- The row test: the wrapped index lies in 0 .. 99999. -/
private def ok3k (idx : IVec S3000 32) : IVec S3000 1 :=
  Host.reduce IntOp.andi
    (andi (cmpi .sge (col3k idx) (broadcastInDim S3000x1 ![] bcast_S_S3000x1 (constantI S_ 32 0#32)))
      (cmpi .sle (col3k idx) (broadcastInDim S3000x1 ![0, 1] bcast_S1x1_S3000x1_0_1
        (broadcastInDim S1x1 ![1] bcast_S1_S1x1_1 (constantI S1 32 99999#32)))))
    (constantI S_ 1 1#1) reducesTo_S3000x1_S3000_d1 h_S_

/-- Rows of the 100000 x 8 table taken in fill mode: a row failing the test is replaced by the NaN word. -/
private def take3k8 (x : S100000x8.Idx → EReal) (idx : IVec S3000 32) : S3000x8.Idx → EReal :=
  select (broadcastInDim S3000x8 ![0] bcast_S3000_S3000x8_0 (ok3k idx))
    (Host.gather gather_S100000x8_S3000x1_S3000x8_1_0_n_n_0_1_18 x (col3k idx))
    (broadcastInDim S3000x8 ![] bcast_S_S3000x8 (constant (F := Ideal) S_ .f32 0x7FC00000#32))

/-- Entries of the 100000 vector taken in fill mode. -/
private def take3k1 (x : S100000.Idx → EReal) (idx : IVec S3000 32) : S3000.Idx → EReal :=
  select (ok3k idx)
    (Host.gather gather_S100000_S3000x1_S3000_n_0_n_n_0_1_1 x (col3k idx))
    (broadcastInDim S3000 ![] bcast_S_S3000 (constant (F := Ideal) S_ .f32 0x7FC00000#32))

private theorem col3k_lt (idx : IVec S3000 32) (h : ∀ p, (idx p).toNat < 100000) (q : S3000x1.Idx) :
    (col3k idx q).toNat < 100000 := by
  have e := wrap_eq idx (broadcastInDim S3000 ![] bcast_S_S3000 (constantI S_ 32 0#32))
    (broadcastInDim S3000 ![] bcast_S_S3000 (constantI S_ 32 100000#32)) (fun _ => rfl) h
  unfold col3k
  rw [e]
  exact h _

private theorem ok3k_one (idx : IVec S3000 32) (h : ∀ p, (idx p).toNat < 100000) (p : S3000.Idx) : ok3k idx p = 1#1 :=
  range_ones _ _ _ _ _ _ (fun _ => rfl) (fun _ => rfl) (fun _ => rfl) (col3k_lt idx h) p

/-- With every index below 100000 every row passes the test: the fill-mode take is the plain gather. -/
private theorem take3k8_eq (x : S100000x8.Idx → EReal) (idx : IVec S3000 32) (h : ∀ p, (idx p).toNat < 100000) :
    take3k8 x idx = Host.gather gather_S100000x8_S3000x1_S3000x8_1_0_n_n_0_1_18 x (col3k idx) :=
  select_ones _ _ _ (fun _ => ok3k_one idx h _)

private theorem take3k1_eq (x : S100000.Idx → EReal) (idx : IVec S3000 32) (h : ∀ p, (idx p).toNat < 100000) :
    take3k1 x idx = Host.gather gather_S100000_S3000x1_S3000_n_0_n_n_0_1_1 x (col3k idx) :=
  select_ones _ _ _ (fun _ => ok3k_one idx h _)

/-! ## The gather's pieces, for 500000 indices -/

/-- The wrapped index as a column: a negative index gets 100000 added. -/
private def col5k (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 100000#32))) idx)

/-- The row test: the wrapped index lies in 0 .. 99999. -/
private def ok5k (idx : IVec S500000 32) : IVec S500000 1 :=
  Host.reduce IntOp.andi
    (andi (cmpi .sge (col5k idx) (broadcastInDim S500000x1 ![] bcast_S_S500000x1 (constantI S_ 32 0#32)))
      (cmpi .sle (col5k idx) (broadcastInDim S500000x1 ![0, 1] bcast_S1x1_S500000x1_0_1
        (broadcastInDim S1x1 ![1] bcast_S1_S1x1_1 (constantI S1 32 99999#32)))))
    (constantI S_ 1 1#1) reducesTo_S500000x1_S500000_d1 h_S_

/-- Rows of the 100000 x 8 table taken in fill mode: a row failing the test is replaced by the NaN word. -/
private def take5k8 (x : S100000x8.Idx → EReal) (idx : IVec S500000 32) : S500000x8.Idx → EReal :=
  select (broadcastInDim S500000x8 ![0] bcast_S500000_S500000x8_0 (ok5k idx))
    (Host.gather gather_S100000x8_S500000x1_S500000x8_1_0_n_n_0_1_18 x (col5k idx))
    (broadcastInDim S500000x8 ![] bcast_S_S500000x8 (constant (F := Ideal) S_ .f32 0x7FC00000#32))

/-- Entries of the 100000 vector taken in fill mode. -/
private def take5k1 (x : S100000.Idx → EReal) (idx : IVec S500000 32) : S500000.Idx → EReal :=
  select (ok5k idx)
    (Host.gather gather_S100000_S500000x1_S500000_n_0_n_n_0_1_1 x (col5k idx))
    (broadcastInDim S500000 ![] bcast_S_S500000 (constant (F := Ideal) S_ .f32 0x7FC00000#32))

private theorem col5k_lt (idx : IVec S500000 32) (h : ∀ p, (idx p).toNat < 100000) (q : S500000x1.Idx) :
    (col5k idx q).toNat < 100000 := by
  have e := wrap_eq idx (broadcastInDim S500000 ![] bcast_S_S500000 (constantI S_ 32 0#32))
    (broadcastInDim S500000 ![] bcast_S_S500000 (constantI S_ 32 100000#32)) (fun _ => rfl) h
  unfold col5k
  rw [e]
  exact h _

private theorem ok5k_one (idx : IVec S500000 32) (h : ∀ p, (idx p).toNat < 100000) (p : S500000.Idx) : ok5k idx p = 1#1 :=
  range_ones _ _ _ _ _ _ (fun _ => rfl) (fun _ => rfl) (fun _ => rfl) (col5k_lt idx h) p

/-- With every index below 100000 every row passes the test: the fill-mode take is the plain gather. -/
private theorem take5k8_eq (x : S100000x8.Idx → EReal) (idx : IVec S500000 32) (h : ∀ p, (idx p).toNat < 100000) :
    take5k8 x idx = Host.gather gather_S100000x8_S500000x1_S500000x8_1_0_n_n_0_1_18 x (col5k idx) :=
  select_ones _ _ _ (fun _ => ok5k_one idx h _)

private theorem take5k1_eq (x : S100000.Idx → EReal) (idx : IVec S500000 32) (h : ∀ p, (idx p).toNat < 100000) :
    take5k1 x idx = Host.gather gather_S100000_S500000x1_S500000_n_0_n_n_0_1_1 x (col5k idx) :=
  select_ones _ _ _ (fun _ => ok5k_one idx h _)

/-! ## What the stretches do not write

Each operation writes its own result buffer only, and the buffers are pairwise distinct: no stretch after a gather's own
writes the gather's result, and no gather stretch writes an input of the program. -/

/-- No stretch after the first gather's writes its result. -/
private theorem nwv0 : ∀ op ∈ (List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] : List (HloOp τ sig (Elt Ideal))),
    Proc.devRef .tc main_v0 ∉ op.writes :=
  List.forall_iff_forall_mem.mp (by
    simp only [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- No stretch after the second gather's writes its result. -/
private theorem nwv1 : ∀ op ∈ (List.flatten [hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] : List (HloOp τ sig (Elt Ideal))),
    Proc.devRef .tc main_v1 ∉ op.writes :=
  List.forall_iff_forall_mem.mp (by
    simp only [hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- No stretch after the third gather's writes its result. -/
private theorem nwv2 : ∀ op ∈ (List.flatten [hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] : List (HloOp τ sig (Elt Ideal))),
    Proc.devRef .tc main_v2 ∉ op.writes :=
  List.forall_iff_forall_mem.mp (by
    simp only [hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- No stretch after the fourth gather's writes its result. -/
private theorem nwv3 : ∀ op ∈ (List.flatten [hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] : List (HloOp τ sig (Elt Ideal))),
    Proc.devRef .tc main_v3 ∉ op.writes :=
  List.forall_iff_forall_mem.mp (by
    simp only [hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- No stretch after the fifth gather's writes its result. -/
private theorem nwv4 : ∀ op ∈ (List.flatten [hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] : List (HloOp τ sig (Elt Ideal))),
    Proc.devRef .tc main_v4 ∉ op.writes :=
  List.forall_iff_forall_mem.mp (by
    simp only [hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- No stretch after the sixth gather's writes its result. -/
private theorem nwv5 : ∀ op ∈ (List.flatten [hostOps0_6, hostOps0_7, hostOps0_8, hostOps0_9, hostOps0_10, hostOps0_11, hostOps0_12, hostOps0_13, hostOps0_14, hostOps0_15, hostOps0_16, hostOps0_17, hostOps0_18, hostOps0_19, hostOps0_20] : List (HloOp τ sig (Elt Ideal))),
    Proc.devRef .tc main_v5 ∉ op.writes :=
  List.forall_iff_forall_mem.mp (by
    simp only [hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- No stretch after the seventh gather's writes its result. -/
private theorem nwv6 : ∀ op ∈ (List.flatten [hostOps0_7, hostOps0_8, hostOps0_9, hostOps0_10, hostOps0_11, hostOps0_12, hostOps0_13, hostOps0_14, hostOps0_15, hostOps0_16, hostOps0_17, hostOps0_18, hostOps0_19, hostOps0_20] : List (HloOp τ sig (Elt Ideal))),
    Proc.devRef .tc main_v6 ∉ op.writes :=
  List.forall_iff_forall_mem.mp (by
    simp only [hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- No stretch after the eighth gather's writes its result. -/
private theorem nwv7 : ∀ op ∈ (List.flatten [hostOps0_8, hostOps0_9, hostOps0_10, hostOps0_11, hostOps0_12, hostOps0_13, hostOps0_14, hostOps0_15, hostOps0_16, hostOps0_17, hostOps0_18, hostOps0_19, hostOps0_20] : List (HloOp τ sig (Elt Ideal))),
    Proc.devRef .tc main_v7 ∉ op.writes :=
  List.forall_iff_forall_mem.mp (by
    simp only [hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- The first 4 stretches leave input 0 of the program alone. -/
private theorem nwa0 : ∀ op ∈ (List.flatten [hostOps0, hostOps0_1, hostOps0_2, hostOps0_3] : List (HloOp τ sig (Elt Ideal))),
    Proc.devRef .tc main_arg0 ∉ op.writes :=
  List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- The first 5 stretches leave input 1 of the program alone. -/
private theorem nwa1 : ∀ op ∈ (List.flatten [hostOps0, hostOps0_1, hostOps0_2, hostOps0_3, hostOps0_4] : List (HloOp τ sig (Elt Ideal))),
    Proc.devRef .tc main_arg1 ∉ op.writes :=
  List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- The first 6 stretches leave input 2 of the program alone. -/
private theorem nwa2 : ∀ op ∈ (List.flatten [hostOps0, hostOps0_1, hostOps0_2, hostOps0_3, hostOps0_4, hostOps0_5] : List (HloOp τ sig (Elt Ideal))),
    Proc.devRef .tc main_arg2 ∉ op.writes :=
  List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- The first 7 stretches leave input 3 of the program alone. -/
private theorem nwa3 : ∀ op ∈ (List.flatten [hostOps0, hostOps0_1, hostOps0_2, hostOps0_3, hostOps0_4, hostOps0_5, hostOps0_6] : List (HloOp τ sig (Elt Ideal))),
    Proc.devRef .tc main_arg3 ∉ op.writes :=
  List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- The first 2 stretches leave input 4 of the program alone. -/
private theorem nwa4 : ∀ op ∈ (List.flatten [hostOps0, hostOps0_1] : List (HloOp τ sig (Elt Ideal))),
    Proc.devRef .tc main_arg4 ∉ op.writes :=
  List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- The first 3 stretches leave input 5 of the program alone. -/
private theorem nwa5 : ∀ op ∈ (List.flatten [hostOps0, hostOps0_1, hostOps0_2] : List (HloOp τ sig (Elt Ideal))),
    Proc.devRef .tc main_arg5 ∉ op.writes :=
  List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- The first 6 stretches leave input 6 of the program alone. -/
private theorem nwa6 : ∀ op ∈ (List.flatten [hostOps0, hostOps0_1, hostOps0_2, hostOps0_3, hostOps0_4, hostOps0_5] : List (HloOp τ sig (Elt Ideal))),
    Proc.devRef .tc main_arg6 ∉ op.writes :=
  List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-- The first 7 stretches leave input 7 of the program alone. -/
private theorem nwa7 : ∀ op ∈ (List.flatten [hostOps0, hostOps0_1, hostOps0_2, hostOps0_3, hostOps0_4, hostOps0_5, hostOps0_6] : List (HloOp τ sig (Elt Ideal))),
    Proc.devRef .tc main_arg7 ∉ op.writes :=
  List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))

/-! ## Each gather stretch, over any contents: the fill-mode take of the table at the index vector -/

private theorem s0 (W : Valuation τ sig (Elt Ideal)) :
    (StableHlo.after hostOps0 W (Proc.devRef .tc main_v0) : S3000x8.Idx → EReal)
      = take3k8 (W (Proc.devRef .tc main_arg0)) (W (Proc.devRef .tc main_arg4)) := by
  simp only [hostOps0]
  after_results_simp
  simp only [cast_cast_id]
  unfold take3k8
  refine (cast_eq _ _).trans ?_
  rfl

private theorem s1 (W : Valuation τ sig (Elt Ideal)) :
    (StableHlo.after hostOps0_1 W (Proc.devRef .tc main_v1) : S3000x8.Idx → EReal)
      = take3k8 (W (Proc.devRef .tc main_arg1)) (W (Proc.devRef .tc main_arg5)) := by
  simp only [hostOps0_1]
  after_results_simp
  simp only [cast_cast_id]
  unfold take3k8
  refine (cast_eq _ _).trans ?_
  rfl

private theorem s2 (W : Valuation τ sig (Elt Ideal)) :
    (StableHlo.after hostOps0_2 W (Proc.devRef .tc main_v2) : S3000.Idx → EReal)
      = take3k1 (W (Proc.devRef .tc main_arg2)) (W (Proc.devRef .tc main_arg4)) := by
  simp only [hostOps0_2]
  after_results_simp
  simp only [cast_cast_id]
  unfold take3k1
  refine (cast_eq _ _).trans ?_
  rfl

private theorem s3 (W : Valuation τ sig (Elt Ideal)) :
    (StableHlo.after hostOps0_3 W (Proc.devRef .tc main_v3) : S3000.Idx → EReal)
      = take3k1 (W (Proc.devRef .tc main_arg3)) (W (Proc.devRef .tc main_arg5)) := by
  simp only [hostOps0_3]
  after_results_simp
  simp only [cast_cast_id]
  unfold take3k1
  refine (cast_eq _ _).trans ?_
  rfl

private theorem s4 (W : Valuation τ sig (Elt Ideal)) :
    (StableHlo.after hostOps0_4 W (Proc.devRef .tc main_v4) : S500000x8.Idx → EReal)
      = take5k8 (W (Proc.devRef .tc main_arg0)) (W (Proc.devRef .tc main_arg6)) := by
  simp only [hostOps0_4]
  after_results_simp
  simp only [cast_cast_id]
  unfold take5k8
  refine (cast_eq _ _).trans ?_
  rfl

private theorem s5 (W : Valuation τ sig (Elt Ideal)) :
    (StableHlo.after hostOps0_5 W (Proc.devRef .tc main_v5) : S500000x8.Idx → EReal)
      = take5k8 (W (Proc.devRef .tc main_arg1)) (W (Proc.devRef .tc main_arg7)) := by
  simp only [hostOps0_5]
  after_results_simp
  simp only [cast_cast_id]
  unfold take5k8
  refine (cast_eq _ _).trans ?_
  rfl

private theorem s6 (W : Valuation τ sig (Elt Ideal)) :
    (StableHlo.after hostOps0_6 W (Proc.devRef .tc main_v6) : S500000.Idx → EReal)
      = take5k1 (W (Proc.devRef .tc main_arg2)) (W (Proc.devRef .tc main_arg6)) := by
  simp only [hostOps0_6]
  after_results_simp
  simp only [cast_cast_id]
  unfold take5k1
  refine (cast_eq _ _).trans ?_
  rfl

private theorem s7 (W : Valuation τ sig (Elt Ideal)) :
    (StableHlo.after hostOps0_7 W (Proc.devRef .tc main_v7) : S500000.Idx → EReal)
      = take5k1 (W (Proc.devRef .tc main_arg3)) (W (Proc.devRef .tc main_arg7)) := by
  simp only [hostOps0_7]
  after_results_simp
  simp only [cast_cast_id]
  unfold take5k1
  refine (cast_eq _ _).trans ?_
  rfl

/-! ## The eight gathers as the region finds them -/

theorem take0 (c : Dev nD) (h : ∀ p, ((m ((c : Thread nD τ).loc main_arg4)) p).toNat < 100000) :
    (V m c main_v0 : S3000x8.Idx → EReal)
      = Host.gather gather_S100000x8_S3000x1_S3000x8_1_0_n_n_0_1_18 (m ((c : Thread nD τ).loc main_arg0)) (broadcastInDim S3000x1 ![0] bcast_S3000_S3000x1_0 (select (cmpi .slt (m ((c : Thread nD τ).loc main_arg4)) (broadcastInDim S3000 ![] bcast_S_S3000 (constantI S_ 32 0#32))) (addi (m ((c : Thread nD τ).loc main_arg4)) (broadcastInDim S3000 ![] bcast_S_S3000 (constantI S_ 32 100000#32))) (m ((c : Thread nD τ).loc main_arg4)))) := by
  have e : (V m c main_v0 : S3000x8.Idx → EReal)
      = StableHlo.after hostOps0 (fun b => m (c, b)) (Proc.devRef .tc main_v0) :=
    read_cut [] [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] hostOps0 _ _ nwv0
  rw [e, s0]
  exact take3k8_eq _ _ h

theorem take1 (c : Dev nD) (h : ∀ p, ((m ((c : Thread nD τ).loc main_arg5)) p).toNat < 100000) :
    (V m c main_v1 : S3000x8.Idx → EReal)
      = Host.gather gather_S100000x8_S3000x1_S3000x8_1_0_n_n_0_1_18 (m ((c : Thread nD τ).loc main_arg1)) (broadcastInDim S3000x1 ![0] bcast_S3000_S3000x1_0 (select (cmpi .slt (m ((c : Thread nD τ).loc main_arg5)) (broadcastInDim S3000 ![] bcast_S_S3000 (constantI S_ 32 0#32))) (addi (m ((c : Thread nD τ).loc main_arg5)) (broadcastInDim S3000 ![] bcast_S_S3000 (constantI S_ 32 100000#32))) (m ((c : Thread nD τ).loc main_arg5)))) := by
  have e : (V m c main_v1 : S3000x8.Idx → EReal)
      = StableHlo.after hostOps0_1 (StableHlo.after (List.flatten [hostOps0]) (fun b => m (c, b))) (Proc.devRef .tc main_v1) :=
    read_cut [hostOps0] [hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] hostOps0_1 _ _ nwv1
  rw [e, s1, after_of_forall_not_mem _ _ (nw_pre [hostOps0] [hostOps0_1, hostOps0_2, hostOps0_3, hostOps0_4] nwa1), after_of_forall_not_mem _ _ (nw_pre [hostOps0] [hostOps0_1, hostOps0_2] nwa5)]
  exact take3k8_eq _ _ h

theorem take2 (c : Dev nD) (h : ∀ p, ((m ((c : Thread nD τ).loc main_arg4)) p).toNat < 100000) :
    (V m c main_v2 : S3000.Idx → EReal)
      = Host.gather gather_S100000_S3000x1_S3000_n_0_n_n_0_1_1 (m ((c : Thread nD τ).loc main_arg2)) (broadcastInDim S3000x1 ![0] bcast_S3000_S3000x1_0 (select (cmpi .slt (m ((c : Thread nD τ).loc main_arg4)) (broadcastInDim S3000 ![] bcast_S_S3000 (constantI S_ 32 0#32))) (addi (m ((c : Thread nD τ).loc main_arg4)) (broadcastInDim S3000 ![] bcast_S_S3000 (constantI S_ 32 100000#32))) (m ((c : Thread nD τ).loc main_arg4)))) := by
  have e : (V m c main_v2 : S3000.Idx → EReal)
      = StableHlo.after hostOps0_2 (StableHlo.after (List.flatten [hostOps0, hostOps0_1]) (fun b => m (c, b))) (Proc.devRef .tc main_v2) :=
    read_cut [hostOps0, hostOps0_1] [hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] hostOps0_2 _ _ nwv2
  rw [e, s2, after_of_forall_not_mem _ _ (nw_pre [hostOps0, hostOps0_1] [hostOps0_2, hostOps0_3, hostOps0_4, hostOps0_5] nwa2), after_of_forall_not_mem _ _ nwa4]
  exact take3k1_eq _ _ h

theorem take3 (c : Dev nD) (h : ∀ p, ((m ((c : Thread nD τ).loc main_arg5)) p).toNat < 100000) :
    (V m c main_v3 : S3000.Idx → EReal)
      = Host.gather gather_S100000_S3000x1_S3000_n_0_n_n_0_1_1 (m ((c : Thread nD τ).loc main_arg3)) (broadcastInDim S3000x1 ![0] bcast_S3000_S3000x1_0 (select (cmpi .slt (m ((c : Thread nD τ).loc main_arg5)) (broadcastInDim S3000 ![] bcast_S_S3000 (constantI S_ 32 0#32))) (addi (m ((c : Thread nD τ).loc main_arg5)) (broadcastInDim S3000 ![] bcast_S_S3000 (constantI S_ 32 100000#32))) (m ((c : Thread nD τ).loc main_arg5)))) := by
  have e : (V m c main_v3 : S3000.Idx → EReal)
      = StableHlo.after hostOps0_3 (StableHlo.after (List.flatten [hostOps0, hostOps0_1, hostOps0_2]) (fun b => m (c, b))) (Proc.devRef .tc main_v3) :=
    read_cut [hostOps0, hostOps0_1, hostOps0_2] [hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] hostOps0_3 _ _ nwv3
  rw [e, s3, after_of_forall_not_mem _ _ (nw_pre [hostOps0, hostOps0_1, hostOps0_2] [hostOps0_3, hostOps0_4, hostOps0_5, hostOps0_6] nwa3), after_of_forall_not_mem _ _ nwa5]
  exact take3k1_eq _ _ h

theorem take4 (c : Dev nD) (h : ∀ p, ((m ((c : Thread nD τ).loc main_arg6)) p).toNat < 100000) :
    (V m c main_v4 : S500000x8.Idx → EReal)
      = Host.gather gather_S100000x8_S500000x1_S500000x8_1_0_n_n_0_1_18 (m ((c : Thread nD τ).loc main_arg0)) (broadcastInDim S500000x1 ![0] bcast_S500000_S500000x1_0 (select (cmpi .slt (m ((c : Thread nD τ).loc main_arg6)) (broadcastInDim S500000 ![] bcast_S_S500000 (constantI S_ 32 0#32))) (addi (m ((c : Thread nD τ).loc main_arg6)) (broadcastInDim S500000 ![] bcast_S_S500000 (constantI S_ 32 100000#32))) (m ((c : Thread nD τ).loc main_arg6)))) := by
  have e : (V m c main_v4 : S500000x8.Idx → EReal)
      = StableHlo.after hostOps0_4 (StableHlo.after (List.flatten [hostOps0, hostOps0_1, hostOps0_2, hostOps0_3]) (fun b => m (c, b))) (Proc.devRef .tc main_v4) :=
    read_cut [hostOps0, hostOps0_1, hostOps0_2, hostOps0_3] [hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] hostOps0_4 _ _ nwv4
  rw [e, s4, after_of_forall_not_mem _ _ nwa0, after_of_forall_not_mem _ _ (nw_pre [hostOps0, hostOps0_1, hostOps0_2, hostOps0_3] [hostOps0_4, hostOps0_5] nwa6)]
  exact take5k8_eq _ _ h

theorem take5 (c : Dev nD) (h : ∀ p, ((m ((c : Thread nD τ).loc main_arg7)) p).toNat < 100000) :
    (V m c main_v5 : S500000x8.Idx → EReal)
      = Host.gather gather_S100000x8_S500000x1_S500000x8_1_0_n_n_0_1_18 (m ((c : Thread nD τ).loc main_arg1)) (broadcastInDim S500000x1 ![0] bcast_S500000_S500000x1_0 (select (cmpi .slt (m ((c : Thread nD τ).loc main_arg7)) (broadcastInDim S500000 ![] bcast_S_S500000 (constantI S_ 32 0#32))) (addi (m ((c : Thread nD τ).loc main_arg7)) (broadcastInDim S500000 ![] bcast_S_S500000 (constantI S_ 32 100000#32))) (m ((c : Thread nD τ).loc main_arg7)))) := by
  have e : (V m c main_v5 : S500000x8.Idx → EReal)
      = StableHlo.after hostOps0_5 (StableHlo.after (List.flatten [hostOps0, hostOps0_1, hostOps0_2, hostOps0_3, hostOps0_4]) (fun b => m (c, b))) (Proc.devRef .tc main_v5) :=
    read_cut [hostOps0, hostOps0_1, hostOps0_2, hostOps0_3, hostOps0_4] [hostOps0_6, hostOps0_7, hostOps0_8, hostOps0_9, hostOps0_10, hostOps0_11, hostOps0_12, hostOps0_13, hostOps0_14, hostOps0_15, hostOps0_16, hostOps0_17, hostOps0_18, hostOps0_19, hostOps0_20] hostOps0_5 _ _ nwv5
  rw [e, s5, after_of_forall_not_mem _ _ nwa1, after_of_forall_not_mem _ _ (nw_pre [hostOps0, hostOps0_1, hostOps0_2, hostOps0_3, hostOps0_4] [hostOps0_5, hostOps0_6] nwa7)]
  exact take5k8_eq _ _ h

theorem take6 (c : Dev nD) (h : ∀ p, ((m ((c : Thread nD τ).loc main_arg6)) p).toNat < 100000) :
    (V m c main_v6 : S500000.Idx → EReal)
      = Host.gather gather_S100000_S500000x1_S500000_n_0_n_n_0_1_1 (m ((c : Thread nD τ).loc main_arg2)) (broadcastInDim S500000x1 ![0] bcast_S500000_S500000x1_0 (select (cmpi .slt (m ((c : Thread nD τ).loc main_arg6)) (broadcastInDim S500000 ![] bcast_S_S500000 (constantI S_ 32 0#32))) (addi (m ((c : Thread nD τ).loc main_arg6)) (broadcastInDim S500000 ![] bcast_S_S500000 (constantI S_ 32 100000#32))) (m ((c : Thread nD τ).loc main_arg6)))) := by
  have e : (V m c main_v6 : S500000.Idx → EReal)
      = StableHlo.after hostOps0_6 (StableHlo.after (List.flatten [hostOps0, hostOps0_1, hostOps0_2, hostOps0_3, hostOps0_4, hostOps0_5]) (fun b => m (c, b))) (Proc.devRef .tc main_v6) :=
    read_cut [hostOps0, hostOps0_1, hostOps0_2, hostOps0_3, hostOps0_4, hostOps0_5] [hostOps0_7, hostOps0_8, hostOps0_9, hostOps0_10, hostOps0_11, hostOps0_12, hostOps0_13, hostOps0_14, hostOps0_15, hostOps0_16, hostOps0_17, hostOps0_18, hostOps0_19, hostOps0_20] hostOps0_6 _ _ nwv6
  rw [e, s6, after_of_forall_not_mem _ _ nwa2, after_of_forall_not_mem _ _ nwa6]
  exact take5k1_eq _ _ h

theorem take7 (c : Dev nD) (h : ∀ p, ((m ((c : Thread nD τ).loc main_arg7)) p).toNat < 100000) :
    (V m c main_v7 : S500000.Idx → EReal)
      = Host.gather gather_S100000_S500000x1_S500000_n_0_n_n_0_1_1 (m ((c : Thread nD τ).loc main_arg3)) (broadcastInDim S500000x1 ![0] bcast_S500000_S500000x1_0 (select (cmpi .slt (m ((c : Thread nD τ).loc main_arg7)) (broadcastInDim S500000 ![] bcast_S_S500000 (constantI S_ 32 0#32))) (addi (m ((c : Thread nD τ).loc main_arg7)) (broadcastInDim S500000 ![] bcast_S_S500000 (constantI S_ 32 100000#32))) (m ((c : Thread nD τ).loc main_arg7)))) := by
  have e : (V m c main_v7 : S500000.Idx → EReal)
      = StableHlo.after hostOps0_7 (StableHlo.after (List.flatten [hostOps0, hostOps0_1, hostOps0_2, hostOps0_3, hostOps0_4, hostOps0_5, hostOps0_6]) (fun b => m (c, b))) (Proc.devRef .tc main_v7) :=
    read_cut [hostOps0, hostOps0_1, hostOps0_2, hostOps0_3, hostOps0_4, hostOps0_5, hostOps0_6] [hostOps0_8, hostOps0_9, hostOps0_10, hostOps0_11, hostOps0_12, hostOps0_13, hostOps0_14, hostOps0_15, hostOps0_16, hostOps0_17, hostOps0_18, hostOps0_19, hostOps0_20] hostOps0_7 _ _ nwv7
  rw [e, s7, after_of_forall_not_mem _ _ nwa3, after_of_forall_not_mem _ _ nwa7]
  exact take5k1_eq _ _ h

end Cert.Lsm.K

end
-- ==== Proof.RefValue.lean ====
/-
  The reference's dense term, read off its generated run one operation at a time: the sum over all 3000 x 3000 pairs of
  exp (B i + G j - sqrt (sum_d ((Zi i d - Zj j d) + eps)^2)), where Zi, Zj, B, G are the four sampled (gathered) arrays.
  The gathers themselves are never opened: an entry of a gathered array is an entry of the table, hence real when the
  table is.
-/
import proofs.«431489_j30176440221725_3_alg».proof.Proof.Gen.ReferenceIdeal.Read
import proofs.«431489_j30176440221725_3_alg».proof.Proof.Spec
import Idealize.ShloMosaic.Lib.ValueIdx

noncomputable section

namespace Cert.Lsm.Ref

open Idealize.ShloMosaic Idealize.ShloMosaic.ValueIdx Cert.ReferenceIdeal Cert.ReferenceIdeal.Read

variable [Cert.ReferenceIdeal.Facts]
variable (x0 x1 : (⟨S100000x8, .f32⟩ : BufTy).Contents (Elt Ideal)) (x2 x3 : (⟨S100000, .f32⟩ : BufTy).Contents (Elt Ideal))
  (x4 x5 : (⟨S3000, .i32⟩ : BufTy).Contents (Elt Ideal))

/-- The sampled rows of the first latent table, by plain coordinates. -/
def Zi : Fin 3000 → Fin 8 → EReal := fun i d => val_main_v6 (F := Ideal) x0 x4 (ix2 i d)
/-- The sampled rows of the second latent table. -/
def Zj : Fin 3000 → Fin 8 → EReal := fun j d => val_main_v13 (F := Ideal) x1 x5 (ix2 j d)
/-- The sampled entries of the first bias vector. -/
def B : Fin 3000 → EReal := fun i => val_main_v30 (F := Ideal) x2 x4 (ix1 i)
/-- The sampled entries of the second bias vector. -/
def G : Fin 3000 → EReal := fun j => val_main_v38 (F := Ideal) x3 x5 (ix1 j)

/- A gathered entry is the table read at some operand index, so it is real when every entry of the table is. -/
theorem Zi_real (h : ∀ y, ∃ r : ℝ, x0 y = (r : EReal)) : ∀ i d, ∃ r : ℝ, Zi x0 x4 i d = (r : EReal) := by
  intro i d
  unfold Zi val_main_v6 Host.gather
  exact h _
theorem Zj_real (h : ∀ y, ∃ r : ℝ, x1 y = (r : EReal)) : ∀ j d, ∃ r : ℝ, Zj x1 x5 j d = (r : EReal) := by
  intro j d
  unfold Zj val_main_v13 Host.gather
  exact h _
theorem B_real (h : ∀ y, ∃ r : ℝ, x2 y = (r : EReal)) : ∀ i, ∃ r : ℝ, B x2 x4 i = (r : EReal) := by
  intro i
  unfold B val_main_v30 Host.gather
  exact h _
theorem G_real (h : ∀ y, ∃ r : ℝ, x3 y = (r : EReal)) : ∀ j, ∃ r : ℝ, G x3 x5 j = (r : EReal) := by
  intro j
  unfold G val_main_v38 Host.gather
  exact h _

/-- The all-zero f32 word denotes zero: sign 0, exponent field 0, fraction field 0. -/
private theorem zero_word : Ideal.ofBits .f32 0x00000000#32 = 0 := by
  simp [Ideal.ofBits, Ideal.ieee]

/-- One summand of the squared distance at the pair (i, j) and the latent coordinate k: both broadcasts read the
    sampled rows at (i, k) and (j, k), and the broadcast constant is eps. -/
private theorem sq_at (i j : Fin 3000) (k : Fin 8) :
    val_main_v21 (F := Ideal) x0 x1 x4 x5 (idx_main_v22 (ix2 i j) k)
      = ((Zi x0 x4 i k - Zj x1 x5 j k) + Cert.Lsm.eps) * ((Zi x0 x4 i k - Zj x1 x5 j k) + Cert.Lsm.eps) := by
  have e1 : idx_main_v14 (idx_main_v16 (idx_main_v22 (ix2 i j) k)) = ix2 i k :=
    funext fun a => Fin.ext (by match a with | ⟨0, _⟩ => rfl | ⟨1, _⟩ => rfl)
  have e2 : idx_main_v15 (idx_main_v17 (idx_main_v22 (ix2 i j) k)) = ix2 j k :=
    funext fun a => Fin.ext (by match a with | ⟨0, _⟩ => rfl | ⟨1, _⟩ => rfl)
  rw [val_main_v21_apply, val_main_v20_apply, val_main_v18_apply, val_main_v16_apply, val_main_v14_apply,
    val_main_v17_apply, val_main_v15_apply, val_main_v19_apply, val_main_cst_apply, e1, e2]
  simp only [Ideal.mulf_def, Ideal.addf_def, Ideal.subf_def, Ideal.ofBits_def]
  rfl

/-- The sum of the two broadcast biases at the pair (i, j). -/
private theorem bias_at (i j : Fin 3000) :
    val_main_v42 (F := Ideal) x2 x3 x4 x5 (ix2 i j) = B x2 x4 i + G x3 x5 j := by
  have e1 : idx_main_v31 (idx_main_v40 (ix2 i j)) = ix1 i :=
    funext fun a => Fin.ext (by match a with | ⟨0, _⟩ => rfl)
  have e2 : idx_main_v39 (idx_main_v41 (ix2 i j)) = ix1 j :=
    funext fun a => Fin.ext (by match a with | ⟨0, _⟩ => rfl)
  rw [val_main_v42_apply, val_main_v40_apply, val_main_v31_apply, val_main_v41_apply, val_main_v39_apply, e1, e2]
  simp only [Ideal.addf_def]
  rfl

/-- The reference's summand at the pair (i, j) is exp of the specification's exponent. -/
private theorem pair_eq (i j : Fin 3000) :
    val_main_v81 (F := Ideal) x0 x1 x2 x3 x4 x5 (ix2 i j)
      = Ideal.exp (Cert.Lsm.lamR (Zi x0 x4) (Zj x1 x5) (B x2 x4) (G x3 x5) i j) := by
  rw [val_main_v81_apply, val_main_v43_apply, val_main_v23_apply, val_main_v22_apply, bias_at,
    val_main_cst_3_apply]
  simp only [sq_at, Ideal.hostUnary_exp_def, Ideal.hostUnary_sqrt_def, Ideal.subf_def, Ideal.ofBits_def,
    zero_word, zero_add]
  rfl

/-- The reference's dense term is the specification's. -/
theorem dense_eq (i : S_.Idx) :
    val_main_v82 (F := Ideal) x0 x1 x2 x3 x4 x5 i
      = Cert.Lsm.denseR (Zi x0 x4) (Zj x1 x5) (B x2 x4) (G x3 x5) := by
  rw [val_main_v82_apply, val_main_cst_19_apply, Ideal.ofBits_def, zero_word, zero_add, sum_idx2]
  unfold Cert.Lsm.denseR
  exact Finset.sum_congr rfl fun a _ => Finset.sum_congr rfl fun b _ => pair_eq x0 x1 x2 x3 x4 x5 a b

end Cert.Lsm.Ref

end
-- ==== Proof.BridgeSample.lean ====
/-
  The gathers meet. Each of the kernel program's eight row gathers, once its range test is known to pass, is the gather
  of the table at the wrapped index; the reference program computes its eight gathers by the same expression, so the
  arrays are equal, term for term.
-/
import proofs.«431489_j30176440221725_3_alg».proof.Proof.KernelTake
import proofs.«431489_j30176440221725_3_alg».proof.Proof.RefValue

set_option maxRecDepth 16384

noncomputable section

namespace Cert.Lsm.Bridge

open Idealize.ShloMosaic Idealize.ShloMosaic.TcCoe Idealize.SL.Sem Idealize.ShloMosaic.ValueIdx
open Cert.ReferenceIdeal.Read

variable (m : (ℓ : Loc Cert.KernelIdeal.nD Cert.KernelIdeal.τ Cert.KernelIdeal.sig) → Buf (Elt Ideal) ℓ)

/-- The gather at the wrapped index, in the kernel program's spelling, is the reference's (3000 sampled rows). -/
theorem g0 (c : Dev Cert.KernelIdeal.nD) : Host.gather Cert.KernelIdeal.gather_S100000x8_S3000x1_S3000x8_1_0_n_n_0_1_18 (m ((c.tc : Thread Cert.KernelIdeal.nD Cert.KernelIdeal.τ).loc Cert.KernelIdeal.main_arg0)) (broadcastInDim Cert.KernelIdeal.S3000x1 ![0] Cert.KernelIdeal.Facts₀.bcast_S3000_S3000x1_0 (select (cmpi .slt (m ((c.tc : Thread Cert.KernelIdeal.nD Cert.KernelIdeal.τ).loc Cert.KernelIdeal.main_arg4)) (broadcastInDim Cert.KernelIdeal.S3000 ![] Cert.KernelIdeal.Facts₀.bcast_S_S3000 (constantI Cert.KernelIdeal.S_ 32 0#32))) (addi (m ((c.tc : Thread Cert.KernelIdeal.nD Cert.KernelIdeal.τ).loc Cert.KernelIdeal.main_arg4)) (broadcastInDim Cert.KernelIdeal.S3000 ![] Cert.KernelIdeal.Facts₀.bcast_S_S3000 (constantI Cert.KernelIdeal.S_ 32 100000#32))) (m ((c.tc : Thread Cert.KernelIdeal.nD Cert.KernelIdeal.τ).loc Cert.KernelIdeal.main_arg4)))) = val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) := rfl
theorem g1 (c : Dev Cert.KernelIdeal.nD) : Host.gather Cert.KernelIdeal.gather_S100000x8_S3000x1_S3000x8_1_0_n_n_0_1_18 (m ((c.tc : Thread Cert.KernelIdeal.nD Cert.KernelIdeal.τ).loc Cert.KernelIdeal.main_arg1)) (broadcastInDim Cert.KernelIdeal.S3000x1 ![0] Cert.KernelIdeal.Facts₀.bcast_S3000_S3000x1_0 (select (cmpi .slt (m ((c.tc : Thread Cert.KernelIdeal.nD Cert.KernelIdeal.τ).loc Cert.KernelIdeal.main_arg5)) (broadcastInDim Cert.KernelIdeal.S3000 ![] Cert.KernelIdeal.Facts₀.bcast_S_S3000 (constantI Cert.KernelIdeal.S_ 32 0#32))) (addi (m ((c.tc : Thread Cert.KernelIdeal.nD Cert.KernelIdeal.τ).loc Cert.KernelIdeal.main_arg5)) (broadcastInDim Cert.KernelIdeal.S3000 ![] Cert.KernelIdeal.Facts₀.bcast_S_S3000 (constantI Cert.KernelIdeal.S_ 32 100000#32))) (m ((c.tc : Thread Cert.KernelIdeal.nD Cert.KernelIdeal.τ).loc Cert.KernelIdeal.main_arg5)))) = val_main_v13 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) := rfl
theorem g2 (c : Dev Cert.KernelIdeal.nD) : Host.gather Cert.KernelIdeal.gather_S100000_S3000x1_S3000_n_0_n_n_0_1_1 (m ((c.tc : Thread Cert.KernelIdeal.nD Cert.KernelIdeal.τ).loc Cert.KernelIdeal.main_arg2)) (broadcastInDim Cert.KernelIdeal.S3000x1 ![0] Cert.KernelIdeal.Facts₀.bcast_S3000_S3000x1_0 (select (cmpi .slt (m ((c.tc : Thread Cert.KernelIdeal.nD Cert.KernelIdeal.τ).loc Cert.KernelIdeal.main_arg4)) (broadcastInDim Cert.KernelIdeal.S3000 ![] Cert.KernelIdeal.Facts₀.bcast_S_S3000 (constantI Cert.KernelIdeal.S_ 32 0#32))) (addi (m ((c.tc : Thread Cert.KernelIdeal.nD Cert.KernelIdeal.τ).loc Cert.KernelIdeal.main_arg4)) (broadcastInDim Cert.KernelIdeal.S3000 ![] Cert.KernelIdeal.Facts₀.bcast_S_S3000 (constantI Cert.KernelIdeal.S_ 32 100000#32))) (m ((c.tc : Thread Cert.KernelIdeal.nD Cert.KernelIdeal.τ).loc Cert.KernelIdeal.main_arg4)))) = val_main_v30 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) := rfl
theorem g3 (c : Dev Cert.KernelIdeal.nD) : Host.gather Cert.KernelIdeal.gather_S100000_S3000x1_S3000_n_0_n_n_0_1_1 (m ((c.tc : Thread Cert.KernelIdeal.nD Cert.KernelIdeal.τ).loc Cert.KernelIdeal.main_arg3)) (broadcastInDim Cert.KernelIdeal.S3000x1 ![0] Cert.KernelIdeal.Facts₀.bcast_S3000_S3000x1_0 (select (cmpi .slt (m ((c.tc : Thread Cert.KernelIdeal.nD Cert.KernelIdeal.τ).loc Cert.KernelIdeal.main_arg5)) (broadcastInDim Cert.KernelIdeal.S3000 ![] Cert.KernelIdeal.Facts₀.bcast_S_S3000 (constantI Cert.KernelIdeal.S_ 32 0#32))) (addi (m ((c.tc : Thread Cert.KernelIdeal.nD Cert.KernelIdeal.τ).loc Cert.KernelIdeal.main_arg5)) (broadcastInDim Cert.KernelIdeal.S3000 ![] Cert.KernelIdeal.Facts₀.bcast_S_S3000 (constantI Cert.KernelIdeal.S_ 32 100000#32))) (m ((c.tc : Thread Cert.KernelIdeal.nD Cert.KernelIdeal.τ).loc Cert.KernelIdeal.main_arg5)))) = val_main_v38 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) := rfl
/-- The same for the 500000 link rows. -/
theorem g4 (c : Dev Cert.KernelIdeal.nD) : Host.gather Cert.KernelIdeal.gather_S100000x8_S500000x1_S500000x8_1_0_n_n_0_1_18 (m ((c.tc : Thread Cert.KernelIdeal.nD Cert.KernelIdeal.τ).loc Cert.KernelIdeal.main_arg0)) (broadcastInDim Cert.KernelIdeal.S500000x1 ![0] Cert.KernelIdeal.Facts₀.bcast_S500000_S500000x1_0 (select (cmpi .slt (m ((c.tc : Thread Cert.KernelIdeal.nD Cert.KernelIdeal.τ).loc Cert.KernelIdeal.main_arg6)) (broadcastInDim Cert.KernelIdeal.S500000 ![] Cert.KernelIdeal.Facts₀.bcast_S_S500000 (constantI Cert.KernelIdeal.S_ 32 0#32))) (addi (m ((c.tc : Thread Cert.KernelIdeal.nD Cert.KernelIdeal.τ).loc Cert.KernelIdeal.main_arg6)) (broadcastInDim Cert.KernelIdeal.S500000 ![] Cert.KernelIdeal.Facts₀.bcast_S_S500000 (constantI Cert.KernelIdeal.S_ 32 100000#32))) (m ((c.tc : Thread Cert.KernelIdeal.nD Cert.KernelIdeal.τ).loc Cert.KernelIdeal.main_arg6)))) = val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) := rfl
theorem g5 (c : Dev Cert.KernelIdeal.nD) : Host.gather Cert.KernelIdeal.gather_S100000x8_S500000x1_S500000x8_1_0_n_n_0_1_18 (m ((c.tc : Thread Cert.KernelIdeal.nD Cert.KernelIdeal.τ).loc Cert.KernelIdeal.main_arg1)) (broadcastInDim Cert.KernelIdeal.S500000x1 ![0] Cert.KernelIdeal.Facts₀.bcast_S500000_S500000x1_0 (select (cmpi .slt (m ((c.tc : Thread Cert.KernelIdeal.nD Cert.KernelIdeal.τ).loc Cert.KernelIdeal.main_arg7)) (broadcastInDim Cert.KernelIdeal.S500000 ![] Cert.KernelIdeal.Facts₀.bcast_S_S500000 (constantI Cert.KernelIdeal.S_ 32 0#32))) (addi (m ((c.tc : Thread Cert.KernelIdeal.nD Cert.KernelIdeal.τ).loc Cert.KernelIdeal.main_arg7)) (broadcastInDim Cert.KernelIdeal.S500000 ![] Cert.KernelIdeal.Facts₀.bcast_S_S500000 (constantI Cert.KernelIdeal.S_ 32 100000#32))) (m ((c.tc : Thread Cert.KernelIdeal.nD Cert.KernelIdeal.τ).loc Cert.KernelIdeal.main_arg7)))) = val_main_v57 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) := rfl
theorem g6 (c : Dev Cert.KernelIdeal.nD) : Host.gather Cert.KernelIdeal.gather_S100000_S500000x1_S500000_n_0_n_n_0_1_1 (m ((c.tc : Thread Cert.KernelIdeal.nD Cert.KernelIdeal.τ).loc Cert.KernelIdeal.main_arg2)) (broadcastInDim Cert.KernelIdeal.S500000x1 ![0] Cert.KernelIdeal.Facts₀.bcast_S500000_S500000x1_0 (select (cmpi .slt (m ((c.tc : Thread Cert.KernelIdeal.nD Cert.KernelIdeal.τ).loc Cert.KernelIdeal.main_arg6)) (broadcastInDim Cert.KernelIdeal.S500000 ![] Cert.KernelIdeal.Facts₀.bcast_S_S500000 (constantI Cert.KernelIdeal.S_ 32 0#32))) (addi (m ((c.tc : Thread Cert.KernelIdeal.nD Cert.KernelIdeal.τ).loc Cert.KernelIdeal.main_arg6)) (broadcastInDim Cert.KernelIdeal.S500000 ![] Cert.KernelIdeal.Facts₀.bcast_S_S500000 (constantI Cert.KernelIdeal.S_ 32 100000#32))) (m ((c.tc : Thread Cert.KernelIdeal.nD Cert.KernelIdeal.τ).loc Cert.KernelIdeal.main_arg6)))) = val_main_v70 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) := rfl
theorem g7 (c : Dev Cert.KernelIdeal.nD) : Host.gather Cert.KernelIdeal.gather_S100000_S500000x1_S500000_n_0_n_n_0_1_1 (m ((c.tc : Thread Cert.KernelIdeal.nD Cert.KernelIdeal.τ).loc Cert.KernelIdeal.main_arg3)) (broadcastInDim Cert.KernelIdeal.S500000x1 ![0] Cert.KernelIdeal.Facts₀.bcast_S500000_S500000x1_0 (select (cmpi .slt (m ((c.tc : Thread Cert.KernelIdeal.nD Cert.KernelIdeal.τ).loc Cert.KernelIdeal.main_arg7)) (broadcastInDim Cert.KernelIdeal.S500000 ![] Cert.KernelIdeal.Facts₀.bcast_S_S500000 (constantI Cert.KernelIdeal.S_ 32 0#32))) (addi (m ((c.tc : Thread Cert.KernelIdeal.nD Cert.KernelIdeal.τ).loc Cert.KernelIdeal.main_arg7)) (broadcastInDim Cert.KernelIdeal.S500000 ![] Cert.KernelIdeal.Facts₀.bcast_S_S500000 (constantI Cert.KernelIdeal.S_ 32 100000#32))) (m ((c.tc : Thread Cert.KernelIdeal.nD Cert.KernelIdeal.τ).loc Cert.KernelIdeal.main_arg7)))) = val_main_v77 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) := rfl

/-- The sampled latent rows agree. -/
theorem Zi_eq (c : Dev Cert.KernelIdeal.nD) (h4 : ∀ p, ((m ((c.tc : Thread Cert.KernelIdeal.nD Cert.KernelIdeal.τ).loc Cert.KernelIdeal.main_arg4)) p).toNat < 100000) :
    Cert.Lsm.K.Zi m c = Cert.Lsm.Ref.Zi (m ((c.tc : Thread Cert.KernelIdeal.nD Cert.KernelIdeal.τ).loc Cert.KernelIdeal.main_arg0)) (m ((c.tc : Thread Cert.KernelIdeal.nD Cert.KernelIdeal.τ).loc Cert.KernelIdeal.main_arg4)) := by
  funext i d
  unfold Cert.Lsm.K.Zi Cert.Lsm.Ref.Zi
  rw [Cert.Lsm.K.take0 m c h4]
  exact congrFun (g0 m c) _

theorem Zj_eq (c : Dev Cert.KernelIdeal.nD) (h5 : ∀ p, ((m ((c.tc : Thread Cert.KernelIdeal.nD Cert.KernelIdeal.τ).loc Cert.KernelIdeal.main_arg5)) p).toNat < 100000) :
    Cert.Lsm.K.Zj m c = Cert.Lsm.Ref.Zj (m ((c.tc : Thread Cert.KernelIdeal.nD Cert.KernelIdeal.τ).loc Cert.KernelIdeal.main_arg1)) (m ((c.tc : Thread Cert.KernelIdeal.nD Cert.KernelIdeal.τ).loc Cert.KernelIdeal.main_arg5)) := by
  funext i d
  unfold Cert.Lsm.K.Zj Cert.Lsm.Ref.Zj
  rw [Cert.Lsm.K.take1 m c h5]
  exact congrFun (g1 m c) _

theorem B_eq (c : Dev Cert.KernelIdeal.nD) (h4 : ∀ p, ((m ((c.tc : Thread Cert.KernelIdeal.nD Cert.KernelIdeal.τ).loc Cert.KernelIdeal.main_arg4)) p).toNat < 100000) :
    Cert.Lsm.K.B m c = Cert.Lsm.Ref.B (m ((c.tc : Thread Cert.KernelIdeal.nD Cert.KernelIdeal.τ).loc Cert.KernelIdeal.main_arg2)) (m ((c.tc : Thread Cert.KernelIdeal.nD Cert.KernelIdeal.τ).loc Cert.KernelIdeal.main_arg4)) := by
  funext i
  unfold Cert.Lsm.K.B Cert.Lsm.Ref.B
  rw [Cert.Lsm.K.take2 m c h4]
  exact congrFun (g2 m c) _

theorem G_eq (c : Dev Cert.KernelIdeal.nD) (h5 : ∀ p, ((m ((c.tc : Thread Cert.KernelIdeal.nD Cert.KernelIdeal.τ).loc Cert.KernelIdeal.main_arg5)) p).toNat < 100000) :
    Cert.Lsm.K.G m c = Cert.Lsm.Ref.G (m ((c.tc : Thread Cert.KernelIdeal.nD Cert.KernelIdeal.τ).loc Cert.KernelIdeal.main_arg3)) (m ((c.tc : Thread Cert.KernelIdeal.nD Cert.KernelIdeal.τ).loc Cert.KernelIdeal.main_arg5)) := by
  funext i
  unfold Cert.Lsm.K.G Cert.Lsm.Ref.G
  rw [Cert.Lsm.K.take3 m c h5]
  exact congrFun (g3 m c) _

end Cert.Lsm.Bridge

end
-- ==== Proof.BridgeLink.lean ====
/-
  The link term. Both programs compute, from the four link gathers, the sum over the 500000 links of
  beta + gamma - sqrt (sum_d ((zi - zj) + eps)^2) by the same host operations; with the gathers equal the two terms are
  one expression.
-/
import proofs.«431489_j30176440221725_3_alg».proof.Proof.KernelRun
import proofs.«431489_j30176440221725_3_alg».proof.Proof.BridgeSample

set_option maxRecDepth 16384

noncomputable section

namespace Cert.Lsm.Bridge

open Idealize.ShloMosaic Idealize.ShloMosaic.TcCoe Idealize.SL.Sem Idealize.ShloMosaic.ValueIdx
open Cert.ReferenceIdeal.Read

variable (m : (ℓ : Loc Cert.KernelIdeal.nD Cert.KernelIdeal.τ Cert.KernelIdeal.sig) → Buf (Elt Ideal) ℓ)

/-- The shared chain of host operations on any four link arrays: the kernel program's spelling is the reference's. -/
theorem link_chain (zl zr : Cert.ReferenceIdeal.S500000x8.Idx → EReal) (bl gl : Cert.ReferenceIdeal.S500000.Idx → EReal) :
    Cert.Lsm.K.linkK zl zr bl gl
      = Host.reduceAdd (F := Ideal)
          (subf (addf bl gl)
            (Host.sqrt
              (Host.reduceAdd (F := Ideal)
                (mulf
                  (addf (subf zl zr) (broadcastInDim Cert.ReferenceIdeal.S500000x8 ![] Cert.ReferenceIdeal.Facts₀.bcast_S_S500000x8 (constant (F := Ideal) Cert.ReferenceIdeal.S_ .f32 0x358637BD#32)))
                  (addf (subf zl zr) (broadcastInDim Cert.ReferenceIdeal.S500000x8 ![] Cert.ReferenceIdeal.Facts₀.bcast_S_S500000x8 (constant (F := Ideal) Cert.ReferenceIdeal.S_ .f32 0x358637BD#32))))
                (constant (F := Ideal) Cert.ReferenceIdeal.S_ .f32 0x00000000#32) Cert.ReferenceIdeal.Facts₀.reducesTo_S500000x8_S500000_d1 Cert.ReferenceIdeal.Facts₀.h_S_)))
          (constant (F := Ideal) Cert.ReferenceIdeal.S_ .f32 0x00000000#32) Cert.ReferenceIdeal.Facts₀.reducesTo_S500000_S_d0 Cert.ReferenceIdeal.Facts₀.h_S_ := by
  unfold Cert.Lsm.K.linkK
  rfl

/-- The link terms agree. -/
theorem link_eq (c : Dev Cert.KernelIdeal.nD) (h6 : ∀ p, ((m ((c.tc : Thread Cert.KernelIdeal.nD Cert.KernelIdeal.τ).loc Cert.KernelIdeal.main_arg6)) p).toNat < 100000) (h7 : ∀ p, ((m ((c.tc : Thread Cert.KernelIdeal.nD Cert.KernelIdeal.τ).loc Cert.KernelIdeal.main_arg7)) p).toNat < 100000) :
    Cert.Lsm.K.linkK (Cert.KernelIdeal.Gen.V m c Cert.KernelIdeal.main_v4) (Cert.KernelIdeal.Gen.V m c Cert.KernelIdeal.main_v5) (Cert.KernelIdeal.Gen.V m c Cert.KernelIdeal.main_v6) (Cert.KernelIdeal.Gen.V m c Cert.KernelIdeal.main_v7)
      = val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Cert.Lsm.K.take4 m c h6, Cert.Lsm.K.take5 m c h7, Cert.Lsm.K.take6 m c h6, Cert.Lsm.K.take7 m c h7,
    g4 m c, g5 m c, g6 m c, g7 m c]
  unfold val_main_v80 val_main_cst_18 val_main_v79 val_main_v78 val_main_v63 val_main_v62 val_main_cst_13 val_main_v61
    val_main_v60 val_main_v59 val_main_cst_12 val_main_v58
  exact link_chain _ _ _ _

end Cert.Lsm.Bridge

end
-- ==== Proof.PreFacts.lean ====
/-
  What the precondition says, entry by entry: every float input entry is a real number, and every index entry, read as an
  unsigned word, is below 100000 (which for a 32-bit word is the same as 0 <= idx < 100000 read signed).
-/
import proofs.«431489_j30176440221725_3_alg».proof.Pre_finite_inputs
import Idealize.ShloMosaic.PureOps.Ideal
import Idealize.ShloMosaic.Lib.ReduceAll
import Idealize.ShloMosaic.Lib.StableHlo.Predicate

noncomputable section

namespace Cert.Lsm.PreFacts

open Idealize.ShloMosaic Cert.Pre_finite_inputs

variable [Cert.Pre_finite_inputs.Facts]

/-- The rank-0 shape has exactly one index. -/
instance : Subsingleton S_.Idx := ⟨fun a b => funext fun d => d.elim0⟩

/-- An extended real whose absolute value max x (-x) lies strictly below top is a real number:
    at bottom the maximum is -bottom = top, at top it is top. -/
private theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 denotes top: exponent field all ones, mantissa zero, sign clear. -/
private theorem inf_bits : Ideal.ofBits .f32 0x7F800000#32 = (⊤ : EReal) := by
  simp [Ideal.ofBits, Ideal.ieee]

/-- The float element fact: the ordered comparison |x| < +inf being one says x is real. -/
private theorem real_of_elt (x : Ideal .f32)
    (h : FloatOps.cmpf (F := Ideal) .olt (FloatOps.hostAbsf x) (FloatOps.ofBits .f32 0x7F800000#32) = 1#1) :
    ∃ r : ℝ, x = (r : EReal) := by
  apply real_of_abs_lt_top
  have h' : Ideal.cmp .olt (max x (-x)) (Ideal.ofBits .f32 0x7F800000#32) = 1#1 := h
  rw [inf_bits] at h'
  unfold Ideal.cmp at h'
  rw [StableHlo.Predicate.ofBool_eq_one_iff] at h'
  exact of_decide_eq_true h'

/-- The integer element fact: a word that is at least 0 and below 100000, both read signed, has its top bit clear,
    so its unsigned reading is the signed one and is below 100000. -/
private theorem toNat_lt_of_elt (w : BitVec 32) (h0 : IntOp.cmpi .sge w 0#32 = 1#1)
    (h1 : IntOp.cmpi .slt w 100000#32 = 1#1) : w.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  have hc := BitVec.toInt_eq_toNat_cond w
  have hlt := w.isLt
  split at hc <;> omega

/-- One float all-test read back: the and-reduction of the entrywise comparisons |x| < +inf, being one at the single
    result index, makes every entry of x a real number. -/
private theorem float_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant S_ .f32 0x7F800000#32)))
          (constantI S_ 1 1#1) hr hu j = 1#1) (y : s.Idx) : ∃ r : ℝ, x y = (r : EReal) :=
  real_of_elt (x y) (Host.reduce_andi_all _ _ hr hu j e y)

/-- One integer all-test read back: the and-reduction of the entrywise range tests 0 <= x and x < 100000 (signed), being
    one at the single result index, bounds every entry of x, read unsigned, by 100000. -/
private theorem int_all {s : Shape} {axes : List (Fin s.rank)} (x : IVec s 32)
    (hb : S_.BroadcastsInDim s (![] : Fin 0 → Fin s.rank)) (hr : s.ReducesTo axes S_) (hu : 0 < S_.numel) (j : S_.Idx)
    (e : Host.reduce IntOp.andi
          (andi (cmpi .sge x (broadcastInDim s ![] hb (constantI S_ 32 0#32)))
                (cmpi .slt x (broadcastInDim s ![] hb (constantI S_ 32 100000#32))))
          (constantI S_ 1 1#1) hr hu j = 1#1) (p : s.Idx) : (x p).toNat < 100000 := by
  have h := Host.reduce_andi_all _ _ hr hu j e p
  obtain ⟨h0, h1⟩ := IntOp.andi_eq_one.1 h
  exact toNat_lt_of_elt (x p) h0 h1

/-- The last stretch of the printed chain: its result is the conjunction of the flag it is handed with the two range
    tests over the two long index arrays. -/
private theorem part2 (i6 i7 : IVec S500000 32) (v32 : IVec S_ 1) (j : S_.Idx)
    (e : fn_part2 (F := Ideal) i6 i7 v32 (constantI S_ 32 0#32) j = 1#1) :
    v32 j = 1#1 ∧ (∀ p, (i6 p).toNat < 100000) ∧ (∀ p, (i7 p).toNat < 100000) := by
  unfold fn_part2 at e
  dsimp only at e
  obtain ⟨e1, e7⟩ := IntOp.andi_eq_one.1 e
  obtain ⟨e0, e6⟩ := IntOp.andi_eq_one.1 e1
  exact ⟨e0, int_all i6 _ _ _ j e6, int_all i7 _ _ _ j e7⟩

/-- The middle stretch: the flag it is handed, the all-ones test of the comparison array it is handed, the two range
    tests over the short index arrays, and then the last stretch. -/
private theorem part1 (i4 i5 : IVec S3000 32) (i6 i7 : IVec S500000 32) (v13 : IVec S_ 1) (v16 : IVec S100000 1)
    (j : S_.Idx) (e : fn_part1 (F := Ideal) i4 i5 i6 i7 v13 v16 j = 1#1) :
    v13 j = 1#1 ∧ (∀ y, v16 y = 1#1) ∧ (∀ p, (i4 p).toNat < 100000) ∧ (∀ p, (i5 p).toNat < 100000)
    ∧ (∀ p, (i6 p).toNat < 100000) ∧ (∀ p, (i7 p).toNat < 100000) := by
  unfold fn_part1 at e
  dsimp only at e
  obtain ⟨e32, h6, h7⟩ := part2 i6 i7 _ j e
  obtain ⟨e25, e5⟩ := IntOp.andi_eq_one.1 e32
  obtain ⟨e18, e4⟩ := IntOp.andi_eq_one.1 e25
  obtain ⟨e13, e17⟩ := IntOp.andi_eq_one.1 e18
  exact ⟨e13, fun y => Host.reduce_andi_all _ _ _ _ j e17 y, int_all i4 _ _ _ j e4, int_all i5 _ _ _ j e5, h6, h7⟩

/-- The printed precondition, all ones, gives the entrywise facts. -/
theorem decode
    (a0 a1 : FVec Ideal S100000x8 .f32) (a2 a3 : FVec Ideal S100000 .f32)
    (i4 i5 : IVec S3000 32) (i6 i7 : IVec S500000 32)
    (h : Cert.Pre_finite_inputs.fn (F := Ideal) a0 a1 a2 a3 i4 i5 i6 i7 = fun _ => 1#1) :
    (∀ y, ∃ r : ℝ, a0 y = (r : EReal)) ∧ (∀ y, ∃ r : ℝ, a1 y = (r : EReal))
    ∧ (∀ y, ∃ r : ℝ, a2 y = (r : EReal)) ∧ (∀ y, ∃ r : ℝ, a3 y = (r : EReal))
    ∧ (∀ p, (i4 p).toNat < 100000) ∧ (∀ p, (i5 p).toNat < 100000)
    ∧ (∀ p, (i6 p).toNat < 100000) ∧ (∀ p, (i7 p).toNat < 100000) := by
  have j : S_.Idx := fun d => d.elim0
  have e := congrFun h j
  unfold Cert.Pre_finite_inputs.fn at e
  dsimp only at e
  obtain ⟨e13, h16, h4, h5, h6, h7⟩ := part1 i4 i5 i6 i7 _ _ j e
  obtain ⟨e8, e12⟩ := IntOp.andi_eq_one.1 e13
  obtain ⟨e3, e7⟩ := IntOp.andi_eq_one.1 e8
  exact ⟨float_all a0 _ _ _ j e3, float_all a1 _ _ _ j e7, float_all a2 _ _ _ j e12,
    fun y => real_of_elt (a3 y) (h16 y), h4, h5, h6, h7⟩

end Cert.Lsm.PreFacts

end
-- ==== Proof.Bridge.lean ====
/-
  The dense term and the result. The host's sum of the region's output column is the specification's kernel-side
  dense term; on the sampled arrays, which agree and are real under the precondition, the specification's law turns it
  into the reference's dense term. With the link terms equal, the two results are equal.
-/
import proofs.«431489_j30176440221725_3_alg».proof.Proof.BridgeLink
import proofs.«431489_j30176440221725_3_alg».proof.Proof.PreFacts
import proofs.«431489_j30176440221725_3_alg».proof.Proof.Gen.Pre_finite_inputs

set_option maxRecDepth 16384

noncomputable section

namespace Cert.Lsm.Bridge

open Idealize.ShloMosaic Idealize.ShloMosaic.TcCoe Idealize.SL.Sem Idealize.ShloMosaic.ValueIdx
open Cert.ReferenceIdeal.Read

variable (m : (ℓ : Loc Cert.KernelIdeal.nD Cert.KernelIdeal.τ Cert.KernelIdeal.sig) → Buf (Elt Ideal) ℓ)

/-- The host's sum of the region's output column is the specification's kernel-side dense term. -/
theorem sum_out (c : Dev Cert.KernelIdeal.nD) (i : Cert.KernelIdeal.S_.Idx) :
    Host.reduceAdd (F := Ideal) (Cert.Lsm.K.outArr m c) (constant (F := Ideal) Cert.KernelIdeal.S_ .f32 0#32)
        Cert.KernelIdeal.Facts₀.reducesTo_S3072x1_S_d0_1 Cert.KernelIdeal.Facts₀.h_S_ i
      = Cert.Lsm.denseK (Cert.Lsm.K.Zi m c) (Cert.Lsm.K.Zj m c) (Cert.Lsm.K.B m c) (Cert.Lsm.K.G m c) := by
  generalize hy : Cert.Lsm.K.outArr m c = y0
  simp only [Host.reduceAdd, Ideal.hostReduceAdd_def]
  rw [Ideal.hostReduceAdd_total Cert.KernelIdeal.Facts₀.reducesTo_S3072x1_S_d0_1 (fun b => b.elim0) y0 _ i]
  subst hy
  rw [sum_idx2]
  show Ideal.ofBits .f32 0#32 + _ = _
  rw [Ideal.ofBits_zero_f32, zero_add]
  unfold Cert.Lsm.denseK
  refine Finset.sum_congr rfl fun a _ => ?_
  rw [Fin.sum_univ_one]
  rfl

/-- The result function at its one index: the difference of the link term and the sum of the output column. -/
theorem resOf_apply (out : Cert.KernelIdeal.S3072x1.Idx → EReal) (zl zr : Cert.KernelIdeal.S500000x8.Idx → EReal) (bl gl : Cert.KernelIdeal.S500000.Idx → EReal)
    (i : Cert.KernelIdeal.S_.Idx) :
    Cert.Lsm.K.resOf out zl zr bl gl i
      = FloatOps.subf (Cert.Lsm.K.linkK zl zr bl gl i)
          (Host.reduceAdd (F := Ideal) out (constant (F := Ideal) Cert.KernelIdeal.S_ .f32 0#32)
            Cert.KernelIdeal.Facts₀.reducesTo_S3072x1_S_d0_1 Cert.KernelIdeal.Facts₀.h_S_ i) := rfl

/-- Under the precondition the reference's result is the kernel program's. -/
theorem res_eq (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1) :
    val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = Cert.Lsm.K.resK m c := by
  obtain ⟨r0, r1, r2, r3, h4, h5, h6, h7⟩ := Cert.Lsm.PreFacts.decode _ _ _ _ _ _ _ _ hpre
  funext i
  rw [val_main_v83_apply]
  unfold Cert.Lsm.K.resK
  rw [resOf_apply, link_eq m c h6 h7, sum_out m c i, Zi_eq m c h4, Zj_eq m c h5, B_eq m c h4, G_eq m c h5,
    Cert.Lsm.denseK_eq_denseR _ _ _ _ (Cert.Lsm.Ref.Zi_real _ _ r0) (Cert.Lsm.Ref.Zj_real _ _ r1)
      (Cert.Lsm.Ref.B_real _ _ r2) (Cert.Lsm.Ref.G_real _ _ r3),
    ← Cert.Lsm.Ref.dense_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) i]

end Cert.Lsm.Bridge

end
-- ==== Proof.lean ====
/-
  The certificate of the latent-space-model log-likelihood kernel against its reference:
  LL = sum over the 500000 links of (beta + gamma - distance) - sum over the 3000 x 3000 sampled pairs of
  exp (beta_i + gamma_j - distance_ij).

  The reference computes each pair's distance as sqrt (sum_d ((zi - zj) + eps)^2). The kernel gathers the same rows,
  pads every operand with zeros from 3000 to 3072 rows, and in a 4 x 4 grid of 768 x 768 blocks computes the squared
  distance as |zi + eps|^2 + |zj|^2 - 2 (zi + eps) . zj by one matrix product per block, clamps it at zero, masks the
  padded rows and columns by a fill constant that denotes minus infinity (so that exp gives zero there), and accumulates
  the row sums of the exponentials over the four blocks of a row in a carried column; the host then sums the output
  column and subtracts it from the link term, which both programs compute by the same host operations.

  Over the extended reals the two programs agree when every float input is finite (the identity
  |a|^2 + |b|^2 - 2 a.b = |a - b|^2 needs real numbers) and every index is in range (out of range the kernel's take
  fills with a NaN where the reference's gather clamps). The three frames: the kernel's two are the generated frame
  certificates; the reference's is its generated run with the result dropped. The idealization's one rewrite, the named
  fill constant, is its rule's statement.
-/
import proofs.«431489_j30176440221725_3_alg».proof.Defs
import proofs.«431489_j30176440221725_3_alg».proof.Proof.Gen.Kernel
import proofs.«431489_j30176440221725_3_alg».proof.Proof.Gen.Kernel.Skeleton
import proofs.«431489_j30176440221725_3_alg».proof.Proof.Gen.Kernel.Launch
import proofs.«431489_j30176440221725_3_alg».proof.Proof.Gen.Kernel.Points
import proofs.«431489_j30176440221725_3_alg».proof.Proof.Gen.Kernel.Frame
import proofs.«431489_j30176440221725_3_alg».proof.Proof.Gen.KernelIdeal
import proofs.«431489_j30176440221725_3_alg».proof.Proof.Gen.KernelIdeal.Skeleton
import proofs.«431489_j30176440221725_3_alg».proof.Proof.Gen.KernelIdeal.Launch
import proofs.«431489_j30176440221725_3_alg».proof.Proof.Gen.KernelIdeal.Points
import proofs.«431489_j30176440221725_3_alg».proof.Proof.Gen.KernelIdeal.Frame
import proofs.«431489_j30176440221725_3_alg».proof.Proof.Gen.ReferenceIdeal
import proofs.«431489_j30176440221725_3_alg».proof.Proof.Gen.ReferenceIdeal.Run
import proofs.«431489_j30176440221725_3_alg».proof.Proof.Gen.Pre_finite_inputs
import proofs.«431489_j30176440221725_3_alg».proof.Proof.Bridge
import Idealize.ShloMosaic.Adequacy
import Idealize.ShloMosaic.Init

noncomputable section

namespace Cert.Proof

open Idealize.ShloMosaic Idealize.SL.Sem Cert.Kernel

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference program's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the fill constant's name denotes minus infinity by the certificate's table. -/
theorem preserves : Cert.preserves_Kernel_KernelIdeal :=
  IdealRules.named_const.statement Cert.KernelIdeal.κ "neg_big" .f32 0xF149F2CA#32 ⊥ rfl

/-- Both idealized programs end with the same result: the kernel program's result function of its arguments, which
    under the precondition is the reference's. -/
theorem algebraic : Cert.algebraic_KernelIdeal_ReferenceIdeal := by
  intro m ρ m' ρ' hpre hagree
  refine ⟨fun c => Cert.Lsm.K.resK m c, Cert.Lsm.K.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v83_eq, a0, a1, a2, a3, a4, a5, a6, a7]
  exact Cert.Lsm.Bridge.res_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
